-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S2048x32 : Shape := ⟨2, ![2048, 32]⟩
abbrev S256x256 : Shape := ⟨2, ![256, 256]⟩
abbrev S256 : Shape := ⟨1, ![256]⟩
abbrev S512 : Shape := ⟨1, ![512]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_
  bcast_S_S2048x32 : S_.BroadcastsInDim S2048x32 (![] : Fin 0 → Fin S2048x32.rank)
  reducesTo_S2048x32_S_d0_1 : S2048x32.ReducesTo [0, 1] S_

variable [Facts]

def fn_part2 {F : FTy → Type} [FloatOps F] (main_arg1 : IVec S2048x32 32) (main_v33 : IVec S_ 1) : IVec S_ 1 :=
  let main_c_12 : IVec S_ 32 := constantI S_ 32 0#32
  let main_v34 : IVec S2048x32 32 := broadcastInDim S2048x32 ![] bcast_S_S2048x32 main_c_12
  let main_v35 : IVec S2048x32 1 := cmpi .sge main_arg1 main_v34
  let main_c_13 : IVec S_ 32 := constantI S_ 32 2048#32
  let main_v36 : IVec S2048x32 32 := broadcastInDim S2048x32 ![] bcast_S_S2048x32 main_c_13
  let main_v37 : IVec S2048x32 1 := cmpi .slt main_arg1 main_v36
  let main_v38 : IVec S2048x32 1 := andi main_v35 main_v37
  let main_c_14 : IVec S_ 1 := constantI S_ 1 1#1
  let main_v39 : IVec S_ 1 := (fun x v => Host.reduce IntOp.andi x v reducesTo_S2048x32_S_d0_1 h_S_) main_v38 main_c_14
  let main_v40 : IVec S_ 1 := andi main_v33 main_v39
  main_v40

def fn_part1 {F : FTy → Type} [FloatOps F] (main_arg1 : IVec S2048x32 32) (main_arg5 : FVec F S256 .f32) (main_arg6 : FVec F S512 .f32) (main_arg7 : FVec F S512 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_v33

def fn {F : FTy → Type} [FloatOps F] (main_arg0 : FVec F S8x2048x256 .f32) (main_arg1 : IVec S2048x32 32) (main_arg2 : FVec F S256x256 .f32) (main_arg3 : FVec F S256 .f32) (main_arg4 : FVec F S256x256 .f32) (main_arg5 : FVec F S256 .f32) (main_arg6 : FVec F S512 .f32) (main_arg7 : FVec F S512 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S8x2048x256 : Shape := ⟨3, ![8, 2048, 256]⟩
abbrev S2048x32 : Shape := ⟨2, ![2048, 32]⟩
abbrev S256x256 : Shape := ⟨2, ![256, 256]⟩
abbrev S256 : Shape := ⟨1, ![256]⟩
abbrev S512 : Shape := ⟨1, ![512]⟩
abbrev S2048x2048 : Shape := ⟨2, ![2048, 2048]⟩
abbrev S256x32 : Shape := ⟨2, ![256, 32]⟩
abbrev S256x2048 : Shape := ⟨2, ![256, 2048]⟩
abbrev S256x1 : Shape := ⟨2, ![256, 1]⟩
abbrev S8x2048x512 : Shape := ⟨3, ![8, 2048, 512]⟩
abbrev S2x512 : Shape := ⟨2, ![2, 512]⟩
abbrev S1x2048x256 : Shape := ⟨3, ![1, 2048, 256]⟩
abbrev S512x2048 : Shape := ⟨2, ![512, 2048]⟩
abbrev S1x512x512 : Shape := ⟨3, ![1, 512, 512]⟩
abbrev S2048x256 : Shape := ⟨2, ![2048, 256]⟩
abbrev S1x512x256 : Shape := ⟨3, ![1, 512, 256]⟩
abbrev S512x256 : Shape := ⟨2, ![512, 256]⟩
abbrev S1x256 : Shape := ⟨2, ![1, 256]⟩
abbrev S512x512 : Shape := ⟨2, ![512, 512]⟩
abbrev S512x1 : Shape := ⟨2, ![512, 1]⟩
abbrev S1x512 : Shape := ⟨2, ![1, 512]⟩
abbrev S_ : Shape := ⟨0, ![]⟩

abbrev nBuf : Space → Nat
  | .hbm => 31
  | .vmem => 22
  | .smem => 0
  | _ => 0

abbrev bufTy : (tb : Table) → Fin (tcTables nBuf tb) → BufTy
  | .hbm, ⟨0, _⟩ => ⟨S8x2048x256, .f32⟩
  | .hbm, ⟨1, _⟩ => ⟨S2048x32, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S512, .f32⟩
  | .hbm, ⟨7, _⟩ => ⟨S512, .f32⟩
  | .hbm, ⟨8, _⟩ => ⟨S2048x2048, .bf16⟩
  | .hbm, ⟨9, _⟩ => ⟨S8x2048x512, .f32⟩
  | .hbm, ⟨10, _⟩ => ⟨S2x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S8x2048x512, .f32⟩
  | .local _ .vmem, ⟨0, _⟩ => ⟨S256x32, .i32⟩
  | .local _ .vmem, ⟨1, _⟩ => ⟨S256x32, .i32⟩
  | .local _ .vmem, ⟨2, _⟩ => ⟨S256x2048, .bf16⟩
  | .local _ .vmem, ⟨3, _⟩ => ⟨S256x2048, .bf16⟩
  | .local _ .vmem, ⟨4, _⟩ => ⟨S1x2048x256, .f32⟩
  | .local _ .vmem, ⟨5, _⟩ => ⟨S1x2048x256, .f32⟩
  | .local _ .vmem, ⟨6, _⟩ => ⟨S512x2048, .bf16⟩
  | .local _ .vmem, ⟨7, _⟩ => ⟨S512x2048, .bf16⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S1x512x512, .f32⟩
  | .local _ .vmem, ⟨13, _⟩ => ⟨S1x512x512, .f32⟩
  | .local _ .vmem, ⟨14, _⟩ => ⟨S2x512, .f32⟩
  | .local _ .vmem, ⟨15, _⟩ => ⟨S2048x256, .bf16⟩
  | .local _ .vmem, ⟨16, _⟩ => ⟨S1x512x512, .f32⟩
  | .local _ .vmem, ⟨17, _⟩ => ⟨S1x512x512, .f32⟩
  | .local _ .vmem, ⟨18, _⟩ => ⟨S512, .f32⟩
  | .local _ .vmem, ⟨19, _⟩ => ⟨S512, .f32⟩
  | .local _ .vmem, ⟨20, _⟩ => ⟨S1x512x512, .f32⟩
  | .local _ .vmem, ⟨21, _⟩ => ⟨S1x512x512, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S2x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S256x32_S256x32_0_0 : ∀ a, (![0, 0] : Fin 2 → Nat) a + S256x32.size a ≤ S256x32.size a
  h_S256x32 : 0 < S256x32.numel
  iota_S256x2048_d1_w32 : S256x2048.Iotas .tc 32 [1]
  slices_S256x32_o0_0_S256x1 : S256x32.Slices ![0, 0] S256x1
  shapeCasts_S256x1_S256 : S256x1.ShapeCasts S256
  shapeCasts_S256_S256x1 : S256.ShapeCasts S256x1
  broadcasts_S256x1_S256x2048 : S256x1.Broadcasts S256x2048
  natLt_1_32 : 1 < 32
  slices_S256x32_o0_1_S256x1 : S256x32.Slices ![0, 1] S256x1
  slices_S256x32_o0_2_S256x1 : S256x32.Slices ![0, 2] S256x1
  slices_S256x32_o0_3_S256x1 : S256x32.Slices ![0, 3] S256x1
  slices_S256x32_o0_4_S256x1 : S256x32.Slices ![0, 4] S256x1
  slices_S256x32_o0_5_S256x1 : S256x32.Slices ![0, 5] S256x1
  slices_S256x32_o0_6_S256x1 : S256x32.Slices ![0, 6] S256x1
  slices_S256x32_o0_7_S256x1 : S256x32.Slices ![0, 7] S256x1
  slices_S256x32_o0_8_S256x1 : S256x32.Slices ![0, 8] S256x1
  slices_S256x32_o0_9_S256x1 : S256x32.Slices ![0, 9] S256x1
  slices_S256x32_o0_10_S256x1 : S256x32.Slices ![0, 10] S256x1
  slices_S256x32_o0_11_S256x1 : S256x32.Slices ![0, 11] S256x1
  slices_S256x32_o0_12_S256x1 : S256x32.Slices ![0, 12] S256x1
  slices_S256x32_o0_13_S256x1 : S256x32.Slices ![0, 13] S256x1
  slices_S256x32_o0_14_S256x1 : S256x32.Slices ![0, 14] S256x1
  slices_S256x32_o0_15_S256x1 : S256x32.Slices ![0, 15] S256x1
  slices_S256x32_o0_16_S256x1 : S256x32.Slices ![0, 16] S256x1
  slices_S256x32_o0_17_S256x1 : S256x32.Slices ![0, 17] S256x1
  slices_S256x32_o0_18_S256x1 : S256x32.Slices ![0, 18] S256x1
  slices_S256x32_o0_19_S256x1 : S256x32.Slices ![0, 19] S256x1
  slices_S256x32_o0_20_S256x1 : S256x32.Slices ![0, 20] S256x1
  slices_S256x32_o0_21_S256x1 : S256x32.Slices ![0, 21] S256x1
  slices_S256x32_o0_22_S256x1 : S256x32.Slices ![0, 22] S256x1
  slices_S256x32_o0_23_S256x1 : S256x32.Slices ![0, 23] S256x1
  slices_S256x32_o0_24_S256x1 : S256x32.Slices ![0, 24] S256x1
  slices_S256x32_o0_25_S256x1 : S256x32.Slices ![0, 25] S256x1
  slices_S256x32_o0_26_S256x1 : S256x32.Slices ![0, 26] S256x1
  slices_S256x32_o0_27_S256x1 : S256x32.Slices ![0, 27] S256x1
  slices_S256x32_o0_28_S256x1 : S256x32.Slices ![0, 28] S256x1
  slices_S256x32_o0_29_S256x1 : S256x32.Slices ![0, 29] S256x1
  slices_S256x32_o0_30_S256x1 : S256x32.Slices ![0, 30] S256x1
  slices_S256x32_o0_31_S256x1 : S256x32.Slices ![0, 31] S256x1
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  h_S1x512x256 : 0 < S1x512x256.numel
  shapeCasts_S1x512x256_S512x256 : S1x512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  concatenates_S512x256_S512x256_S512x512_d1 : Shape.Concatenates [S512x256, S512x256] S512x512 1
  reduces_S512x512_S512 : S512x512.Reduces [1] S512
  shapeCasts_S512_S512x1 : S512.ShapeCasts S512x1
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S2x512_S2x512_0_0 : ∀ a, (![0, 0] : Fin 2 → Nat) a + S2x512.size a ≤ S2x512.size a
  h_S2x512 : 0 < S2x512.numel
  reduces_S512x512_S512_2 : S512x512.Reduces [0] S512
  shapeCasts_S512_S1x512 : S512.ShapeCasts S1x512
  inb_S2x512_S1x512_0_0 : ∀ a, (![0, 0] : Fin 2 → Nat) a + S1x512.size a ≤ S2x512.size a
  h_S1x512 : 0 < S1x512.numel
  shapeCasts_S1x512_S1x512 : S1x512.ShapeCasts S1x512
  inb_S2x512_S1x512_1_0 : ∀ a, (![1, 0] : Fin 2 → Nat) a + S1x512.size a ≤ S2x512.size a
  slices_S2x512_S1x512_0_0 : S2x512.Slices ![0, 0] S1x512
  shapeCasts_S1x512_S512 : S1x512.ShapeCasts S512
  slices_S2x512_S1x512_1_0 : S2x512.Slices ![1, 0] S1x512
  bcast_S_S512 : S_.BroadcastsInDim S512 (![] : Fin 0 → Fin S512.rank)
  inb_S512_S512_0 : ∀ a, (![0] : Fin 1 → Nat) a + S512.size a ≤ S512.size a
  h_S512 : 0 < S512.numel
  shapeCasts_S512_S512 : S512.ShapeCasts S512
  broadcasts_S1x512_S512x512 : S1x512.Broadcasts S512x512
  dot_S2048x256_S256x256_S2048x256_1_0_0_1_n_n_wf : DotDims.WF S2048x256 S256x256 S2048x256 [1] [0] [0] [1] [] []
  dot_S512x256_S256x256_S512x256_1_0_0_1_n_n_wf : DotDims.WF S512x256 S256x256 S512x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S2048x32.size a
  hwx0_0 : ∀ i : grid0.Coords, EltTy.bits .i32 = 32 ∨ (Rect.block (s := S2048x32) S256x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512x256.size a ≤ S1x2048x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x2048x256.size a
  hwx1_0 : ∀ i : grid1.Coords, EltTy.bits .f32 = 32 ∨ (Rect.block (s := S8x2048x256) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .bf16 = 32 ∨ (Rect.block (s := S2048x2048) S512x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x512.size a ≤ S8x2048x512.size a
  hwx1_6 : ∀ i : grid1.Coords, EltTy.bits .f32 = 32 ∨ (Rect.block (s := S8x2048x512) S1x512x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x512.size a ≤ S2x512.size a
  hwx1_7 : ∀ i : grid1.Coords, EltTy.bits .f32 = 32 ∨ (Rect.block (s := S2x512) S2x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S8x2048x512.size a
  hwx2_0 : ∀ i : grid2.Coords, EltTy.bits .f32 = 32 ∨ (Rect.block (s := S8x2048x512) S1x512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512.size a ≤ S512.size a
  hwx2_1 : ∀ i : grid2.Coords, EltTy.bits .f32 = 32 ∨ (Rect.block (s := S512) S512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x512.size a ≤ S8x2048x512.size a
  hwx2_3 : ∀ i : grid2.Coords, EltTy.bits .f32 = 32 ∨ (Rect.block (s := S8x2048x512) S1x512x512.size (cc2_transform_3 i) (hinb2_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg1) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1_0) S1x512x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_1) S2x512.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1_0) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x2048x256 : Shape := ⟨3, ![8, 2048, 256]⟩
abbrev S2048x32 : Shape := ⟨2, ![2048, 32]⟩
abbrev S256x256 : Shape := ⟨2, ![256, 256]⟩
abbrev S256 : Shape := ⟨1, ![256]⟩
abbrev S512 : Shape := ⟨1, ![512]⟩
abbrev S_ : Shape := ⟨0, ![]⟩
abbrev S2048x32x1 : Shape := ⟨3, ![2048, 32, 1]⟩
abbrev S1 : Shape := ⟨1, ![1]⟩
abbrev S1x1x1 : Shape := ⟨3, ![1, 1, 1]⟩
abbrev S8x2048x32x256 : Shape := ⟨4, ![8, 2048, 32, 256]⟩
abbrev S1x1x256 : Shape := ⟨3, ![1, 1, 256]⟩
abbrev S8x2048x512 : Shape := ⟨3, ![8, 2048, 512]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 88
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S2048x32, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S512, .f32⟩
  | .hbm, ⟨7, _⟩ => ⟨S512, .f32⟩
  | .hbm, ⟨8, _⟩ => ⟨S_, .i32⟩
  | .hbm, ⟨9, _⟩ => ⟨S2048x32, .i32⟩
  | .hbm, ⟨10, _⟩ => ⟨S2048x32, .i1⟩
  | .hbm, ⟨11, _⟩ => ⟨S_, .i32⟩
  | .hbm, ⟨12, _⟩ => ⟨S2048x32, .i32⟩
  | .hbm, ⟨13, _⟩ => ⟨S2048x32, .i32⟩
  | .hbm, ⟨14, _⟩ => ⟨S2048x32, .i32⟩
  | .hbm, ⟨15, _⟩ => ⟨S2048x32x1, .i32⟩
  | .hbm, ⟨16, _⟩ => ⟨S1, .i32⟩
  | .hbm, ⟨17, _⟩ => ⟨S_, .i32⟩
  | .hbm, ⟨18, _⟩ => ⟨S2048x32x1, .i32⟩
  | .hbm, ⟨19, _⟩ => ⟨S2048x32x1, .i1⟩
  | .hbm, ⟨20, _⟩ => ⟨S1x1x1, .i32⟩
  | .hbm, ⟨21, _⟩ => ⟨S2048x32x1, .i32⟩
  | .hbm, ⟨22, _⟩ => ⟨S2048x32x1, .i1⟩
  | .hbm, ⟨23, _⟩ => ⟨S2048x32x1, .i1⟩
  | .hbm, ⟨24, _⟩ => ⟨S_, .i1⟩
  | .hbm, ⟨25, _⟩ => ⟨S2048x32, .i1⟩
  | .hbm, ⟨26, _⟩ => ⟨S8x2048x32x256, .f32⟩
  | .hbm, ⟨27, _⟩ => ⟨S8x2048x32x256, .i1⟩
  | .hbm, ⟨28, _⟩ => ⟨S_, .f32⟩
  | .hbm, ⟨29, _⟩ => ⟨S8x2048x32x256, .f32⟩
  | .hbm, ⟨30, _⟩ => ⟨S8x2048x32x256, .f32⟩
  | .hbm, ⟨31, _⟩ => ⟨S_, .f32⟩
  | .hbm, ⟨32, _⟩ => ⟨S8x2048x256, .f32⟩
  | .hbm, ⟨33, _⟩ => ⟨S_, .f32⟩
  | .hbm, ⟨34, _⟩ => ⟨S8x2048x256, .f32⟩
  | .hbm, ⟨35, _⟩ => ⟨S8x2048x256, .f32⟩
  | .hbm, ⟨36, _⟩ => ⟨S8x2048x256, .f32⟩
  | .hbm, ⟨37, _⟩ => ⟨S1x1x256, .f32⟩
  | .hbm, ⟨38, _⟩ => ⟨S8x2048x256, .f32⟩
  | .hbm, ⟨39, _⟩ => ⟨S8x2048x256, .f32⟩
  | .hbm, ⟨40, _⟩ => ⟨S8x2048x256, .f32⟩
  | .hbm, ⟨41, _⟩ => ⟨S1x1x256, .f32⟩
  | .hbm, ⟨42, _⟩ => ⟨S8x2048x256, .f32⟩
  | .hbm, ⟨43, _⟩ => ⟨S8x2048x256, .f32⟩
  | .hbm, ⟨44, _⟩ => ⟨S8x2048x512, .f32⟩
  | .hbm, ⟨45, _⟩ => ⟨S8x2048x512, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x512, .f32⟩
  | .hbm, ⟨54, _⟩ => ⟨S8x2048x512, .f32⟩
  | .hbm, ⟨55, _⟩ => ⟨S_, .f32⟩
  | .hbm, ⟨56, _⟩ => ⟨S8x2048x512, .f32⟩
  | .hbm, ⟨57, _⟩ => ⟨S8x2048x512, .f32⟩
  | .hbm, ⟨58, _⟩ => ⟨S_, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S1x1x512, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S_, .f32⟩
  | .hbm, ⟨68, _⟩ => ⟨S512, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S1x1x512, .f32⟩
  | .hbm, ⟨73, _⟩ => ⟨S8x2048x512, .f32⟩
  | .hbm, ⟨74, _⟩ => ⟨S8x2048x512, .f32⟩
  | .hbm, ⟨75, _⟩ => ⟨S_, .f32⟩
  | .hbm, ⟨76, _⟩ => ⟨S512, .f32⟩
  | .hbm, ⟨77, _⟩ => ⟨S512, .f32⟩
  | .hbm, ⟨78, _⟩ => ⟨S512, .f32⟩
  | .hbm, ⟨79, _⟩ => ⟨S1x1x512, .f32⟩
  | .hbm, ⟨80, _⟩ => ⟨S8x2048x512, .f32⟩
  | .hbm, ⟨81, _⟩ => ⟨S8x2048x512, .f32⟩
  | .hbm, ⟨82, _⟩ => ⟨S1x1x512, .f32⟩
  | .hbm, ⟨83, _⟩ => ⟨S8x2048x512, .f32⟩
  | .hbm, ⟨84, _⟩ => ⟨S8x2048x512, .f32⟩
  | .hbm, ⟨85, _⟩ => ⟨S1x1x512, .f32⟩
  | .hbm, ⟨86, _⟩ => ⟨S8x2048x512, .f32⟩
  | .hbm, ⟨87, _⟩ => ⟨S8x2048x512, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_cst_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call1_cst : Ref sig .tc := ⟨.hbm, 55, rfl⟩
abbrev main_call1_v0 : Ref sig .tc := ⟨.hbm, 56, rfl⟩
abbrev main_v21 : Ref sig .tc := ⟨.hbm, 57, rfl⟩
abbrev main_cst_3 : Ref sig .tc := ⟨.hbm, 58, rfl⟩
abbrev main_v22 : Ref sig .tc := ⟨.hbm, 59, rfl⟩
abbrev main_cst_4 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_5 : Ref sig .tc := ⟨.hbm, 67, rfl⟩
abbrev main_v29 : Ref sig .tc := ⟨.hbm, 68, rfl⟩
abbrev main_cst_6 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_7 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩

abbrev nD : Nat := 1
abbrev τ : Topo := Topo.v7x

variable {F : FTy → Type} [FloatOps F]

class Facts₀ : Prop where
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  bcast_S_S2048x32x1 : S_.BroadcastsInDim S2048x32x1 (![] : Fin 0 → Fin S2048x32x1.rank)
  bcast_S1_S1x1x1_2 : S1.BroadcastsInDim S1x1x1 (![2] : Fin 1 → Fin S1x1x1.rank)
  bcast_S1x1x1_S2048x32x1_0_1_2 : S1x1x1.BroadcastsInDim S2048x32x1 (![0, 1, 2] : Fin 3 → Fin S2048x32x1.rank)
  reducesTo_S2048x32x1_S2048x32_d2 : S2048x32x1.ReducesTo [2] S2048x32
  h_S_ : 0 < S_.numel
  bcast_S2048x32_S8x2048x32x256_1_2 : S2048x32.BroadcastsInDim S8x2048x32x256 (![1, 2] : Fin 2 → Fin S8x2048x32x256.rank)
  bcast_S_S8x2048x32x256 : S_.BroadcastsInDim S8x2048x32x256 (![] : Fin 0 → Fin S8x2048x32x256.rank)
  reducesTo_S8x2048x32x256_S8x2048x256_d2 : S8x2048x32x256.ReducesTo [2] S8x2048x256
  bcast_S_S8x2048x256 : S_.BroadcastsInDim S8x2048x256 (![] : Fin 0 → Fin S8x2048x256.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  concatenates_S8x2048x256_S8x2048x256_S8x2048x512_d2 : Shape.Concatenates [S8x2048x256, S8x2048x256] S8x2048x512 2
  reducesTo_S8x2048x512_S8x2048_d2 : S8x2048x512.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  bcast_S_S8x2048x512 : S_.BroadcastsInDim S8x2048x512 (![] : Fin 0 → Fin S8x2048x512.rank)
  reducesTo_S8x2048x512_S512_d0_1 : S8x2048x512.ReducesTo [0, 1] S512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  gather_S8x2048x256_S2048x32x1_S8x2048x32x256_03_1_n_n_1_2_81256_wf : GatherDims.WF S8x2048x256 S2048x32x1 S8x2048x32x256 [0, 3] [1] [] [1] [] 2 ![8, 1, 256]
  dot_S8x2048x256_S256x256_S8x2048x256_2_1_01_0_n_n_wf : DotDims.WF S8x2048x256 S256x256 S8x2048x256 [2] [1] [0, 1] [0] [] []

variable [Facts₀]

def gather_S8x2048x256_S2048x32x1_S8x2048x32x256_03_1_n_n_1_2_81256 : GatherDims S8x2048x256 S2048x32x1 S8x2048x32x256 where
  offsetDims := [0, 3]
  collapsedSliceDims := [1]
  operandBatchingDims := []
  startIndicesBatchingDims := []
  startIndexMap := [1]
  indexVectorDim := 2
  sliceSizes := ![8, 1, 256]
  wf := gather_S8x2048x256_S2048x32x1_S8x2048x32x256_03_1_n_n_1_2_81256_wf
def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf

class Facts : Prop extends Facts₀ where

variable [Facts]
-- ==== Proof.KI.Pure.lean ====
/-
  The three kernel bodies as pure functions of what they load, composed from the generated payloads.

  Region 0 stores one 256×2048 tile: for each of the 32 neighbour slots the indicator "this column is the slot's
  index", summed and scaled. Region 1 at a grid point (batch, tile) computes, from the batch's feature block, the
  adjacency tile, the weights and the cached projection, one 512×512 tile of activations, and adds its column sums
  and column sums of squares to a 2×512 running total; at a batch's first tile it first refreshes the cached
  projection. Region 2 is one multiply-add per entry.
-/
import proofs.«421764_j40862318854441_1_alg».proof.Proof.Gen.KernelIdeal.Skeleton

noncomputable section

namespace Cert.KernelIdeal.Hand

open Idealize.ShloMosaic Cert.KernelIdeal Cert.KernelIdeal.Gen

variable {F : FTy → Type} [FloatOps F]

/-- Region 0: the tile stored, from the index block loaded (the four parts' payloads chained). -/
def adjPay (x0 : Vec F S256x32 .i32) : FVec F S256x2048 .bf16 :=
  let v1 : IVec S256x2048 32 := iota .tc S256x2048 32 [1] iota_S256x2048_d1_w32
  k0_pay1 x0 v1 (k0_pay8 x0 v1 (k0_pay6 x0 v1 (k0_pay4 x0 v1 (k0_pay2 x0) (k0_pay3 x0)) (k0_pay5 x0)) (k0_pay7 x0 v1)) (k0_pay9 x0)

end Cert.KernelIdeal.Hand

end
-- ==== Proof.KI.R0.lean ====
/-
  Region 0 (the mean-adjacency matrix, one 256-row tile per grid point): each window's block at a point, what the body leaves in the output block, the pipeline's proof data and the body's obligation at every point.
-/
import proofs.«421764_j40862318854441_1_alg».proof.Proof.KI.Pure
import proofs.«421764_j40862318854441_1_alg».proof.Proof.Gen.KernelIdeal.Launch
import proofs.«421764_j40862318854441_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256×2048 output block: the one rectangle the body stores through. -/
abbrev r0_0 : Rect S256x2048 := Rect.unit (s := S256x2048) ![0, 0] S256x2048.size inb_S256x2048_S256x2048_0_0

/-- The output block after the body: its one store, of the tile computed from the index block. -/
def out0_1 (x0 : Vec F S256x32 .i32) : Vec F S256x2048 .bf16 :=
  View.canon [⟨r0_0, adjPay x0⟩]

/-- The proof data: arrays as the region finds them; after the body the input block in place and the output block at
    `out0_1` of it; nothing carried between points, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The index block's staging buffer holds the block at every point, fetched there or not: the window is uncut and
    never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The offset of a whole-block access: zero on both axes. -/
theorem zero_off0 : (![0, 0] : Fin 2 → Nat) = fun _ => 0 := funext fun a => by fin_cases a <;> rfl

/-- The one store is through the whole block, so it covers it. -/
theorem cover0_1 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

set_option maxHeartbeats 1000000 in
/-- The body on whole staging buffers, the index block's at `x0` and the output's at anything: it loads the index
    block, computes the tile through its four parts, loads the output buffer once (the value is not used) and stores
    the tile over the whole of it; the index block is left in place and the output buffer holds `out0_1 x0`. -/
theorem sound_kernel0 (c : Dev nD) (E : Set ℕ) (i : grid0.Coords)
    (arg1 : Memref sig .tc .vmem S256x32 .i32) (harg1 : arg1.IsWhole)
    (arg2 : Memref sig .tc .vmem S256x2048 .bf16) (harg2 : arg2.IsWhole)
    (x0 : Vec F S256x32 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_build_adj_kernel i arg1 harg1 arg2 harg2) K := by
  simp only [cc0_build_adj_kernel_eq_skeleton]; unfold cc0_build_adj_kernel_skel
  simp only [k0_part1_eq_skeleton, k0_part2_eq_skeleton, k0_part3_eq_skeleton, k0_part4_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover0_1 _)]
  unfold out0_1 adjPay
  sl_unfold_run_names
  simp only [View.readAt_eq_ld, View.ld_unit_zero (S := S256x32) zero_off0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the index block's buffer holds its block, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  Region 1 (the projection, normalisation and running sums) as pure data: each window's block at a grid point,
  the 512×512 activations tile the body computes there, the update of the 2×512 running totals, and — by
  recursion on the point's position in the 8×4 grid — what each point leaves behind:
  the tile it stores, the totals so far, and the cached neighbour projection (refreshed at every batch's first tile,
  that is at positions ≡ 0 mod 4; the totals start from zero at position 0).
-/
import proofs.«421764_j40862318854441_1_alg».proof.Proof.KI.Pure
import proofs.«421764_j40862318854441_1_alg».proof.Proof.Gen.KernelIdeal.Launch
import proofs.«421764_j40862318854441_1_alg».proof.Proof.Gen.KernelIdeal.Points
import Idealize.ShloMosaic.Lib.Pipeline.FrameBody

noncomputable section

namespace Cert.KernelIdeal.Hand

open Idealize.ShloMosaic Idealize.ShloMosaic.TcCoe Cert.KernelIdeal Cert.KernelIdeal.Gen
open Idealize.SL Idealize.SL.Sem

variable {F : FTy → Type} [FloatOps F]

/-- Row 0 and row 1 of the 2×512 totals, and the 512 rows of the batch block a tile reads. -/
abbrev rRow0 : Rect S2x512 := Rect.unit (s := S2x512) ![0, 0] S1x512.size inb_S2x512_S1x512_0_0
abbrev rRow1 : Rect S2x512 := Rect.unit (s := S2x512) ![1, 0] S1x512.size inb_S2x512_S1x512_1_0
abbrev rTile (i : grid1.Coords) : Rect S1x2048x256 := Rect.unit (s := S1x2048x256) (k1_off1 i) S1x512x256.size (k1_off1_inb i)

/-- The activations tile at grid coordinates `i`: from the batch's feature block `xb` (its 512 rows at the tile's
    offset), the adjacency tile `a`, the own-projection weights and bias, the cached projection `y`, the neighbour bias. -/
def hPay (i : grid1.Coords) (xb : Vec F S1x2048x256 .f32) (a : Vec F S512x2048 .bf16) (wx : Vec F S256x256 .f32)
    (bx : Vec F S256 .f32) (y : Vec F S2048x256 .bf16) (bn : Vec F S256 .f32) : FVec F S512x512 .f32 :=
  k1_pay6 (View.ld xb (rTile i)) wx bx a y bn

/-- The running totals after a tile `h`: row 0 gains its column sums, row 1 its column sums of squares
    (the two row stores, the later one first). -/
def statPay (h : FVec F S512x512 .f32) (s : Vec F S2x512 .f32) : Vec F S2x512 .f32 :=
  View.canon [⟨rRow1, k1_pay4 h (View.ld s rRow1)⟩, ⟨rRow0, k1_pay3 h (View.ld s rRow0)⟩]

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the point at position `n` leaves: (the tile it stores into the activations block, the running totals,
    the cached projection). -/
def outsAt1 (c : Dev nD) : (n : ℕ) → n < cfg1.N → Vec F S1x512x512 .f32 × Vec F S2x512 .f32 × Vec F S2048x256 .bf16
  | 0, hn =>
    let t : Fin cfg1.N := ⟨0, hn⟩
    let y : Vec F S2048x256 .bf16 := k1_pay5 (iblk1 V c 0 t) (iblk1 V c 4 t)
    let h : FVec F S512x512 .f32 := hPay (grid1.coords t) (iblk1 V c 0 t) (iblk1 V c 1 t) (iblk1 V c 2 t) (iblk1 V c 3 t) y (iblk1 V c 5 t)
    (k1_pay1 h, statPay h k1_pay2, y)
  | n + 1, hn =>
    let t : Fin cfg1.N := ⟨n + 1, hn⟩
    let prev := outsAt1 c n (Nat.lt_of_succ_lt hn)
    let y : Vec F S2048x256 .bf16 := if (n + 1) % 4 = 0 then k1_pay5 (iblk1 V c 0 t) (iblk1 V c 4 t) else prev.2.2
    let h : FVec F S512x512 .f32 := hPay (grid1.coords t) (iblk1 V c 0 t) (iblk1 V c 1 t) (iblk1 V c 2 t) (iblk1 V c 3 t) y (iblk1 V c 5 t)
    (k1_pay1 h, statPay h prev.2.1, y)

end Cert.KernelIdeal.Hand

end
-- ==== Proof.KI.R1Before.lean ====
/-
  Region 1, before the body: what each window's staging buffer holds when the body runs at a grid point, for ANY proof
  data whose arrays are the contents the region finds and whose body leaves each input block in place; and the body's two
  scalar conditions and its row offset in closed form at a grid point of the 8×4 grid (position t = 4·batch + tile).

  An input window not fetched at a point has not moved its block index since the point before, so its buffer still holds
  this point's block. The totals window is an output written back only after the last point and its block index never
  moves, so at every later point its buffer holds what the point before left: the running totals.
-/
import proofs.«421764_j40862318854441_1_alg».proof.Proof.KI.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid in closed form -/

/-- Position `t` of the 8×4 grid is (batch, tile) = (t / 4, t % 4). -/
theorem coords1_0 : ∀ t : Fin cfg1.N, ((grid1.coords t) 0).val = t.val / 4 :=
  (by decide +kernel : ∀ t : Fin grid1.N, ((grid1.coords t) 0).val = t.val / 4)
theorem coords1_1 : ∀ t : Fin cfg1.N, ((grid1.coords t) 1).val = t.val % 4 :=
  (by decide +kernel : ∀ t : Fin grid1.N, ((grid1.coords t) 1).val = t.val % 4)

/-- The tile's row offset into the batch block at position `t`: 512 rows per tile. -/
theorem k1_off1_at (t : Fin cfg1.N) : k1_off1 (grid1.coords t) = ![0, 512 * (t.val % 4), 0] := by
  rw [k1_off1_eq, coords1_1]

/-! ## The body's two conditions -/

/-- "This is the batch's first tile": the tile coordinate is 0. -/
abbrev cond1_0 (i : grid1.Coords) : Prop :=
  Scalar.cmpi .ne (Scalar.extui (Scalar.cmpi .eq (BitVec.ofNat 32 (i 1).val) 0#32)) 0#32 = 1#1

/-- It holds at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the first point of all": both coordinates are 0. -/
abbrev cond1_1 (i : grid1.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1

/-- It holds at position 0 only. -/
theorem hcond1_1 : ∀ t : Fin cfg1.N, cond1_1 (grid1.coords t) ↔ t.val = 0 :=
  (by decide +kernel : ∀ t : Fin grid1.N, cond1_1 (grid1.coords t) ↔ t.val = 0)

/-! ## The input windows -/

/-- The block a fetch reads, for proof data whose array is the region's. -/
theorem blockOf1_of {c : Dev nD} (dat : Dat τ (Elt F) Unit ℕ (UR sig nD τ) ℕ cfg1 c) (w : Fin cfg1.W)
    (hA : dat.A w = V c (Pipeline.arrRef spec1 w)) (t : Fin cfg1.N) : dat.blockOf w t = iblk1 V c w t := by
  unfold Dat.blockOf iblk1; rw [hA]

/-- Window 0 (the batch's features; fetched at the positions ≡ 0 mod 4) holds its block at every point. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hb := blockOf1_of V dat 0 hA
  rw [dat.before_in_eq_fetched 0 rfl (fun _ => rfl) (fun _ _ _ => rfl) (fun s => (hafter s).trans (hb s).symm) t d]
  exact hb t

/-- Window 1 (the adjacency tile; fetched at every point). -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hb := blockOf1_of V dat 1 hA
  rw [dat.before_in_eq_fetched 1 rfl (fun _ => rfl) (fun _ _ _ => rfl) (fun s => (hafter s).trans (hb s).symm) t d]
  exact hb t

/-- Window 2 (the own-projection weights; fetched at the first point only, the block never moving). -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hb := blockOf1_of V dat 2 hA
  rw [dat.before_in_eq_fetched 2 rfl (fun _ => rfl) (fun _ _ _ => rfl) (fun s => (hafter s).trans (hb s).symm) t d]
  exact hb t

/-- Window 3 (the own-projection bias). -/
theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hb := blockOf1_of V dat 3 hA
  rw [dat.before_in_eq_fetched 3 rfl (fun _ => rfl) (fun _ _ _ => rfl) (fun s => (hafter s).trans (hb s).symm) t d]
  exact hb t

/-- Window 4 (the neighbour-projection weights). -/
theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have hb := blockOf1_of V dat 4 hA
  rw [dat.before_in_eq_fetched 4 rfl (fun _ => rfl) (fun _ _ _ => rfl) (fun s => (hafter s).trans (hb s).symm) t d]
  exact hb t

/-- Window 5 (the neighbour bias). -/
theorem before1_5_of {c : Dev nD} (dat : Dat τ (Elt F) Unit ℕ (UR sig nD τ) ℕ cfg1 c)
    (hA : dat.A 5 = V c (Pipeline.arrRef spec1 5)) (hafter : ∀ t, dat.after 5 t = iblk1 V c 5 t)
    (t : Fin cfg1.N) (d) : dat.before 5 t d = iblk1 V c 5 t := by
  have hb := blockOf1_of V dat 5 hA
  rw [dat.before_in_eq_fetched 5 rfl (fun _ => rfl) (fun _ _ _ => rfl) (fun s => (hafter s).trans (hb s).symm) t d]
  exact hb t

/-! ## The totals window -/

/-- The totals block is not written back at any point but the last. -/
theorem not_flush1_7_pred (t : Fin cfg1.N) :
    (cfg1.win 7).flush ⟨t.val - 1, Nat.lt_of_le_of_lt (Nat.sub_le _ _) t.isLt⟩ = false := by
  rw [← Bool.not_eq_true, flush1_7]
  have h := t.isLt
  have hN : cfg1.N = 32 := N_1
  show ¬ (t.val - 1) % 32 = 31
  omega

/-- Window 7 (the running totals) at a point after the first holds what the point before left. -/
theorem before1_7_of {c : Dev nD} (dat : Dat τ (Elt F) Unit ℕ (UR sig nD τ) ℕ cfg1 c)
    (h7 : ∀ t, dat.after 7 t = (outsAt1 V c t.val t.isLt).2.1) (t : Fin cfg1.N) (ht : t.val ≠ 0) (d) :
    dat.before 7 t d = (outsAt1 V c (t.val - 1) (Nat.lt_of_le_of_lt (Nat.sub_le _ _) t.isLt)).2.1 := by
  rw [dat.before_out_kept 7 rfl t ht (not_flush1_7_pred t) (fun _ => rfl) (fun _ _ => rfl) d, h7]

end Cert.KernelIdeal.Hand

end
-- ==== Proof.KI.R1.lean ====
/-
  Region 1 (the projections, the row normalisation and the running sums, one 512-row tile per grid point of the 8×4 grid): the invariant that carries the cached projection from point to point, the pipeline's proof data over what each point leaves (KI/R1Defs.lean `outsAt1`), and the body's obligation at every point.

  The body has three control cases by the point's position n = 4·batch + tile. At n = 0 it refreshes the cached projection and
  zeroes the totals block before adding to it; at the later first tiles of a batch (n ≡ 0 mod 4) it refreshes the projection and adds
  to the totals the point before left; at the other tiles it keeps the projection and adds to the totals. In each case the activations
  block is stored whole, the totals block ends as its two row stores over what it held (the whole-block store of zeros at n = 0), and
  the scratch as its one whole store or untouched.
-/
import proofs.«421764_j40862318854441_1_alg».proof.Proof.KI.R1Defs
import proofs.«421764_j40862318854441_1_alg».proof.Proof.KI.R1Before
import proofs.«421764_j40862318854441_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.RowLoads
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's rectangles and what its stores leave -/

theorem hz1 : (![0] : Fin 1 → ℕ) = fun _ => 0 := funext fun a => by fin_cases a; rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-- The whole activations block, the whole totals block and the whole scratch, as the body's whole-buffer stores name them. -/
abbrev rAct : Rect S1x512x512 := Rect.unit (s := S1x512x512) ![0, 0, 0] S1x512x512.size inb_S1x512x512_S1x512x512_0_0_0
abbrev rTot : Rect S2x512 := Rect.unit (s := S2x512) ![0, 0] S2x512.size inb_S2x512_S2x512_0_0
abbrev rScr : Rect S2048x256 := Rect.unit (s := S2048x256) ![0, 0] S2048x256.size inb_S2048x256_S2048x256_0_0

/-- One store through the whole activations block covers it. -/
theorem cover1_6 (p0 : Vec F S1x512x512 .f32) (y : S1x512x512.Idx) :
    ∃ pc ∈ ([⟨rAct, p0⟩] : List (View.Piece (Elt F) S1x512x512 .f32)), y ∈ pc.1.set :=
  View.cover_of_tiled [⟨rAct, p0⟩] S1x512x512.size (by rfl) y

/-- One store through the whole scratch covers it. -/
theorem cover1_S (p0 : Vec F S2048x256 .bf16) (y : S2048x256.Idx) :
    ∃ pc ∈ ([⟨rScr, p0⟩] : List (View.Piece (Elt F) S2048x256 .bf16)), y ∈ pc.1.set :=
  View.cover_of_tiled [⟨rScr, p0⟩] S2048x256.size (by rfl) y

/-- The two row stores cover the totals block, whatever was stored before them. -/
theorem cover1_7 (p1 : Vec F S1x512 .f32) (p0 : Vec F S1x512 .f32) (L : List (View.Piece (Elt F) S2x512 .f32)) (y : S2x512.Idx) :
    ∃ pc ∈ ((⟨rRow1, p1⟩ : View.Piece (Elt F) S2x512 .f32) :: ⟨rRow0, p0⟩ :: L), y ∈ pc.1.set := by
  obtain ⟨pc, hm, hy⟩ := View.cover_of_tiled ([⟨rRow1, p1⟩, ⟨rRow0, p0⟩] : List (View.Piece (Elt F) S2x512 .f32)) S1x512.size (by rfl) y
  exact ⟨pc, by
    rcases List.mem_cons.mp hm with h | h
    · exact h ▸ List.mem_cons_self
    · rcases List.mem_cons.mp h with h | h
      · exact h ▸ List.mem_cons_of_mem _ List.mem_cons_self
      · exact absurd h List.not_mem_nil, hy⟩

/-- Whatever was stored before them, the two row stores decide the totals block: they cover it. -/
theorem canon_rows_ext (p1 : Vec F S1x512 .f32) (p0 : Vec F S1x512 .f32) (L : List (View.Piece (Elt F) S2x512 .f32)) :
    View.canon ((⟨rRow1, p1⟩ : View.Piece (Elt F) S2x512 .f32) :: ⟨rRow0, p0⟩ :: L) = View.canon [⟨rRow1, p1⟩, ⟨rRow0, p0⟩] := by
  funext y
  by_cases h1 : y ∈ rRow1.set
  · obtain ⟨x, rfl⟩ : ∃ x, rRow1.emb x = y := rRow1.exists_idx_of_mem h1
    exact (View.canon_cons_emb rRow1 p1 _ x).trans (View.canon_cons_emb rRow1 p1 _ x).symm
  · refine (View.canon_cons_of_not_mem (⟨rRow1, p1⟩ : View.Piece (Elt F) S2x512 .f32) _ h1).trans ?_
    refine Eq.trans ?_ (View.canon_cons_of_not_mem (⟨rRow1, p1⟩ : View.Piece (Elt F) S2x512 .f32) _ h1).symm
    have h0 : y ∈ rRow0.set := by
      obtain ⟨pc, hm, hy⟩ := cover1_7 p1 p0 [] y
      rcases List.mem_cons.mp hm with rfl | hm
      · exact absurd hy h1
      · rcases List.mem_cons.mp hm with rfl | hm
        · exact hy
        · exact absurd hm List.not_mem_nil
    obtain ⟨x, rfl⟩ : ∃ x, rRow0.emb x = y := rRow0.exists_idx_of_mem h0
    exact (View.canon_cons_emb rRow0 p0 _ x).trans (View.canon_cons_emb rRow0 p0 _ x).symm

/-- A load of row 1 does not see a store of row 0. -/
theorem readCov_row1_after_row0 {sig' : RefSig} {κ : Kind} {sp : Space} (v : View sig' κ sp S2x512 .f32)
    (inb0 : ∀ a, (![0, 0] : Fin 2 → ℕ) a + (![1, 512] : Fin 2 → ℕ) a ≤ S2x512.size a)
    (inb1 : ∀ a, (![1, 0] : Fin 2 → ℕ) a + (![1, 512] : Fin 2 → ℕ) a ≤ S2x512.size a)
    (x : (Rect.unit (s := S2x512) ![0, 0] ![1, 512] inb0).shape.Idx → Elt F .f32)
    (L : List (View.Piece (Elt F) S2x512 .f32)) :
    v.readCov ((⟨Rect.unit (s := S2x512) ![0, 0] ![1, 512] inb0, x⟩ : View.Piece (Elt F) S2x512 .f32) :: L) (Rect.unit (s := S2x512) ![1, 0] ![1, 512] inb1).toLoadRect
      = v.readCov L (Rect.unit (s := S2x512) ![1, 0] ![1, 512] inb1).toLoadRect :=
  View.readCov_cons_of_rows_disjoint (m := 2) (n := 512) (k := 1) (k' := 1) v 0 1 (Or.inl (le_refl _)) x L inb0 inb1

/-- A load through any rectangle after one store of the whole totals block reads that store's payload there. -/
theorem readCov_tot {sig' : RefSig} {κ : Kind} {sp : Space} (v : View sig' κ sp S2x512 .f32)
    (inbT : ∀ a, (![0, 0] : Fin 2 → ℕ) a + (![2, 512] : Fin 2 → ℕ) a ≤ S2x512.size a)
    (w : (Rect.unit (s := S2x512) ![0, 0] ![2, 512] inbT).shape.Idx → Elt F .f32) (r : Rect S2x512) :
    v.readCov [(⟨Rect.unit (s := S2x512) ![0, 0] ![2, 512] inbT, w⟩ : View.Piece (Elt F) S2x512 .f32)] r.toLoadRect = View.ld (S := S2x512) w r := by
  refine (View.readCov_eq_canon_ld v _ r (fun y => ⟨(⟨Rect.unit (s := S2x512) ![0, 0] ![2, 512] inbT, w⟩ : View.Piece (Elt F) S2x512 .f32), List.mem_singleton_self _, View.mem_set_unit_zero (S := S2x512) hz2 inbT y⟩)).trans ?_
  exact congrArg (fun X => View.ld (S := S2x512) X r) (View.canon_unit_zero (S := S2x512) hz2 inbT w)

/-! ## The body on whole buffers, case by case

In each case the six inputs are read and left as found; the activations buffer, read once (the value unused), is stored whole at
the tile; the totals buffer ends as its two row stores, each row read back before it is stored. -/

set_option maxHeartbeats 1000000 in
/-- A tile that is not a batch's first: neither conditional is taken; the projection is read from the scratch and kept. -/
theorem sound_kernel1_C (c : Dev nD) (E : Set ℕ) (i : grid1.Coords) (hc0 : ¬cond1_0 i) (hc1 : ¬cond1_1 i)
    (arg2 : Memref sig .tc .vmem S1x2048x256 .f32) (harg2 : arg2.IsWhole) (arg3 : Memref sig .tc .vmem S512x2048 .bf16) (harg3 : arg3.IsWhole)
    (arg4 : Memref sig .tc .vmem S256x256 .f32) (harg4 : arg4.IsWhole) (arg5 : Memref sig .tc .vmem S256 .f32) (harg5 : arg5.IsWhole)
    (arg6 : Memref sig .tc .vmem S256x256 .f32) (harg6 : arg6.IsWhole) (arg7 : Memref sig .tc .vmem S256 .f32) (harg7 : arg7.IsWhole)
    (arg8 : Memref sig .tc .vmem S1x512x512 .f32) (harg8 : arg8.IsWhole) (arg9 : Memref sig .tc .vmem S2x512 .f32) (harg9 : arg9.IsWhole)
    (arg10 : Memref sig .tc .vmem S2048x256 .bf16) (harg10 : arg10.IsWhole)
    (x0 : Vec F S1x2048x256 .f32) (x1 : Vec F S512x2048 .bf16) (x2 : Vec F S256x256 .f32) (x3 : Vec F S256 .f32)
    (x4 : Vec F S256x256 .f32) (x5 : Vec F S256 .f32) (s : Vec F S2x512 .f32) (y : Vec F S2048x256 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s ∗ owns (c : Thread nD τ) arg10 fullShare y
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay1 (hPay i x0 x1 x2 x3 y x5))
            ∗ owns (c : Thread nD τ) arg9 fullShare (statPay (hPay i x0 x1 x2 x3 y x5) s)
            ∗ owns (c : Thread nD τ) arg10 fullShare y) -∗ K ⟨⟩))
      ⊢ wp frame (wpE (defs₀ (F := F)) Variants.none c none) E
          (cc1_sage_kernel i arg2 harg2 arg3 harg3 arg4 harg4 arg5 harg5 arg6 harg6 arg7 harg7 arg8 harg8 arg9 harg9 arg10 harg10) K := by
  simp only [cc1_sage_kernel_eq_skeleton]; unfold cc1_sage_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0; subst hf1; subst hf2; subst hf3; subst hf4; subst hf5; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _)).trans ?_
    refine (View.canon_unit_zero (S := S1x512x512) hz3 _ _).trans ?_
    sl_unfold_run_names
    unfold hPay
    simp only [View.readAt_eq_ld, View.ld_unit_zero (S := S256x256) hz2, View.ld_unit_zero (S := S256) hz1, View.ld_unit_zero (S := S512x2048) hz2, View.ld_unit_zero (S := S2048x256) hz2]
  isplitl [H7]
  · iexists _; isplitr
    swap; · iexact H7
    ipureintro
    refine (View.read_writes_eq_canon _ _ _ (cover1_7 _ _ _)).trans ?_
    sl_unfold_run_names
    unfold statPay hPay
    simp only [View.readAt_eq_ld, View.ld_unit_zero (S := S256x256) hz2, View.ld_unit_zero (S := S256) hz1, View.ld_unit_zero (S := S512x2048) hz2, View.ld_unit_zero (S := S2048x256) hz2]
  iexists f8; isplitr; · ipureintro; rfl
  iexact H8

set_option maxHeartbeats 1000000 in
/-- A later batch's first tile: the projection is recomputed and stored whole into the scratch (read once before, the value unused), then read back. -/
theorem sound_kernel1_B (c : Dev nD) (E : Set ℕ) (i : grid1.Coords) (hc0 : cond1_0 i) (hc1 : ¬cond1_1 i)
    (arg2 : Memref sig .tc .vmem S1x2048x256 .f32) (harg2 : arg2.IsWhole) (arg3 : Memref sig .tc .vmem S512x2048 .bf16) (harg3 : arg3.IsWhole)
    (arg4 : Memref sig .tc .vmem S256x256 .f32) (harg4 : arg4.IsWhole) (arg5 : Memref sig .tc .vmem S256 .f32) (harg5 : arg5.IsWhole)
    (arg6 : Memref sig .tc .vmem S256x256 .f32) (harg6 : arg6.IsWhole) (arg7 : Memref sig .tc .vmem S256 .f32) (harg7 : arg7.IsWhole)
    (arg8 : Memref sig .tc .vmem S1x512x512 .f32) (harg8 : arg8.IsWhole) (arg9 : Memref sig .tc .vmem S2x512 .f32) (harg9 : arg9.IsWhole)
    (arg10 : Memref sig .tc .vmem S2048x256 .bf16) (harg10 : arg10.IsWhole)
    (x0 : Vec F S1x2048x256 .f32) (x1 : Vec F S512x2048 .bf16) (x2 : Vec F S256x256 .f32) (x3 : Vec F S256 .f32)
    (x4 : Vec F S256x256 .f32) (x5 : Vec F S256 .f32) (s : Vec F S2x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay1 (hPay i x0 x1 x2 x3 (k1_pay5 x0 x4) x5))
            ∗ owns (c : Thread nD τ) arg9 fullShare (statPay (hPay i x0 x1 x2 x3 (k1_pay5 x0 x4) x5) s)
            ∗ owns (c : Thread nD τ) arg10 fullShare (k1_pay5 x0 x4)) -∗ K ⟨⟩))
      ⊢ wp frame (wpE (defs₀ (F := F)) Variants.none c none) E
          (cc1_sage_kernel i arg2 harg2 arg3 harg3 arg4 harg4 arg5 harg5 arg6 harg6 arg7 harg7 arg8 harg8 arg9 harg9 arg10 harg10) K := by
  simp only [cc1_sage_kernel_eq_skeleton]; unfold cc1_sage_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  subst hf0; subst hf1; subst hf2; subst hf3; subst hf4; subst hf5; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _)).trans ?_
    refine (View.canon_unit_zero (S := S1x512x512) hz3 _ _).trans ?_
    sl_unfold_run_names
    unfold hPay
    simp only [View.readAt_eq_ld, View.ld_unit_zero (S := S256x256) hz2, View.ld_unit_zero (S := S256) hz1, View.ld_unit_zero (S := S512x2048) hz2, View.ld_unit_zero (S := S2048x256) hz2, View.ld_unit_zero (S := S1x2048x256) hz3, View.readCov_unit_zero (S := S2048x256) _ hz2]
  isplitl [H7]
  · iexists _; isplitr
    swap; · iexact H7
    ipureintro
    refine (View.read_writes_eq_canon _ _ _ (cover1_7 _ _ _)).trans ?_
    sl_unfold_run_names
    unfold statPay hPay
    simp only [View.readAt_eq_ld, View.ld_unit_zero (S := S256x256) hz2, View.ld_unit_zero (S := S256) hz1, View.ld_unit_zero (S := S512x2048) hz2, View.ld_unit_zero (S := S2048x256) hz2, View.ld_unit_zero (S := S1x2048x256) hz3, View.readCov_unit_zero (S := S2048x256) _ hz2]
  iexists _; isplitr
  swap; · iexact H8
  ipureintro
  sl_unfold_run_names
  refine (View.read_writes_eq_canon _ _ _ (cover1_S _)).trans ?_
  refine (View.canon_unit_zero (S := S2048x256) hz2 _ _).trans ?_
  simp only [View.readAt_eq_ld, View.ld_unit_zero (S := S256x256) hz2, View.ld_unit_zero (S := S256) hz1, View.ld_unit_zero (S := S512x2048) hz2, View.ld_unit_zero (S := S2048x256) hz2, View.ld_unit_zero (S := S1x2048x256) hz3, View.readCov_unit_zero (S := S2048x256) _ hz2]

set_option maxHeartbeats 1000000 in
/-- The first point: the projection refreshed as above, and the totals buffer stored whole with zeros before its rows are read back and updated. -/
theorem sound_kernel1_A (c : Dev nD) (E : Set ℕ) (i : grid1.Coords) (hc0 : cond1_0 i) (hc1 : cond1_1 i)
    (arg2 : Memref sig .tc .vmem S1x2048x256 .f32) (harg2 : arg2.IsWhole) (arg3 : Memref sig .tc .vmem S512x2048 .bf16) (harg3 : arg3.IsWhole)
    (arg4 : Memref sig .tc .vmem S256x256 .f32) (harg4 : arg4.IsWhole) (arg5 : Memref sig .tc .vmem S256 .f32) (harg5 : arg5.IsWhole)
    (arg6 : Memref sig .tc .vmem S256x256 .f32) (harg6 : arg6.IsWhole) (arg7 : Memref sig .tc .vmem S256 .f32) (harg7 : arg7.IsWhole)
    (arg8 : Memref sig .tc .vmem S1x512x512 .f32) (harg8 : arg8.IsWhole) (arg9 : Memref sig .tc .vmem S2x512 .f32) (harg9 : arg9.IsWhole)
    (arg10 : Memref sig .tc .vmem S2048x256 .bf16) (harg10 : arg10.IsWhole)
    (x0 : Vec F S1x2048x256 .f32) (x1 : Vec F S512x2048 .bf16) (x2 : Vec F S256x256 .f32) (x3 : Vec F S256 .f32)
    (x4 : Vec F S256x256 .f32) (x5 : Vec F S256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay1 (hPay i x0 x1 x2 x3 (k1_pay5 x0 x4) x5))
            ∗ owns (c : Thread nD τ) arg9 fullShare (statPay (hPay i x0 x1 x2 x3 (k1_pay5 x0 x4) x5) k1_pay2)
            ∗ owns (c : Thread nD τ) arg10 fullShare (k1_pay5 x0 x4)) -∗ K ⟨⟩))
      ⊢ wp frame (wpE (defs₀ (F := F)) Variants.none c none) E
          (cc1_sage_kernel i arg2 harg2 arg3 harg3 arg4 harg4 arg5 harg5 arg6 harg6 arg7 harg7 arg8 harg8 arg9 harg9 arg10 harg10) K := by
  simp only [cc1_sage_kernel_eq_skeleton]; unfold cc1_sage_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _)).trans ?_
    refine (View.canon_unit_zero (S := S1x512x512) hz3 _ _).trans ?_
    sl_unfold_run_names
    unfold hPay
    simp only [View.readAt_eq_ld, View.ld_unit_zero (S := S256x256) hz2, View.ld_unit_zero (S := S256) hz1, View.ld_unit_zero (S := S512x2048) hz2, View.ld_unit_zero (S := S2048x256) hz2, View.ld_unit_zero (S := S1x2048x256) hz3, View.readCov_unit_zero (S := S2048x256) _ hz2]
  isplitl [H7]
  · iexists _; isplitr
    swap; · iexact H7
    ipureintro
    sl_unfold_run_names
    refine (View.read_writes_eq_canon _ _ _ (cover1_7 _ _ _)).trans ?_
    refine (canon_rows_ext _ _ _).trans ?_
    unfold statPay hPay
    simp only [View.readAt_eq_ld, View.ld_unit_zero (S := S256x256) hz2, View.ld_unit_zero (S := S256) hz1, View.ld_unit_zero (S := S512x2048) hz2, View.ld_unit_zero (S := S2048x256) hz2, View.ld_unit_zero (S := S1x2048x256) hz3, View.readCov_unit_zero (S := S2048x256) _ hz2, readCov_row1_after_row0, readCov_tot]
  iexists _; isplitr
  swap; · iexact H8
  ipureintro
  sl_unfold_run_names
  refine (View.read_writes_eq_canon _ _ _ (cover1_S _)).trans ?_
  refine (View.canon_unit_zero (S := S2048x256) hz2 _ _).trans ?_
  simp only [View.readAt_eq_ld, View.ld_unit_zero (S := S256x256) hz2, View.ld_unit_zero (S := S256) hz1, View.ld_unit_zero (S := S512x2048) hz2, View.ld_unit_zero (S := S2048x256) hz2, View.ld_unit_zero (S := S1x2048x256) hz3, View.readCov_unit_zero (S := S2048x256) _ hz2]

variable (V : (c : Dev nD) → (b : Ref sig .tc) → Buf (Elt F) ((c : Thread nD τ).loc b))

/-- The cached-projection scratch as a whole memref. -/
abbrev scM1 : Memref sig .tc .vmem S2048x256 .bf16 := Memref.whole cc1_scratch0

/-- The region invariant before position `n`: before the first point the class's (every scoped buffer that is no
    staging buffer of this region at anything, the generator register at some state); afterwards the same with the
    scratch at the projection the point before left cached. -/
def PhiS1 (c : Dev nD) : (n : ℕ) → n ≤ cfg1.N → sProp 𝕄
  | 0, _ => Pipeline.ΦA spec1 c
  | n + 1, hn => iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

/-- The proof data: arrays as the region finds them; after the body at point `t` each of the six input blocks in place, the
    activations block at the tile this point stores and the totals block at the running totals so far (`outsAt1`); the
    invariant `PhiS1`; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

/-! ## The invariant, with the scratch set apart -/

/-- The invariant's resources with the cached projection at `y`. -/
def PhiY (c : Dev nD) (y : Vec F S2048x256 .bf16) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare y ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

/-- The same without the scratch: the other scoped buffers at anything and the generator register at some state. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

theorem PhiY_elim (c : Dev nD) (y : Vec F S2048x256 .bf16) :
    (PhiY c y : sProp 𝕄) ⊢ iprop(owns (c : Thread nD τ) scM1 fullShare y ∗ restS1 c) := by
  unfold PhiY restS1
  iintro ⟨A1, A2, A3, A4, HS, B1, B2, B3, B4, B5, B6, Hg⟩
  isplitl [HS]; · iexact HS
  isplitl [A1]; · iexact A1
  isplitl [A2]; · iexact A2
  isplitl [A3]; · iexact A3
  isplitl [A4]; · iexact A4
  isplitl [B1]; · iexact B1
  isplitl [B2]; · iexact B2
  isplitl [B3]; · iexact B3
  isplitl [B4]; · iexact B4
  isplitl [B5]; · iexact B5
  isplitl [B6]; · iexact B6
  iexact Hg

theorem PhiY_intro (c : Dev nD) (y : Vec F S2048x256 .bf16) :
    iprop(owns (c : Thread nD τ) scM1 fullShare y ∗ restS1 c) ⊢ (PhiY c y : sProp 𝕄) := by
  unfold PhiY restS1
  iintro ⟨HS, A1, A2, A3, A4, B1, B2, B3, B4, B5, B6, Hg⟩
  isplitl [A1]; · iexact A1
  isplitl [A2]; · iexact A2
  isplitl [A3]; · iexact A3
  isplitl [A4]; · iexact A4
  isplitl [HS]; · iexact HS
  isplitl [B1]; · iexact B1
  isplitl [B2]; · iexact B2
  isplitl [B3]; · iexact B3
  isplitl [B4]; · iexact B4
  isplitl [B5]; · iexact B5
  isplitl [B6]; · iexact B6
  iexact Hg

/-- What the launch hands the region: the scratch at anything, and the rest. -/
theorem PhiA1_elim (c : Dev nD) :
    (Pipeline.ΦA spec1 c : sProp 𝕄) ⊢ iprop((∃ d, owns (c : Thread nD τ) scM1 fullShare d) ∗ restS1 c) := by
  unfold Pipeline.ΦA restS1; rw [scopedRest1_eq]; simp only [scM1, owns_whole]
  iintro ⟨⟨A1, A2, A3, A4, HS, B1, B2, B3, B4, B5, B6⟩, Hg⟩
  isplitl [HS]; · iexact HS
  isplitl [A1]; · iexact A1
  isplitl [A2]; · iexact A2
  isplitl [A3]; · iexact A3
  isplitl [A4]; · iexact A4
  isplitl [B1]; · iexact B1
  isplitl [B2]; · iexact B2
  isplitl [B3]; · iexact B3
  isplitl [B4]; · iexact B4
  isplitl [B5]; · iexact B5
  isplitl [B6]; · iexact B6
  iexact Hg

/-- Forgetting the cached projection's name gives the class's invariant back. -/
theorem PhiY_toA (c : Dev nD) (y : Vec F S2048x256 .bf16) : (PhiY c y : sProp 𝕄) ⊢ Pipeline.ΦA spec1 c := by
  unfold PhiY Pipeline.ΦA; rw [scopedRest1_eq]; simp only [scM1, owns_whole]
  iintro ⟨A1, A2, A3, A4, HS, B1, B2, B3, B4, B5, B6, Hg⟩
  isplitr [Hg]
  · isplitl [A1]; · iexact A1
    isplitl [A2]; · iexact A2
    isplitl [A3]; · iexact A3
    isplitl [A4]; · iexact A4
    isplitl [HS]; · iexists _; iexact HS
    isplitl [B1]; · iexact B1
    isplitl [B2]; · iexact B2
    isplitl [B3]; · iexact B3
    isplitl [B4]; · iexact B4
    isplitl [B5]; · iexact B5
    iexact B6
  iexact Hg

theorem PhiS1_zero (c : Dev nD) (n : ℕ) (h : n ≤ cfg1.N) (hz : n = 0) : PhiS1 V c n h = Pipeline.ΦA spec1 c := by
  subst hz; rfl

/-- After point `n`: the cached projection at what that point left. -/
theorem PhiS1_succ (c : Dev nD) (n : ℕ) (hn : n < cfg1.N) : PhiS1 V c (n + 1) hn = PhiY c (outsAt1 V c n hn).2.2 := rfl

/-- Before a point that is not the first: the cached projection at what the point before left. -/
theorem PhiS1_pos (c : Dev nD) (n : ℕ) (h : n ≤ cfg1.N) (hz : n ≠ 0) :
    PhiS1 V c n h = PhiY c (outsAt1 V c (n - 1) (by omega)).2.2 := by
  cases n with
  | zero => exact absurd rfl hz
  | succ n => rfl

/-- The invariant at a point's start, restated at the point's position. -/
theorem Phi1_castSucc (c : Dev nD) (t : Fin cfg1.N) :
    (dat1 V c).Φ t.castSucc = PhiS1 V c t.val (Nat.le_of_lt t.isLt) := by
  dsimp only [dat1]; simp only [Fin.coe_castSucc]

/-! ## What each point leaves, case by case -/

/-- At the first point: the projection refreshed, the totals from zero. -/
theorem outsAt1_A (c : Dev nD) (t : Fin cfg1.N) (hz : t.val = 0) :
    outsAt1 V c t.val t.isLt
      = (k1_pay1 (hPay (grid1.coords t) (iblk1 V c 0 t) (iblk1 V c 1 t) (iblk1 V c 2 t) (iblk1 V c 3 t) (k1_pay5 (iblk1 V c 0 t) (iblk1 V c 4 t)) (iblk1 V c 5 t)), statPay (hPay (grid1.coords t) (iblk1 V c 0 t) (iblk1 V c 1 t) (iblk1 V c 2 t) (iblk1 V c 3 t) (k1_pay5 (iblk1 V c 0 t) (iblk1 V c 4 t)) (iblk1 V c 5 t)) k1_pay2, (k1_pay5 (iblk1 V c 0 t) (iblk1 V c 4 t))) := by
  obtain ⟨n, hn⟩ := t
  cases n with
  | zero => rfl
  | succ n => exact absurd hz (Nat.succ_ne_zero n)

/-- At a later first tile of a batch: the projection refreshed, the totals over what the point before left. -/
theorem outsAt1_B (c : Dev nD) (t : Fin cfg1.N) (hz : t.val ≠ 0) (h4 : t.val % 4 = 0) :
    outsAt1 V c t.val t.isLt
      = (k1_pay1 (hPay (grid1.coords t) (iblk1 V c 0 t) (iblk1 V c 1 t) (iblk1 V c 2 t) (iblk1 V c 3 t) (k1_pay5 (iblk1 V c 0 t) (iblk1 V c 4 t)) (iblk1 V c 5 t)), statPay (hPay (grid1.coords t) (iblk1 V c 0 t) (iblk1 V c 1 t) (iblk1 V c 2 t) (iblk1 V c 3 t) (k1_pay5 (iblk1 V c 0 t) (iblk1 V c 4 t)) (iblk1 V c 5 t)) (outsAt1 V c (t.val - 1) (Nat.lt_of_le_of_lt (Nat.sub_le _ _) t.isLt)).2.1, (k1_pay5 (iblk1 V c 0 t) (iblk1 V c 4 t))) := by
  obtain ⟨n, hn⟩ := t
  cases n with
  | zero => exact absurd rfl hz
  | succ n =>
    show outsAt1 V c (n + 1) hn = _
    rw [outsAt1]
    dsimp only
    rw [if_pos h4]
    rfl

/-- At the other tiles: the projection kept, the totals over what the point before left. -/
theorem outsAt1_C (c : Dev nD) (t : Fin cfg1.N) (h4 : ¬t.val % 4 = 0) :
    outsAt1 V c t.val t.isLt
      = (k1_pay1 (hPay (grid1.coords t) (iblk1 V c 0 t) (iblk1 V c 1 t) (iblk1 V c 2 t) (iblk1 V c 3 t) (outsAt1 V c (t.val - 1) (Nat.lt_of_le_of_lt (Nat.sub_le _ _) t.isLt)).2.2 (iblk1 V c 5 t)), statPay (hPay (grid1.coords t) (iblk1 V c 0 t) (iblk1 V c 1 t) (iblk1 V c 2 t) (iblk1 V c 3 t) (outsAt1 V c (t.val - 1) (Nat.lt_of_le_of_lt (Nat.sub_le _ _) t.isLt)).2.2 (iblk1 V c 5 t)) (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact absurd (Nat.zero_mod 4) h4
  | succ n =>
    show outsAt1 V c (n + 1) hn = _
    rw [outsAt1]
    dsimp only
    rw [if_neg h4]
    rfl

/-! ## What the body finds in each buffer -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
/-- After the first point the totals buffer holds what the point before left: it is not written back between. -/
theorem before1_7 (c : Dev nD) (t : Fin cfg1.N) (ht : t.val ≠ 0) (d) :
    (dat1 V c).before 7 t d = (outsAt1 V c (t.val - 1) (Nat.lt_of_le_of_lt (Nat.sub_le _ _) t.isLt)).2.1 :=
  before1_7_of V (dat1 V c) (after1_7 V c) t ht d

/-! ## The body's obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point. The six inputs' buffers hold their blocks; the closed forms of the two conditions say which case the
    point is in; after the first point the totals buffer holds what the point before left and the invariant hands over the
    scratch at the projection the point before cached (at the first point both are at anything, and the body overwrites both);
    so the case's triple applies, and the invariant takes the scratch back at this point's projection. The core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.succ = PhiS1 V c (t.val + 1) t.isLt from rfl, PhiS1_succ, Phi1_castSucc,
    after1_0, after1_1, after1_2, after1_3, after1_4, after1_5, after1_6, after1_7]
  by_cases h4 : t.val % 4 = 0
  · by_cases hz : t.val = 0
    · rw [outsAt1_A V c t hz, PhiS1_zero V c _ _ hz]
      dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiA1_elim c) $$ HΦ
      icases HΦ' with ⟨HS, HR⟩
      iapply (sound_kernel1_A c Set.univ (grid1.coords t) ((hcond1_0 t).mpr h4) ((hcond1_1 t).mpr hz) _ _ _ _ _ _ _ _ _ _ _ _ _ _ _ _ _ _
        (iblk1 V c 0 t) (iblk1 V c 1 t) (iblk1 V c 2 t) (iblk1 V c 3 t) (iblk1 V c 4 t) (iblk1 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR]
      · iapply (PhiY_intro c _)
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [outsAt1_B V c t hz h4, PhiS1_pos V c _ _ hz]
      simp only [before1_7 V c t hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiY_elim c _) $$ HΦ
      icases HΦ' with ⟨HS, HR⟩
      iapply (sound_kernel1_B c Set.univ (grid1.coords t) ((hcond1_0 t).mpr h4) (fun h => hz ((hcond1_1 t).mp h)) _ _ _ _ _ _ _ _ _ _ _ _ _ _ _ _ _ _
        (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexists _; iexact HS
      iintro ⟨H0, H1, H2, H3, H4, H5, H6, H7, HS⟩
      isplitl [HS HR]
      · iapply (PhiY_intro c _)
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun h => h4 (by rw [h])
    rw [outsAt1_C V c t h4, PhiS1_pos V c _ _ hz]
    simp only [before1_7 V c t hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiY_elim c _) $$ HΦ
    icases HΦ' with ⟨HS, HR⟩
    iapply (sound_kernel1_C c Set.univ (grid1.coords t) (fun h => h4 ((hcond1_0 t).mp h)) (fun h => hz ((hcond1_1 t).mp h)) _ _ _ _ _ _ _ _ _ _ _ _ _ _ _ _ _ _
      (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS HR]
    · iapply (PhiY_intro c _)
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body's obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the cached projection's name is forgotten. -/
theorem hout1 (c : Dev nD) : (dat1 V c).Φ (Fin.last cfg1.N) ⊢ Pipeline.ΦA spec1 c := by
  have hne : (Fin.last cfg1.N).val ≠ 0 := by
    rw [Fin.val_last]; have : cfg1.N = 32 := N_1; omega
  rw [show (dat1 V c).Φ (Fin.last cfg1.N) = PhiS1 V c (Fin.last cfg1.N).val (Nat.le_of_lt_succ (Fin.last cfg1.N).isLt) from rfl,
    PhiS1_pos V c _ _ hne]
  exact PhiY_toA c _

end Cert.KernelIdeal.Hand

end
-- ==== Proof.KI.R2.lean ====
/-
  Region 2 (the final multiply-add, one 512×512 tile per grid point): each window's block at a point, what the body leaves in the output block, the pipeline's proof data and the body's obligation at every point.
-/
import proofs.«421764_j40862318854441_1_alg».proof.Proof.KI.Pure
import proofs.«421764_j40862318854441_1_alg».proof.Proof.Gen.KernelIdeal.Launch
import proofs.«421764_j40862318854441_1_alg».proof.Proof.Gen.KernelIdeal.Skeleton
import proofs.«421764_j40862318854441_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 1×512×512 output block: the one rectangle the body stores through. -/
abbrev r2_0 : Rect S1x512x512 := Rect.unit (s := S1x512x512) ![0, 0, 0] S1x512x512.size inb_S1x512x512_S1x512x512_0_0_0

/-- The output block after the body: its one store, the activations tile times the scale plus the shift. -/
def out2_3 (x0 : Vec F S1x512x512 .f32) (x1 : Vec F S512 .f32) (x2 : Vec F S512 .f32) : Vec F S1x512x512 .f32 :=
  View.canon [⟨r2_0, k2_pay1 x0 x1 x2⟩]

/-- The proof data: arrays as the region finds them; after the body the three input blocks in place and the output block at
    `out2_3` of them; nothing carried between points, nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- The zero offsets of a whole block, as constant functions. -/
theorem hz2_3 : (![0, 0, 0] : Fin 3 → Nat) = fun _ => 0 := funext fun a => by fin_cases a <;> rfl
theorem hz2_1 : (![0] : Fin 1 → Nat) = fun _ => 0 := funext fun a => by fin_cases a <;> rfl

/-- Its one store is the whole block, so it covers it. -/
theorem cover2_3 (p0 : Vec F S1x512x512 .f32) (y : S1x512x512.Idx) :
    ∃ pc ∈ ([⟨r2_0, p0⟩] : List (View.Piece (Elt F) S1x512x512 .f32)), y ∈ pc.1.set :=
  View.cover_of_tiled [⟨r2_0, p0⟩] S1x512x512.size (by rfl) y

/-- An input window's current buffer holds its block at every point, fetched there or not: where it is not fetched its
    block index has not moved since the point before, and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

set_option maxHeartbeats 1000000 in
/-- The body on whole buffers: the three inputs read and left as found, the output read once (the value unused) and then
    stored whole, so it ends at `out2_3` of the three inputs. -/
theorem sound_kernel2 (c : Dev nD) (E : Set ℕ) (i : grid2.Coords)
    (arg2 : Memref sig .tc .vmem S1x512x512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S1x512x512 .f32) (harg5 : arg5.IsWhole)
    (x0 : Vec F S1x512x512 .f32) (x1 : Vec F S512 .f32) (x2 : Vec F S512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2_apply_bn_kernel i arg2 harg2 arg3 harg3 arg4 harg4 arg5 harg5) K := by
  simp only [cc2_apply_bn_kernel_eq_skeleton]; unfold cc2_apply_bn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_3 (F := F) _)]
  simp only [View.readAt_eq_ld, View.ld_unit_zero (S := S1x512x512) hz2_3, View.ld_unit_zero (S := S512) hz2_1]
  rfl

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' buffers hold their blocks, so the body's triple applies; the invariant and what
    is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of @main over its four segments: region 0 (the mean-adjacency matrix), region 1 (the activations and the two
  running sums), the host stretch that turns the sums into one scale and one shift per channel, and region 2 (the final
  multiply-add). The buffer contents at each segment boundary are a fold from the launch memory: a region replaces its
  windows' arrays by what its write-backs leave and keeps every other buffer; the host stretch is `StableHlo.after`.
  Each argument array is read back through the fold to its launch contents, and the run concludes that every unscoped
  buffer ends at the last boundary's contents.
-/
import proofs.«421764_j40862318854441_1_alg».proof.Proof.KI.R0
import proofs.«421764_j40862318854441_1_alg».proof.Proof.KI.R1
import proofs.«421764_j40862318854441_1_alg».proof.Proof.KI.R2
import proofs.«421764_j40862318854441_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffer contents at each segment boundary -/

/-- Core `c`'s buffers at launch (no host operation precedes region 0: this is region 0's entry). -/
abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- The same read at the TensorCore's references (what region 0's proof data take). -/
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 1's entry contents). -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references (region 1's exit contents). -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch (region 2's entry). -/
abbrev W3 : Dev nD → Valuation τ sig (Elt F) := fun c => StableHlo.after hostOps2 (W2 m ρ c)
/-- The same read at the TensorCore's references (what region 2's proof data take). -/
abbrev V3 : (c : Dev nD) → (b : Ref sig .tc) → Buf (Elt F) ((c : Thread nD τ).loc b) := fun c b => W3 m ρ c b

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The host stretch leaves every buffer it does not write as it finds it. -/
theorem W3_of (c : Dev nD) (r : Ref sig .tc) (h : r ∉ hostOps2_W) :
    W3 m ρ c (Proc.devRef .tc r) = W2 m ρ c (Proc.devRef .tc r) :=
  StableHlo.after_of_writes_sub hostOps2 _ hostOps2_writes h

/-! ### The arguments end as launched: the host stretch writes none, and a region reads an argument through an input
    window or bypasses it, so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat1 (V1 m ρ) c).arrAt_in 2 rfl _).trans (A_eq1 (V1 m ρ) c 2))
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat1 (V1 m ρ) c).arrAt_in 3 rfl _).trans (A_eq1 (V1 m ρ) c 3))
    _ = W0 m ρ c (Proc.devRef .tc main_arg3) := W1_of_ne m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 4).trans (((dat1 (V1 m ρ) c).arrAt_in 4 rfl _).trans (A_eq1 (V1 m ρ) c 4))
    _ = W0 m ρ c (Proc.devRef .tc main_arg4) := W1_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 5).trans (((dat1 (V1 m ρ) c).arrAt_in 5 rfl _).trans (A_eq1 (V1 m ρ) c 5))
    _ = W0 m ρ c (Proc.devRef .tc main_arg5) := W1_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- unifying a library lemma stated over `pin pcs a p` with the pinned configuration unfolds plain definitions in a
-- metavariable's type
set_option backward.isDefEq.respectTransparency.types false in
/-- REGION 0 over the thread state: entered from every unscoped buffer at `W0`, left at `W1`. Its arrays
    are split out of the unscoped buffers and put back at the exit contents; the generator register goes into the class
    invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over `pin pcs a p` with the pinned configuration unfolds plain definitions in a
-- metavariable's type
set_option backward.isDefEq.respectTransparency.types false in
/-- REGION 1 over the thread state: entered from every unscoped buffer at `W1`, left at `W2`. Its arrays
    are split out of the unscoped buffers and put back at the exit contents; the generator register goes into the class
    invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over `pin pcs a p` with the pinned configuration unfolds plain definitions in a
-- metavariable's type
set_option backward.isDefEq.respectTransparency.types false in
/-- REGION 2 over the thread state: entered from every unscoped buffer at `W3`, left at `W4`. Its arrays
    are split out of the unscoped buffers and put back at the exit contents; the generator register goes into the class
    invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: region 0, region 1, the host stretch from region 1's exit contents, region 2. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- @main IS the run of the segments. -/
theorem main_run (c : Dev nD) : main (F := F) c = Pipeline.Seg.run (segs m ρ) := (main_chain c).trans (by chain_rfl)

-- the launch theorem's implicit arguments are found by unifying its conclusion with this statement, which takes
-- unfolding plain definitions in a metavariable's type
set_option backward.isDefEq.respectTransparency.types false in
/-- THE RUN: from any memory with zero counters, every weakly fair execution of @main on the TensorCores terminates,
    nothing faulting, and in every final state every unscoped buffer holds the last boundary's contents `W4`. -/
theorem run_main : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates, nothing faulting, and every final state has the eight
    argument arrays as launched: each read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_main m ρ)

end Cert.KernelIdeal.Hand

end
-- ==== Proof.Ref.Term.lean ====
/-
  The reference's result as one pure term of its eight arguments, built in stages.

  The gather reads row `idx n k` of every batch of `x` (a negative index first wrapped by 2048, an index still
  outside [0, 2047] answered by NaN); the 32 gathered rows are summed and divided by 32; the node's own features
  and that mean are each projected and biased, the two halves concatenated to 512 channels; each row is divided
  by the larger of its Euclidean norm and a small floor and clamped at zero; finally every channel is normalised
  over all (batch, node) pairs: centred, scaled by the reciprocal root of the biased variance plus epsilon, then
  by gamma, and shifted by beta.
-/
import proofs.«421764_j40862318854441_1_alg».proof.Proof.Gen.ReferenceIdeal

noncomputable section

namespace Cert.ReferenceIdeal.Hand

open Cert.ReferenceIdeal Cert.ReferenceIdeal.Gen Idealize.ShloMosaic

variable {F : FTy → Type} [FloatOps F]

/-! ## The gather -/

/-- The index table as the gather reads it: an entry below zero has 2048 added, and every entry becomes a
    one-entry index vector. -/
def takeIdx (a1 : IVec S2048x32 32) : IVec S2048x32x1 32 :=
  broadcastInDim S2048x32x1 ![0, 1] bcast_S2048x32_S2048x32x1_0_1
    (select (cmpi .slt a1 (broadcastInDim S2048x32 ![] bcast_S_S2048x32 (constantI S_ 32 0#32)))
      (addi a1 (broadcastInDim S2048x32 ![] bcast_S_S2048x32 (constantI S_ 32 2048#32))) a1)

/-- Where the wrapped index lies in [0, 2047], repeated over batches and features. -/
def takeMask (a1 : IVec S2048x32 32) : IVec S8x2048x32x256 1 :=
  broadcastInDim S8x2048x32x256 ![1, 2] bcast_S2048x32_S8x2048x32x256_1_2
    (Host.reduce IntOp.andi
      (andi (cmpi .sge (takeIdx a1) (broadcastInDim S2048x32x1 ![] bcast_S_S2048x32x1 (constantI S_ 32 0#32)))
        (cmpi .sle (takeIdx a1)
          (broadcastInDim S2048x32x1 ![0, 1, 2] bcast_S1x1x1_S2048x32x1_0_1_2
            (broadcastInDim S1x1x1 ![2] bcast_S1_S1x1x1_2 (constantI S1 32 2047#32)))))
      (constantI S_ 1 1#1) reducesTo_S2048x32x1_S2048x32_d2 h_S_)

/-- The gathered rows `x b (idx n k) f`, NaN where the index is out of range. -/
def takeTerm (a0 : FVec F S8x2048x256 .f32) (a1 : IVec S2048x32 32) : FVec F S8x2048x32x256 .f32 :=
  select (takeMask a1)
    (Host.gather gather_S8x2048x256_S2048x32x1_S8x2048x32x256_03_1_n_n_1_2_81256 a0 (takeIdx a1))
    (broadcastInDim S8x2048x32x256 ![] bcast_S_S8x2048x32x256 (constant (F := F) S_ .f32 0x7FC00000#32))

/-! ## The neighbour mean, the two projections, the 512 channels -/

/-- The mean of the 32 gathered rows: their sum divided by 32. -/
def xneibTerm (a0 : FVec F S8x2048x256 .f32) (a1 : IVec S2048x32 32) : FVec F S8x2048x256 .f32 :=
  Host.divf
    (Host.reduceAdd (takeTerm a0 a1) (constant (F := F) S_ .f32 0x00000000#32) reducesTo_S8x2048x32x256_S8x2048x256_d2 h_S_)
    (broadcastInDim S8x2048x256 ![] bcast_S_S8x2048x256 (constant (F := F) S_ .f32 0x42000000#32))

/-- A 256-vector repeated over batches and nodes. -/
def spread256 (v : FVec F S256 .f32) : FVec F S8x2048x256 .f32 :=
  broadcastInDim S8x2048x256 ![0, 1, 2] bcast_S1x1x256_S8x2048x256_0_1_2 (broadcastInDim S1x1x256 ![2] bcast_S256_S1x1x256_2 v)

/-- A projection with its bias: `∑_f u b n f · w o f + bias o`. -/
def projTerm (u : FVec F S8x2048x256 .f32) (w : FVec F S256x256 .f32) (bias : FVec F S256 .f32) : FVec F S8x2048x256 .f32 :=
  addf (Host.dotGeneral dot_S8x2048x256_S256x256_S8x2048x256_2_1_01_0_n_n none u w) (spread256 bias)

/-- The 512 channels: the own projection, then the projection of the neighbour mean. -/
def hcatTerm (a0 : FVec F S8x2048x256 .f32) (a1 : IVec S2048x32 32) (a2 : FVec F S256x256 .f32) (a3 : FVec F S256 .f32)
    (a4 : FVec F S256x256 .f32) (a5 : FVec F S256 .f32) : FVec F S8x2048x512 .f32 :=
  concatenate S8x2048x512 2 [⟨S8x2048x256, projTerm a0 a2 a3⟩, ⟨S8x2048x256, projTerm (xneibTerm a0 a1) a4 a5⟩]
    concatenates_S8x2048x256_S8x2048x256_S8x2048x512_d2

/-! ## Row normalisation and clamp -/

/-- Each row's divisor: the larger of its Euclidean norm and the floor, one entry per (batch, node). -/
def rowDen (hc : FVec F S8x2048x512 .f32) : FVec F S8x2048x1 .f32 :=
  maximumf
    (Host.sqrt (broadcastInDim S8x2048x1 ![0, 1] bcast_S8x2048_S8x2048x1_0_1
      (Host.reduceAdd (mulf hc hc) (constant (F := F) S_ .f32 0x00000000#32) reducesTo_S8x2048x512_S8x2048_d2 h_S_)))
    (broadcastInDim S8x2048x1 ![] bcast_S_S8x2048x1 (constant (F := F) S_ .f32 0x2B8CBCCC#32))

/-- The rows divided by their divisor and clamped at zero. -/
def hTerm (hc : FVec F S8x2048x512 .f32) : FVec F S8x2048x512 .f32 :=
  maximumf
    (Host.divf hc (broadcastInDim S8x2048x512 ![0, 1, 2] bcast_S8x2048x1_S8x2048x512_0_1_2 (rowDen hc)))
    (broadcastInDim S8x2048x512 ![] bcast_S_S8x2048x512 (constant (F := F) S_ .f32 0x00000000#32))

/-! ## Batch normalisation -/

/-- A 512-vector repeated over batches and nodes. -/
def spread512 (v : FVec F S512 .f32) : FVec F S8x2048x512 .f32 :=
  broadcastInDim S8x2048x512 ![0, 1, 2] bcast_S1x1x512_S8x2048x512_0_1_2 (broadcastInDim S1x1x512 ![2] bcast_S512_S1x1x512_2 v)

/-- A channel's mean over the 16384 (batch, node) pairs of any array: its sum divided by 16384. -/
def chanMean (u : FVec F S8x2048x512 .f32) : FVec F S512 .f32 :=
  Host.divf (Host.reduceAdd u (constant (F := F) S_ .f32 0x00000000#32) reducesTo_S8x2048x512_S512_d0_1 h_S_)
    (broadcastInDim S512 ![] bcast_S_S512 (constant (F := F) S_ .f32 0x46800000#32))

/-- The activations centred at their channel means. -/
def cenTerm (h : FVec F S8x2048x512 .f32) : FVec F S8x2048x512 .f32 := subf h (spread512 (chanMean h))

/-- The reciprocal root of the biased variance plus epsilon, per channel. -/
def rstdTerm (h : FVec F S8x2048x512 .f32) : FVec F S512 .f32 :=
  Host.rsqrt (addf (chanMean (mulf (cenTerm h) (cenTerm h)))
    (broadcastInDim S512 ![] bcast_S_S512 (constant (F := F) S_ .f32 0x3727C5AC#32)))

/-- The normalised activations scaled by gamma and shifted by beta. -/
def bnTerm (h : FVec F S8x2048x512 .f32) (a6 a7 : FVec F S512 .f32) : FVec F S8x2048x512 .f32 :=
  addf (mulf (mulf (cenTerm h) (spread512 (rstdTerm h))) (spread512 a6)) (spread512 a7)

/-! ## The whole -/

/-- The reference's result as a function of its eight arguments. -/
def refTerm (a0 : FVec F S8x2048x256 .f32) (a1 : IVec S2048x32 32) (a2 : FVec F S256x256 .f32) (a3 : FVec F S256 .f32)
    (a4 : FVec F S256x256 .f32) (a5 : FVec F S256 .f32) (a6 a7 : FVec F S512 .f32) : FVec F S8x2048x512 .f32 :=
  bnTerm (hTerm (hcatTerm a0 a1 a2 a3 a4 a5)) a6 a7

end Cert.ReferenceIdeal.Hand

end
-- ==== Proof.Ref.Ops.lean ====
/-
  The reference's @main as one straight line of host operations: the three outlined functions' operations written
  at their call sites over the calls' buffer records (the gather's 22 with the select of the index wrap inside,
  the clamp's 3), between @main's own 54. On every device the run ends with every buffer at the fold of the
  operations' results over the launch contents.
-/
import proofs.«421764_j40862318854441_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 80 operations in order, the calls unfolded: the gather's (the zero, the comparison with it, 2048 and
    the sum with it, the select between the two, the index column, the range test, the gather, the NaN fill and
    the select), the mean and the two projections, the concatenation, the row norm and division, the clamp's
    three, then the batch normalisation. -/
abbrev ops : List (HloOp τ sig (Elt F)) :=
  [
    TRef.nullary main_call0.c (constantI S_ 32 0#32),
    TRef.unary main_call0.c main_call0.v0 (broadcastInDim S2048x32 ![] bcast_S_S2048x32),
    TRef.binary (.of main_arg1 : TRef sig ⟨S2048x32, .i32⟩) main_call0.v0 main_call0.v1 (cmpi .slt),
    TRef.nullary main_call0.c_0 (constantI S_ 32 2048#32),
    TRef.unary main_call0.c_0 main_call0.v2 (broadcastInDim S2048x32 ![] bcast_S_S2048x32),
    TRef.binary (.of main_arg1 : TRef sig ⟨S2048x32, .i32⟩) main_call0.v2 main_call0.v3 addi,
    TRef.ternary main_call0.v1 main_call0.v3 (.of main_arg1 : TRef sig ⟨S2048x32, .i32⟩) main_call0.call0.v0 select,
    TRef.unary main_call0.call0.v0 main_call0.v5 (broadcastInDim S2048x32x1 ![0, 1] bcast_S2048x32_S2048x32x1_0_1),
    TRef.nullary main_call0.c_1 (constantI S1 32 2047#32),
    TRef.nullary main_call0.c_2 (constantI S_ 32 0#32),
    TRef.unary main_call0.c_2 main_call0.v6 (broadcastInDim S2048x32x1 ![] bcast_S_S2048x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2048x32x1 ![0, 1, 2] bcast_S1x1x1_S2048x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x32x1_S2048x32_d2 h_S_),
    TRef.binary (.of main_arg0 : TRef sig ⟨S8x2048x256, .f32⟩) main_call0.v5 main_call0.v13 (fun x i => Host.gather gather_S8x2048x256_S2048x32x1_S8x2048x32x256_03_1_n_n_1_2_81256 x i),
    TRef.unary main_call0.v12 main_call0.v14 (broadcastInDim S8x2048x32x256 ![1, 2] bcast_S2048x32_S8x2048x32x256_1_2),
    TRef.nullary main_call0.cst (constant S_ .f32 0x7FC00000#32),
    TRef.unary main_call0.cst main_call0.v15 (broadcastInDim S8x2048x32x256 ![] bcast_S_S8x2048x32x256),
    TRef.ternary main_call0.v14 main_call0.v13 main_call0.v15 main_call0.v16 select,
    nullary main_cst (constant S_ .f32 0x00000000#32),
    binary main_v0 main_cst main_v1 ((fun x v => Host.reduceAdd x v reducesTo_S8x2048x32x256_S8x2048x256_d2 h_S_) : (⟨S8x2048x32x256, .f32⟩ : BufTy).Contents (Elt F) → (⟨S_, .f32⟩ : BufTy).Contents (Elt F) → (⟨S8x2048x256, .f32⟩ : BufTy).Contents (Elt F)),
    nullary main_cst_0 (constant S_ .f32 0x42000000#32),
    unary main_cst_0 main_v2 (broadcastInDim S8x2048x256 ![] bcast_S_S8x2048x256 : (⟨S_, .f32⟩ : BufTy).Contents (Elt F) → (⟨S8x2048x256, .f32⟩ : BufTy).Contents (Elt F)),
    binary main_v1 main_v2 main_v3 (Host.divf : (⟨S8x2048x256, .f32⟩ : BufTy).Contents (Elt F) → (⟨S8x2048x256, .f32⟩ : BufTy).Contents (Elt F) → (⟨S8x2048x256, .f32⟩ : BufTy).Contents (Elt F)),
    binary main_arg0 main_arg2 main_v4 ((fun l r => Host.dotGeneral dot_S8x2048x256_S256x256_S8x2048x256_2_1_01_0_n_n none l r) : (⟨S8x2048x256, .f32⟩ : BufTy).Contents (Elt F) → (⟨S256x256, .f32⟩ : BufTy).Contents (Elt F) → (⟨S8x2048x256, .f32⟩ : BufTy).Contents (Elt F)),
    unary main_arg3 main_v5 (broadcastInDim S1x1x256 ![2] bcast_S256_S1x1x256_2 : (⟨S256, .f32⟩ : BufTy).Contents (Elt F) → (⟨S1x1x256, .f32⟩ : BufTy).Contents (Elt F)),
    unary main_v5 main_v6 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v4 main_v6 main_v7 (addf : (⟨S8x2048x256, .f32⟩ : BufTy).Contents (Elt F) → (⟨S8x2048x256, .f32⟩ : BufTy).Contents (Elt F) → (⟨S8x2048x256, .f32⟩ : BufTy).Contents (Elt F)),
    binary main_v3 main_arg4 main_v8 ((fun l r => Host.dotGeneral dot_S8x2048x256_S256x256_S8x2048x256_2_1_01_0_n_n none l r) : (⟨S8x2048x256, .f32⟩ : BufTy).Contents (Elt F) → (⟨S256x256, .f32⟩ : BufTy).Contents (Elt F) → (⟨S8x2048x256, .f32⟩ : BufTy).Contents (Elt F)),
    unary main_arg5 main_v9 (broadcastInDim S1x1x256 ![2] bcast_S256_S1x1x256_2 : (⟨S256, .f32⟩ : BufTy).Contents (Elt F) → (⟨S1x1x256, .f32⟩ : BufTy).Contents (Elt F)),
    unary main_v9 main_v10 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v8 main_v10 main_v11 (addf : (⟨S8x2048x256, .f32⟩ : BufTy).Contents (Elt F) → (⟨S8x2048x256, .f32⟩ : BufTy).Contents (Elt F) → (⟨S8x2048x256, .f32⟩ : BufTy).Contents (Elt F)),
    binary main_v7 main_v11 main_v12 ((fun a b => concatenate S8x2048x512 2 [⟨S8x2048x256, a⟩, ⟨S8x2048x256, b⟩] concatenates_S8x2048x256_S8x2048x256_S8x2048x512_d2) : (⟨S8x2048x256, .f32⟩ : BufTy).Contents (Elt F) → (⟨S8x2048x256, .f32⟩ : BufTy).Contents (Elt F) → (⟨S8x2048x512, .f32⟩ : BufTy).Contents (Elt F)),
    binary main_v12 main_v12 main_v13 (mulf : (⟨S8x2048x512, .f32⟩ : BufTy).Contents (Elt F) → (⟨S8x2048x512, .f32⟩ : BufTy).Contents (Elt F) → (⟨S8x2048x512, .f32⟩ : BufTy).Contents (Elt F)),
    nullary main_cst_1 (constant S_ .f32 0x00000000#32),
    binary main_v13 main_cst_1 main_v14 ((fun x v => Host.reduceAdd x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    unary main_v14 main_v15 (broadcastInDim S8x2048x1 ![0, 1] bcast_S8x2048_S8x2048x1_0_1 : (⟨S8x2048, .f32⟩ : BufTy).Contents (Elt F) → (⟨S8x2048x1, .f32⟩ : BufTy).Contents (Elt F)),
    unary main_v15 main_v16 (Host.sqrt : (⟨S8x2048x1, .f32⟩ : BufTy).Contents (Elt F) → (⟨S8x2048x1, .f32⟩ : BufTy).Contents (Elt F)),
    nullary main_cst_2 (constant S_ .f32 0x2B8CBCCC#32),
    unary main_cst_2 main_v17 (broadcastInDim S8x2048x1 ![] bcast_S_S8x2048x1 : (⟨S_, .f32⟩ : BufTy).Contents (Elt F) → (⟨S8x2048x1, .f32⟩ : BufTy).Contents (Elt F)),
    binary main_v16 main_v17 main_v18 (maximumf : (⟨S8x2048x1, .f32⟩ : BufTy).Contents (Elt F) → (⟨S8x2048x1, .f32⟩ : BufTy).Contents (Elt F) → (⟨S8x2048x1, .f32⟩ : BufTy).Contents (Elt F)),
    unary main_v18 main_v19 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    binary main_v12 main_v19 main_v20 (Host.divf : (⟨S8x2048x512, .f32⟩ : BufTy).Contents (Elt F) → (⟨S8x2048x512, .f32⟩ : BufTy).Contents (Elt F) → (⟨S8x2048x512, .f32⟩ : BufTy).Contents (Elt F)),
    TRef.nullary main_call1.cst (constant S_ .f32 0x00000000#32),
    TRef.unary main_call1.cst main_call1.v0 (broadcastInDim S8x2048x512 ![] bcast_S_S8x2048x512),
    TRef.binary (.of main_v20 : TRef sig ⟨S8x2048x512, .f32⟩) main_call1.v0 main_call1.v1 maximumf,
    nullary main_cst_3 (constant S_ .f32 0x00000000#32),
    binary main_v21 main_cst_3 main_v22 ((fun x v => Host.reduceAdd x v reducesTo_S8x2048x512_S512_d0_1 h_S_) : (⟨S8x2048x512, .f32⟩ : BufTy).Contents (Elt F) → (⟨S_, .f32⟩ : BufTy).Contents (Elt F) → (⟨S512, .f32⟩ : BufTy).Contents (Elt F)),
    nullary main_cst_4 (constant S_ .f32 0x46800000#32),
    unary main_cst_4 main_v23 (broadcastInDim S512 ![] bcast_S_S512 : (⟨S_, .f32⟩ : BufTy).Contents (Elt F) → (⟨S512, .f32⟩ : BufTy).Contents (Elt F)),
    binary main_v22 main_v23 main_v24 (Host.divf : (⟨S512, .f32⟩ : BufTy).Contents (Elt F) → (⟨S512, .f32⟩ : BufTy).Contents (Elt F) → (⟨S512, .f32⟩ : BufTy).Contents (Elt F)),
    unary main_v24 main_v25 (broadcastInDim S1x1x512 ![2] bcast_S512_S1x1x512_2 : (⟨S512, .f32⟩ : BufTy).Contents (Elt F) → (⟨S1x1x512, .f32⟩ : BufTy).Contents (Elt F)),
    unary main_v25 main_v26 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v21 main_v26 main_v27 (subf : (⟨S8x2048x512, .f32⟩ : BufTy).Contents (Elt F) → (⟨S8x2048x512, .f32⟩ : BufTy).Contents (Elt F) → (⟨S8x2048x512, .f32⟩ : BufTy).Contents (Elt F)),
    binary main_v27 main_v27 main_v28 (mulf : (⟨S8x2048x512, .f32⟩ : BufTy).Contents (Elt F) → (⟨S8x2048x512, .f32⟩ : BufTy).Contents (Elt F) → (⟨S8x2048x512, .f32⟩ : BufTy).Contents (Elt F)),
    nullary main_cst_5 (constant S_ .f32 0x00000000#32),
    binary main_v28 main_cst_5 main_v29 ((fun x v => Host.reduceAdd x v reducesTo_S8x2048x512_S512_d0_1 h_S_) : (⟨S8x2048x512, .f32⟩ : BufTy).Contents (Elt F) → (⟨S_, .f32⟩ : BufTy).Contents (Elt F) → (⟨S512, .f32⟩ : BufTy).Contents (Elt F)),
    nullary main_cst_6 (constant S_ .f32 0x46800000#32),
    unary main_cst_6 main_v30 (broadcastInDim S512 ![] bcast_S_S512 : (⟨S_, .f32⟩ : BufTy).Contents (Elt F) → (⟨S512, .f32⟩ : BufTy).Contents (Elt F)),
    binary main_v29 main_v30 main_v31 (Host.divf : (⟨S512, .f32⟩ : BufTy).Contents (Elt F) → (⟨S512, .f32⟩ : BufTy).Contents (Elt F) → (⟨S512, .f32⟩ : BufTy).Contents (Elt F)),
    unary main_v24 main_v32 (broadcastInDim S1x1x512 ![2] bcast_S512_S1x1x512_2 : (⟨S512, .f32⟩ : BufTy).Contents (Elt F) → (⟨S1x1x512, .f32⟩ : BufTy).Contents (Elt F)),
    unary main_v32 main_v33 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v21 main_v33 main_v34 (subf : (⟨S8x2048x512, .f32⟩ : BufTy).Contents (Elt F) → (⟨S8x2048x512, .f32⟩ : BufTy).Contents (Elt F) → (⟨S8x2048x512, .f32⟩ : BufTy).Contents (Elt F)),
    nullary main_cst_7 (constant S_ .f32 0x3727C5AC#32),
    unary main_cst_7 main_v35 (broadcastInDim S512 ![] bcast_S_S512 : (⟨S_, .f32⟩ : BufTy).Contents (Elt F) → (⟨S512, .f32⟩ : BufTy).Contents (Elt F)),
    binary main_v31 main_v35 main_v36 (addf : (⟨S512, .f32⟩ : BufTy).Contents (Elt F) → (⟨S512, .f32⟩ : BufTy).Contents (Elt F) → (⟨S512, .f32⟩ : BufTy).Contents (Elt F)),
    unary main_v36 main_v37 (Host.rsqrt : (⟨S512, .f32⟩ : BufTy).Contents (Elt F) → (⟨S512, .f32⟩ : BufTy).Contents (Elt F)),
    unary main_v37 main_v38 (broadcastInDim S1x1x512 ![2] bcast_S512_S1x1x512_2 : (⟨S512, .f32⟩ : BufTy).Contents (Elt F) → (⟨S1x1x512, .f32⟩ : BufTy).Contents (Elt F)),
    unary main_v38 main_v39 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v34 main_v39 main_v40 (mulf : (⟨S8x2048x512, .f32⟩ : BufTy).Contents (Elt F) → (⟨S8x2048x512, .f32⟩ : BufTy).Contents (Elt F) → (⟨S8x2048x512, .f32⟩ : BufTy).Contents (Elt F)),
    unary main_arg6 main_v41 (broadcastInDim S1x1x512 ![2] bcast_S512_S1x1x512_2 : (⟨S512, .f32⟩ : BufTy).Contents (Elt F) → (⟨S1x1x512, .f32⟩ : BufTy).Contents (Elt F)),
    unary main_v41 main_v42 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v40 main_v42 main_v43 (mulf : (⟨S8x2048x512, .f32⟩ : BufTy).Contents (Elt F) → (⟨S8x2048x512, .f32⟩ : BufTy).Contents (Elt F) → (⟨S8x2048x512, .f32⟩ : BufTy).Contents (Elt F)),
    unary main_arg7 main_v44 (broadcastInDim S1x1x512 ![2] bcast_S512_S1x1x512_2 : (⟨S512, .f32⟩ : BufTy).Contents (Elt F) → (⟨S1x1x512, .f32⟩ : BufTy).Contents (Elt F)),
    unary main_v44 main_v45 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v43 main_v45 main_v46 (addf : (⟨S8x2048x512, .f32⟩ : BufTy).Contents (Elt F) → (⟨S8x2048x512, .f32⟩ : BufTy).Contents (Elt F) → (⟨S8x2048x512, .f32⟩ : BufTy).Contents (Elt F)) ]

-- eighty sequenced steps unfolded on both sides: one level of recursion per step
set_option maxRecDepth 4096 in
/-- @main is that straight line, by unfolding: each call is its body on the call's record, and sequencing a step
    before a continuation computes. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub ..⟩

/-- On every device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Run.lean ====
/-
  The reference's run read back: on every device every weakly fair execution of @main terminates with the result
  buffer at the composed term of the eight arguments' launch contents and the arguments unchanged.
-/
import proofs.«421764_j40862318854441_1_alg».proof.Proof.Gen.ReferenceIdeal
import Idealize.ShloMosaic.Lib.StableHlo.Run
import proofs.«421764_j40862318854441_1_alg».proof.Proof.Ref.Ops
import proofs.«421764_j40862318854441_1_alg».proof.Proof.Ref.Term

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the fold is eighty results deep and the term read back shares its stages: the one rewriting pass recurses
-- through both
set_option maxRecDepth 100000 in
set_option maxHeartbeats 4000000 in
/-- The fold at the result buffer is the composed term of the argument buffers' contents: each operation's result
    read at its own buffer is its function of its operands' contents, at any other buffer what was there; the
    stages then unfold to exactly that composition (a value carried to a call record's buffer type and back is
    the value, by computation at these literal buffers). -/
theorem out_eq (V : Valuation τ sig (Elt F)) :
    after ops V (Proc.devRef .tc main_v46)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  after_results_simp
  rfl

set_option maxRecDepth 100000 in
set_option maxHeartbeats 4000000 in
/-- No operation writes an argument. -/
theorem args_eq (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) := by
  refine ⟨?_, ?_, ?_, ?_, ?_, ?_, ?_, ?_⟩ <;> after_results_simp

/-- On every device, for any float values, from any memory with zero counters: every weakly fair execution of
    @main terminates with the result at the composed term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have ha := args_eq (launchContents m c)
      ⟨(h c main_v46).trans (out_eq (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2.1, (h c main_arg7).trans ha.2.2.2.2.2.2.2⟩)
    (run_main m ρ)

/-- The same run with the result dropped: the eight arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => (h c).2) (run m ρ)

end Cert.ReferenceIdeal.Hand

end
-- ==== Proof.Math.Spec.lean ====
/-
  The mathematics both programs compute, index by index, over the extended reals.

  Inputs: node features `x b n f` (8 batches, 2048 nodes, 256 features), a table `idx n k` of 32 neighbour
  indices per node, two weight matrices `wx o f`, `wn o f` with biases `bx o`, `bn o`, and the batch-norm
  scale and shift `g c`, `be c` over 512 channels.

  Both programs form, per batch and node, the 512 channels `hcat` = (the node's own projection, the projection
  of the MEAN of its 32 neighbours' features), divide by `max (‖hcat‖₂) ε₁`, clamp at zero (`hrelu`), and then
  normalise every channel over the 8·2048 (batch, node) pairs with the biased variance and ε₂.

  They differ in two places. (1) The neighbour mean. One side gathers the 32 rows and averages them BEFORE the
  projection (`hneiR`: `(∑ₖ x b (idx n k) f) / 32`); the other builds the 2048×2048 matrix
  `adj n j = #{k | idx n k = j} · (1/32)` and multiplies it with the PROJECTED features (`hneiK`). For finite
  inputs and in-range indices the two agree: `∑ⱼ adj n j · y j = (∑ₖ y (idx n k)) / 32` and the projection is linear.
  (2) The variance: `E[h²] − (E h)²` against `E[(h − E h)²]`, and the affine map folded into one
  scale and one shift; equal over the reals.
-/
import Idealize.ShloMosaic.PureOps.Ideal
import Idealize.ShloMosaic.PureOps.Ideal.Laws

noncomputable section

namespace Cert.Spec

open Idealize.ShloMosaic

/-! ## The literals both programs carry, as the extended reals their words denote -/

/-- `1/32`, the word the adjacency matrix is scaled by (an exact dyadic). -/
abbrev inv32 : EReal := Ideal.ofBits .f32 0x3D000000#32
/-- `32`, the divisor of the gathered mean. -/
abbrev c32 : EReal := Ideal.ofBits .f32 0x42000000#32
/-- The floor under the row norm (the f32 nearest 1e-12), the same word on both sides. -/
abbrev eps12 : EReal := Ideal.ofBits .f32 0x2B8CBCCC#32
/-- The variance's epsilon (the f32 nearest 1e-5), the same word on both sides. -/
abbrev eps5 : EReal := Ideal.ofBits .f32 0x3727C5AC#32
/-- `16384 = 8 · 2048`, the number of (batch, node) pairs. -/
abbrev cnt : EReal := Ideal.ofBits .f32 0x46800000#32

section
variable (x : Fin 8 → Fin 2048 → Fin 256 → EReal) (idx : Fin 2048 → Fin 32 → BitVec 32)
  (wx : Fin 256 → Fin 256 → EReal) (bx : Fin 256 → EReal)
  (wn : Fin 256 → Fin 256 → EReal) (bn : Fin 256 → EReal)
  (g be : Fin 512 → EReal)

/-! ## The projections -/

/-- The node's own projection: `∑_f x b n f · wx o f + bx o`. -/
def hself (b : Fin 8) (n : Fin 2048) (o : Fin 256) : EReal := (∑ f : Fin 256, x b n f * wx o f) + bx o

/-- The neighbour projection of every node (no bias): `y b j o = ∑_f x b j f · wn o f`. -/
def yproj (b : Fin 8) (j : Fin 2048) (o : Fin 256) : EReal := ∑ f : Fin 256, x b j f * wn o f

/-- The mean-adjacency matrix: the share of node `n`'s 32 neighbour slots that name node `j`. -/
def adj (n j : Fin 2048) : EReal :=
  (∑ k : Fin 32, if idx n k = BitVec.ofNat 32 j.val then (1 : EReal) else 0) * inv32

/-- The neighbour half as ANY 2048×2048 matrix `A` times the projected features, plus the bias. -/
def hneiA (A : Fin 2048 → Fin 2048 → EReal) (b : Fin 8) (n : Fin 2048) (o : Fin 256) : EReal :=
  (∑ j : Fin 2048, A n j * yproj x wn b j o) + bn o

/-- The neighbour half through the mean-adjacency matrix. -/
def hneiK : Fin 8 → Fin 2048 → Fin 256 → EReal := hneiA x wn bn (adj idx)

/-- The mean of the gathered neighbour rows (indices read as naturals; in range by hypothesis where it matters). -/
def xneib (b : Fin 8) (n : Fin 2048) (f : Fin 256) : EReal :=
  Ideal.div (∑ k : Fin 32, if h : (idx n k).toNat < 2048 then x b ⟨(idx n k).toNat, h⟩ f else ⊥) c32

/-- The neighbour half as the projection of the gathered mean, plus the bias. -/
def hneiR (b : Fin 8) (n : Fin 2048) (o : Fin 256) : EReal :=
  (∑ f : Fin 256, xneib x idx b n f * wn o f) + bn o

/-! ## Concatenation, row normalisation, clamp — one function of the neighbour half -/

/-- The 512 channels: the own projection, then the neighbour half `hn`. -/
def hcat (hn : Fin 8 → Fin 2048 → Fin 256 → EReal) (b : Fin 8) (n : Fin 2048) (c : Fin 512) : EReal :=
  if h : c.val < 256 then hself x wx bx b n ⟨c.val, h⟩ else hn b n ⟨c.val - 256, by omega⟩

/-- The row's Euclidean norm. -/
def nrm (hn : Fin 8 → Fin 2048 → Fin 256 → EReal) (b : Fin 8) (n : Fin 2048) : EReal :=
  Ideal.sqrt (∑ c : Fin 512, hcat x wx bx hn b n c * hcat x wx bx hn b n c)

/-- The normalised, clamped activations. -/
def hrelu (hn : Fin 8 → Fin 2048 → Fin 256 → EReal) (b : Fin 8) (n : Fin 2048) (c : Fin 512) : EReal :=
  max (Ideal.div (hcat x wx bx hn b n c) (max (nrm x wx bx hn b n) eps12)) 0

end

/-! ## Batch normalisation of an array `H b n c`, the two ways -/

section
variable (H : Fin 8 → Fin 2048 → Fin 512 → EReal) (g be : Fin 512 → EReal)

/-- The channel's sum over all (batch, node) pairs. -/
def sum1 (c : Fin 512) : EReal := ∑ b : Fin 8, ∑ n : Fin 2048, H b n c
/-- The channel's sum of squares. -/
def sum2 (c : Fin 512) : EReal := ∑ b : Fin 8, ∑ n : Fin 2048, H b n c * H b n c

/-- One scale and one shift per channel from two per-channel sums `s1`, `s2`: `var = s2/N − (s1/N)²`. -/
def meanS (s1 : Fin 512 → EReal) (c : Fin 512) : EReal := Ideal.div (s1 c) cnt
def varS (s1 s2 : Fin 512 → EReal) (c : Fin 512) : EReal := Ideal.div (s2 c) cnt - meanS s1 c * meanS s1 c
def scaleS (s1 s2 : Fin 512 → EReal) (c : Fin 512) : EReal := g c * Ideal.rsqrt (varS s1 s2 c + eps5)
def shiftS (s1 s2 : Fin 512 → EReal) (c : Fin 512) : EReal := be c - meanS s1 c * scaleS g s1 s2 c
/-- The result as `h · scale + shift`, the scale and shift from the array's own two sums. -/
def outK (b : Fin 8) (n : Fin 2048) (c : Fin 512) : EReal :=
  H b n c * scaleS g (sum1 H) (sum2 H) c + shiftS g be (sum1 H) (sum2 H) c

/-- The textbook form: `var = E[(h − E h)²]`, `(h − μ) · rsqrt(var + ε) · γ + β`. -/
def muR (c : Fin 512) : EReal := Ideal.div (sum1 H c) cnt
def varR (c : Fin 512) : EReal :=
  Ideal.div (∑ b : Fin 8, ∑ n : Fin 2048, (H b n c - muR H c) * (H b n c - muR H c)) cnt
def outR (b : Fin 8) (n : Fin 2048) (c : Fin 512) : EReal :=
  (H b n c - muR H c) * Ideal.rsqrt (varR H c + eps5) * g c + be c

end

/-! ## The two programs' results -/

section
variable (x : Fin 8 → Fin 2048 → Fin 256 → EReal) (idx : Fin 2048 → Fin 32 → BitVec 32)
  (wx : Fin 256 → Fin 256 → EReal) (bx : Fin 256 → EReal)
  (wn : Fin 256 → Fin 256 → EReal) (bn : Fin 256 → EReal)
  (g be : Fin 512 → EReal)

/-- The activations through the adjacency matrix. -/
def HK : Fin 8 → Fin 2048 → Fin 512 → EReal := hrelu x wx bx (hneiK x idx wn bn)
/-- The activations through the gathered mean. -/
def HR : Fin 8 → Fin 2048 → Fin 512 → EReal := hrelu x wx bx (hneiR x idx wn bn)

/-- The result computed with the adjacency matrix, the two running sums and one scale and shift. -/
def resK : Fin 8 → Fin 2048 → Fin 512 → EReal := outK (HK x idx wx bx wn bn) g be
/-- The result computed with the gather and the textbook batch normalisation. -/
def resR : Fin 8 → Fin 2048 → Fin 512 → EReal := outR (HR x idx wx bx wn bn) g be

end

end Cert.Spec

end
-- ==== Proof.Ref.Read.lean ====
/-
  The reference's gather and neighbour mean, read at an index.

  The index table holds, per node, 32 neighbour indices. The reference first adds 2048 to a negative entry, masks
  entries outside [0, 2047], gathers row `idx n k` of every batch of `x`, answers a masked entry by a fill value,
  sums the 32 gathered rows and divides by 32. For a table whose entries all lie in [0, 2048) the wrap is the
  identity and the mask is set everywhere, so the gathered entry at (b, n, k, f) is `x b (idx n k) f` and the mean
  is the specification's `xneib`.
-/
import proofs.«421764_j40862318854441_1_alg».proof.Proof.Ref.Term
import proofs.«421764_j40862318854441_1_alg».proof.Proof.Math.Spec
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## Words: the comparisons of an in-range index -/

/-- A word that is not negative is not below zero. -/
theorem cmpi_slt_zero {x : BitVec 32} (h : 0 ≤ x.toInt) : IntOp.cmpi .slt x 0#32 = 0#1 := by
  have e : x.slt 0#32 = false := by
    unfold BitVec.slt
    have h0 : (0#32 : BitVec 32).toInt = 0 := by decide
    rw [h0]; exact decide_eq_false (by omega)
  show BitVec.ofBool (x.slt 0#32) = 0#1
  rw [e]; rfl

/-- A word that is not negative is at least zero. -/
theorem cmpi_sge_zero {x : BitVec 32} (h : 0 ≤ x.toInt) : IntOp.cmpi .sge x 0#32 = 1#1 := by
  have e : (0#32 : BitVec 32).sle x = true := by
    unfold BitVec.sle
    have h0 : (0#32 : BitVec 32).toInt = 0 := by decide
    rw [h0]; exact decide_eq_true h
  show BitVec.ofBool ((0#32 : BitVec 32).sle x) = 1#1
  rw [e]; rfl

/-- A word below 2048 is at most 2047. -/
theorem cmpi_sle_2047 {x : BitVec 32} (h : x.toInt < 2048) : IntOp.cmpi .sle x 2047#32 = 1#1 := by
  have e : x.sle 2047#32 = true := by
    unfold BitVec.sle
    have h0 : (2047#32 : BitVec 32).toInt = 2047 := by decide
    rw [h0]; exact decide_eq_true (by omega)
  show BitVec.ofBool (x.sle 2047#32) = 1#1
  rw [e]; rfl

/-- A word in [0, 2048) read signed, then as a natural clamped to 2047, is its own natural value. -/
theorem clamp_toNat {x : BitVec 32} (h0 : 0 ≤ x.toInt) (h1 : x.toInt < 2048) :
    min x.toInt.toNat 2047 = x.toNat ∧ x.toNat < 2048 := by
  have hc := BitVec.toInt_eq_toNat_cond x
  have hl := x.isLt
  split at hc <;> omega

/-- A left fold by `and` from 1 over words that are all 1 is 1. -/
theorem foldl_andi_one {ι : Type} (f : ι → BitVec 1) :
    ∀ l : List ι, (∀ i ∈ l, f i = 1#1) → l.foldl (fun r i => IntOp.andi r (f i)) 1#1 = 1#1
  | [], _ => rfl
  | a :: l, h => by
    rw [List.foldl_cons, h a (List.mem_cons_self ..)]
    exact foldl_andi_one f l fun i hi => h i (List.mem_cons_of_mem _ hi)

/-! ## The gather's index table and range mask at an index -/

/-- An entry that is not negative passes the wrap unchanged. -/
theorem takeIdx_apply (a1 : IVec S2048x32 32) (n : Fin 2048) (k : Fin 32) (z : Fin 1)
    (h0 : 0 ≤ (a1 (ix2 n k)).toInt) : takeIdx a1 (ix3 n k z) = a1 (ix2 n k) := by
  unfold takeIdx
  rw [broadcastInDim_apply _ _ _ _ (ix2 n k) (fun a => by match a with | ⟨0, _⟩ => rfl | ⟨1, _⟩ => rfl)]
  rw [select_apply]
  have hc : cmpi .slt a1 (broadcastInDim S2048x32 ![] bcast_S_S2048x32 (constantI S_ 32 0#32)) (ix2 n k) = 0#1 :=
    cmpi_slt_zero h0
  rw [hc, select_zero]

/-- Where the entry lies in [0, 2048) the range mask is set. -/
theorem takeMask_apply (a1 : IVec S2048x32 32) (b : Fin 8) (n : Fin 2048) (k : Fin 32) (f : Fin 256)
    (h0 : 0 ≤ (a1 (ix2 n k)).toInt) (h1 : (a1 (ix2 n k)).toInt < 2048) : takeMask a1 (ix4 b n k f) = 1#1 := by
  unfold takeMask
  rw [broadcastInDim_apply _ _ _ _ (ix2 n k) (fun a => by match a with | ⟨0, _⟩ => rfl | ⟨1, _⟩ => rfl)]
  rw [Host.reduce_eq_foldl]
  refine foldl_andi_one _ _ fun i hi => ?_
  obtain ⟨p, q, z, rfl⟩ : ∃ p q z, i = ix3 p q z := ⟨i 0, i 1, i 2, eq_ix3 i⟩
  have hd := (List.mem_filter.1 hi).2
  have hd' : reducesTo_S2048x32x1_S2048x32_d2.drop (ix3 p q z) = ix2 n k := by simpa using hd
  have e0 := Shape.ReducesTo.drop_apply_val_of_eq reducesTo_S2048x32x1_S2048x32_d2 (ix3 p q z) 0 0
  have e1 := Shape.ReducesTo.drop_apply_val_of_eq reducesTo_S2048x32x1_S2048x32_d2 (ix3 p q z) 1 1
  rw [hd'] at e0 e1
  obtain rfl : p = n := Fin.ext e0.symm
  obtain rfl : q = k := Fin.ext e1.symm
  show IntOp.andi (IntOp.cmpi .sge (takeIdx a1 (ix3 p q z)) 0#32) (IntOp.cmpi .sle (takeIdx a1 (ix3 p q z)) 2047#32) = 1#1
  rw [takeIdx_apply a1 p q z h0, cmpi_sge_zero h0, cmpi_sle_2047 h1]
  rfl

/-! ## The gather at an index -/

/-- The gather's dimension numbers: the operand's batch and feature axes are offset axes, its node axis is collapsed
    and indexed by the one-entry index vector. -/
abbrev gth : GatherDims S8x2048x256 S2048x32x1 S8x2048x32x256 :=
  gather_S8x2048x256_S2048x32x1_S8x2048x32x256_03_1_n_n_1_2_81256

/-- The start-indices entry the result index (b, n, k, f) reads: (n, k, 0). -/
theorem gather_siIdx (b : Fin 8) (n : Fin 2048) (k : Fin 32) (f : Fin 256) (c : Fin gth.startIndexMap.length) :
    gth.siIdx (ix4 b n k f) c = ix3 n k 0 := by
  funext a
  refine Fin.ext ?_
  match a with
  | ⟨0, _⟩ => rfl
  | ⟨1, _⟩ => rfl
  | ⟨2, _⟩ =>
    show c.val = 0
    have hl : gth.startIndexMap.length = 1 := rfl
    have := c.isLt
    omega

/-- On the operand's batch axis the gather reads the result's batch coordinate. -/
theorem gather_axis0 (idx : IVec S2048x32x1 32) (b : Fin 8) (n : Fin 2048) (k : Fin 32) (f : Fin 256) :
    (gth.operandIdx (ix4 b n k f) idx 0).val = b.val := by
  show gth.start (ix4 b n k f) idx 0 + gth.batchCoord (ix4 b n k f) 0 + gth.offCoord (ix4 b n k f) 0 = b.val
  have h1 : gth.start (ix4 b n k f) idx 0 = 0 := rfl
  have h2 : gth.batchCoord (ix4 b n k f) 0 = 0 := rfl
  have h3 : gth.offCoord (ix4 b n k f) 0 = b.val := rfl
  omega

/-- On the operand's node axis the gather reads the start index, signed and clamped into [0, 2047]. -/
theorem gather_axis1 (idx : IVec S2048x32x1 32) (b : Fin 8) (n : Fin 2048) (k : Fin 32) (f : Fin 256) :
    (gth.operandIdx (ix4 b n k f) idx 1).val = min (idx (ix3 n k 0)).toInt.toNat 2047 := by
  show gth.start (ix4 b n k f) idx 1 + gth.batchCoord (ix4 b n k f) 1 + gth.offCoord (ix4 b n k f) 1 = _
  have h2 : gth.batchCoord (ix4 b n k f) 1 = 0 := rfl
  have h3 : gth.offCoord (ix4 b n k f) 1 = 0 := rfl
  have h1 : gth.start (ix4 b n k f) idx 1 = min (idx (ix3 n k 0)).toInt.toNat 2047 := by
    unfold GatherDims.start
    split
    · rw [gather_siIdx]; rfl
    · next hn => exact absurd (List.mem_singleton.mpr rfl) hn
  omega

/-- On the operand's feature axis the gather reads the result's feature coordinate. -/
theorem gather_axis2 (idx : IVec S2048x32x1 32) (b : Fin 8) (n : Fin 2048) (k : Fin 32) (f : Fin 256) :
    (gth.operandIdx (ix4 b n k f) idx 2).val = f.val := by
  show gth.start (ix4 b n k f) idx 2 + gth.batchCoord (ix4 b n k f) 2 + gth.offCoord (ix4 b n k f) 2 = f.val
  have h1 : gth.start (ix4 b n k f) idx 2 = 0 := rfl
  have h2 : gth.batchCoord (ix4 b n k f) 2 = 0 := rfl
  have h3 : gth.offCoord (ix4 b n k f) 2 = f.val := rfl
  omega

/-- The gather read at (b, n, k, f): the operand at batch b, feature f, and the node the start index names. -/
theorem gather_apply {α : Type} (x : S8x2048x256.Idx → α) (idx : IVec S2048x32x1 32) (b : Fin 8) (n : Fin 2048) (k : Fin 32)
    (f : Fin 256) (m : Fin 2048) (hm : m.val = min (idx (ix3 n k 0)).toInt.toNat 2047) :
    Host.gather gth x idx (ix4 b n k f) = x (ix3 b m f) := by
  unfold Host.gather
  congr 1
  funext a
  refine Fin.ext ?_
  match a with
  | ⟨0, _⟩ => exact gather_axis0 idx b n k f
  | ⟨1, _⟩ => exact (gather_axis1 idx b n k f).trans hm.symm
  | ⟨2, _⟩ => exact gather_axis2 idx b n k f

/-! ## The gathered rows and their mean at an index -/

/-- In range, the gathered entry is the operand's row the index names. -/
theorem takeTerm_apply (a0 : FVec Ideal S8x2048x256 .f32) (a1 : IVec S2048x32 32) (b : Fin 8) (n : Fin 2048) (k : Fin 32)
    (f : Fin 256) (h0 : 0 ≤ (a1 (ix2 n k)).toInt) (h1 : (a1 (ix2 n k)).toInt < 2048) :
    takeTerm (F := Ideal) a0 a1 (ix4 b n k f) = a0 (ix3 b ⟨(a1 (ix2 n k)).toNat, (clamp_toNat h0 h1).2⟩ f) := by
  unfold takeTerm
  rw [select_apply, takeMask_apply a1 b n k f h0 h1, select_one]
  exact gather_apply a0 (takeIdx a1) b n k f _ (by rw [takeIdx_apply a1 n k 0 h0]; exact (clamp_toNat h0 h1).1.symm)

/-- The reduction over the 32 neighbour slots, as a shape fact with an inserted-index function. -/
theorem red_slots : S8x2048x32x256.Reduces [2] S8x2048x256 := by decide

/-- The index over (b, n, f) with slot k inserted is (b, n, k, f). -/
theorem lift_slots (b : Fin 8) (n : Fin 2048) (f : Fin 256) (k : Fin 32) :
    red_slots.lift (ix3 b n f) k = ix4 b n k f := by
  funext c
  refine Fin.ext ?_
  match c with
  | ⟨0, _⟩ => rfl
  | ⟨1, _⟩ => rfl
  | ⟨2, _⟩ => rfl
  | ⟨3, _⟩ => rfl

/-- The mean of the gathered rows is the specification's neighbour mean. -/
theorem xneibTerm_apply (a0 : FVec Ideal S8x2048x256 .f32) (a1 : IVec S2048x32 32)
    (hidx : ∀ n k, 0 ≤ (a1 (ix2 n k)).toInt ∧ (a1 (ix2 n k)).toInt < 2048) (b : Fin 8) (n : Fin 2048) (f : Fin 256) :
    xneibTerm (F := Ideal) a0 a1 (ix3 b n f)
      = Cert.Spec.xneib (fun b n f => a0 (ix3 b n f)) (fun n k => a1 (ix2 n k)) b n f := by
  unfold xneibTerm Cert.Spec.xneib
  rw [hostDivf_apply, hostReduceAdd_apply, Ideal.hostReduceAdd_single _ red_slots, broadcastInDim_scalar_apply]
  show Ideal.div (Ideal.ofBits .f32 0x00000000#32 + ∑ k : Fin 32, takeTerm (F := Ideal) a0 a1 (red_slots.lift (ix3 b n f) k))
      (Ideal.ofBits .f32 0x42000000#32) = _
  rw [Ideal.ofBits_zero_f32, zero_add]
  refine congrArg (fun s => Ideal.div s (Ideal.ofBits .f32 0x42000000#32)) ?_
  refine Finset.sum_congr rfl fun k _ => ?_
  rw [lift_slots, takeTerm_apply a0 a1 b n k f (hidx n k).1 (hidx n k).2, dif_pos (clamp_toNat (hidx n k).1 (hidx n k).2).2]

end Cert.ReferenceIdeal.Hand

end
-- ==== Proof.Ref.ReadProj.lean ====
/-
  The reference's two projections and their concatenation, read at one index over the extended reals.

  A projection at (b, n, o) is the sum over the 256 features of the operand's row (b, n) times the weight matrix's
  row `o`, plus the bias at `o`: the contraction pairs the operand's last axis with the weight's last axis, and the
  bias vector is repeated over batches and nodes. The 512 channels at (b, n, ch) are the first projection at `ch`
  when `ch < 256` and the second at `ch − 256` otherwise.
-/
import proofs.«421764_j40862318854441_1_alg».proof.Proof.Ref.Term
import proofs.«421764_j40862318854441_1_alg».proof.Proof.Math.Spec
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen Idealize.ShloMosaic Idealize.ShloMosaic.ValueIdx

/-! ## The contraction's operand indices -/

/-- The projection's dimension numbers: the operand's last axis against the weight's last axis. -/
abbrev dProj : DotDims S8x2048x256 S256x256 S8x2048x256 := dot_S8x2048x256_S256x256_S8x2048x256_2_1_01_0_n_n

/-- At output entry (b, n, o) and contracted feature `f` the operand is read at (b, n, f). -/
theorem proj_lhsIdx (b : Fin 8) (n : Fin 2048) (o : Fin 256) (f : Fin 256) :
    dProj.lhsIdx (ix3 b n o) ((contrEquiv1 dProj 256 rfl rfl).symm f) = ix3 b n f := by
  have hf := contrEquiv1_symm_val dProj 256 rfl rfl f
  funext a
  apply Fin.ext
  match a with
  | ⟨0, _⟩ => rfl
  | ⟨1, _⟩ => rfl
  | ⟨2, _⟩ => refine Eq.trans ?_ hf; rfl

/-- At output entry (b, n, o) and contracted feature `f` the weight matrix is read at (o, f). -/
theorem proj_rhsIdx (b : Fin 8) (n : Fin 2048) (o : Fin 256) (f : Fin 256) :
    dProj.rhsIdx (ix3 b n o) ((contrEquiv1 dProj 256 rfl rfl).symm f) = ix2 o f := by
  have hf := contrEquiv1_symm_val dProj 256 rfl rfl f
  funext a
  apply Fin.ext
  match a with
  | ⟨0, _⟩ => rfl
  | ⟨1, _⟩ => refine Eq.trans ?_ hf; rfl

/-! ## The product and the repeated bias at an index -/

/-- The product at (b, n, o): row (b, n) of the operand times row `o` of the weight matrix. -/
theorem dotProj_apply (u : FVec Ideal S8x2048x256 .f32) (w : FVec Ideal S256x256 .f32) (b : Fin 8) (n : Fin 2048) (o : Fin 256) :
    Host.dotGeneral (F := Ideal) dProj none u w (ix3 b n o) = ∑ f : Fin 256, u (ix3 b n f) * w (ix2 o f) := by
  show FloatOps.dotGeneral (F := Ideal) dProj none .single u w (ix3 b n o) = _
  rw [Ideal.dotGeneral_apply, ← Equiv.sum_comp (contrEquiv1 dProj 256 rfl rfl).symm]
  refine Finset.sum_congr rfl fun f _ => ?_
  rw [proj_lhsIdx, proj_rhsIdx]

/-- A 256-vector repeated over batches and nodes reads, at (b, n, o), its entry `o`. -/
theorem spread256_apply (v : FVec Ideal S256 .f32) (b : Fin 8) (n : Fin 2048) (o : Fin 256) :
    spread256 (F := Ideal) v (ix3 b n o) = v (ix1 o) := by
  unfold spread256
  refine (broadcastInDim_apply _ _ _ (ix3 b n o) (ix3 (0 : Fin 1) (0 : Fin 1) o) fun a => ?_).trans ?_
  · match a with
    | ⟨0, _⟩ => rfl
    | ⟨1, _⟩ => rfl
    | ⟨2, _⟩ => rfl
  · refine broadcastInDim_apply _ _ v (ix3 (0 : Fin 1) (0 : Fin 1) o) (ix1 o) fun a => ?_
    match a with
    | ⟨0, _⟩ => rfl

/-! ## A projection with its bias -/

/-- `∑_f u b n f · w o f + bias o`. -/
theorem projTerm_apply (u : FVec Ideal S8x2048x256 .f32) (w : FVec Ideal S256x256 .f32) (bias : FVec Ideal S256 .f32)
    (b : Fin 8) (n : Fin 2048) (o : Fin 256) :
    projTerm (F := Ideal) u w bias (ix3 b n o) = (∑ f : Fin 256, u (ix3 b n f) * w (ix2 o f)) + bias (ix1 o) := by
  unfold projTerm
  show Host.dotGeneral (F := Ideal) dProj none u w (ix3 b n o) + spread256 (F := Ideal) bias (ix3 b n o) = _
  exact congrArg₂ (· + ·) (dotProj_apply u w b n o) (spread256_apply bias b n o)

/-! ## The 512 channels -/

/-- The two projections side by side, for any array `xn` in the place of the neighbour mean: at (b, n, ch) the own
    projection at `ch` below 256, the other projection at `ch − 256` from there on. -/
theorem hcatTerm_apply_of (a0 : FVec Ideal S8x2048x256 .f32) (a2 : FVec Ideal S256x256 .f32) (a3 : FVec Ideal S256 .f32)
    (xn : FVec Ideal S8x2048x256 .f32) (a4 : FVec Ideal S256x256 .f32) (a5 : FVec Ideal S256 .f32)
    (b : Fin 8) (n : Fin 2048) (ch : Fin 512) :
    concatenate S8x2048x512 2 [⟨S8x2048x256, projTerm (F := Ideal) a0 a2 a3⟩, ⟨S8x2048x256, projTerm (F := Ideal) xn a4 a5⟩]
        concatenates_S8x2048x256_S8x2048x256_S8x2048x512_d2 (ix3 b n ch)
      = Cert.Spec.hcat (fun b n f => a0 (ix3 b n f)) (fun o f => a2 (ix2 o f)) (fun o => a3 (ix1 o))
          (fun b n o => (∑ f : Fin 256, xn (ix3 b n f) * a4 (ix2 o f)) + a5 (ix1 o)) b n ch := by
  unfold Cert.Spec.hcat
  by_cases h : ch.val < 256
  · rw [dif_pos h]
    refine (concatenate_pair_apply_left (t := S8x2048x512) (s₁ := S8x2048x256) (s₂ := S8x2048x256) (2 : Fin S8x2048x512.rank)
      (projTerm (F := Ideal) a0 a2 a3) (projTerm (F := Ideal) xn a4 a5) _ (ix3 b n ch) rfl (ix3 b n (⟨ch.val, h⟩ : Fin 256) : S8x2048x256.Idx) fun a => ?_).trans ?_
    · match a with
      | ⟨0, _⟩ => rfl
      | ⟨1, _⟩ => rfl
      | ⟨2, _⟩ => rfl
    · exact projTerm_apply a0 a2 a3 b n ⟨ch.val, h⟩
  · rw [dif_neg h]
    have h2 : ch.val - 256 < 256 := by have := ch.isLt; omega
    refine (concatenate_pair_apply_right (t := S8x2048x512) (s₁ := S8x2048x256) (s₂ := S8x2048x256) (2 : Fin S8x2048x512.rank)
      (projTerm (F := Ideal) a0 a2 a3) (projTerm (F := Ideal) xn a4 a5) _ (ix3 b n ch) rfl rfl (ix3 b n (⟨ch.val - 256, h2⟩ : Fin 256) : S8x2048x256.Idx)
      (fun a ha => ?_) ?_).trans ?_
    · match a, ha with
      | ⟨0, _⟩, _ => rfl
      | ⟨1, _⟩, _ => rfl
      | ⟨2, _⟩, ha => exact absurd rfl ha
    · show ch.val - 256 + 256 = ch.val
      omega
    · exact projTerm_apply xn a4 a5 b n ⟨ch.val - 256, h2⟩

/-- The reference's 512 channels, with the neighbour mean left as it is computed. -/
theorem hcatTerm_apply (a0 : FVec Ideal S8x2048x256 .f32) (a1 : IVec S2048x32 32) (a2 : FVec Ideal S256x256 .f32)
    (a3 : FVec Ideal S256 .f32) (a4 : FVec Ideal S256x256 .f32) (a5 : FVec Ideal S256 .f32)
    (b : Fin 8) (n : Fin 2048) (ch : Fin 512) :
    hcatTerm (F := Ideal) a0 a1 a2 a3 a4 a5 (ix3 b n ch)
      = Cert.Spec.hcat (fun b n f => a0 (ix3 b n f)) (fun o f => a2 (ix2 o f)) (fun o => a3 (ix1 o))
          (fun b n o => (∑ f : Fin 256, xneibTerm (F := Ideal) a0 a1 (ix3 b n f) * a4 (ix2 o f)) + a5 (ix1 o)) b n ch :=
  hcatTerm_apply_of a0 a2 a3 (xneibTerm (F := Ideal) a0 a1) a4 a5 b n ch

end Cert.ReferenceIdeal.Hand

end
-- ==== Proof.Ref.ReadBN.lean ====
/-
  The back half of the reference read at an index: the row normalisation with its clamp, and the batch
  normalisation, as the functions of Math/Spec.lean.

  A row's divisor is the larger of the root of the row's sum of squares and the floor; a channel's mean is the
  sum over the 8 · 2048 (batch, node) pairs divided by 16384; the variance is the mean of the squared centred
  activations; the result is (h − μ) · rsqrt(var + ε) · γ + β.
-/
import proofs.«421764_j40862318854441_1_alg».proof.Proof.Ref.Term
import proofs.«421764_j40862318854441_1_alg».proof.Proof.Math.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

namespace BN

/-! ## The host's root and reciprocal root at an index -/

theorem hostSqrt_apply {s : Shape} {φ : FTy} (x : FVec Ideal s φ) (i : s.Idx) :
    Host.sqrt (F := Ideal) x i = Ideal.sqrt (x i) := rfl

theorem hostRsqrt_apply {s : Shape} {φ : FTy} (x : FVec Ideal s φ) (i : s.Idx) :
    Host.rsqrt (F := Ideal) x i = Ideal.rsqrt (x i) := rfl

/-! ## Broadcasts read at an index -/

/-- A per-(batch, node) column repeated over the 512 channels. -/
theorem bc_row (r : FVec Ideal S8x2048x1 .f32) (b : Fin 8) (n : Fin 2048) (ch : Fin 512) :
    broadcastInDim S8x2048x512 ![0, 1, 2] bcast_S8x2048x1_S8x2048x512_0_1_2 r (ix3 b n ch) = r (ix3 b n 0) :=
  broadcastInDim_apply _ _ r _ (ix3 b n 0) (fun a => by
    match a with
    | ⟨0, _⟩ => rfl
    | ⟨1, _⟩ => rfl
    | ⟨2, _⟩ => rfl)

/-- A per-(batch, node) value given a trailing unit axis. -/
theorem bc_keep (r : FVec Ideal S8x2048 .f32) (b : Fin 8) (n : Fin 2048) :
    broadcastInDim S8x2048x1 ![0, 1] bcast_S8x2048_S8x2048x1_0_1 r (ix3 b n 0) = r (ix2 b n) :=
  broadcastInDim_apply _ _ r _ (ix2 b n) (fun a => by
    match a with
    | ⟨0, _⟩ => rfl
    | ⟨1, _⟩ => rfl)

/-! ## The row normalisation and clamp -/

/-- The sum over the 512 channels of a row. -/
theorem rowSum_apply (u : FVec Ideal S8x2048x512 .f32) (b : Fin 8) (n : Fin 2048) :
    Host.reduceAdd (F := Ideal) u (constant (F := Ideal) S_ .f32 0x00000000#32)
        reducesTo_S8x2048x512_S8x2048_d2 h_S_ (ix2 b n)
      = ∑ c' : Fin 512, u (ix3 b n c') := by
  have hR : S8x2048x512.Reduces [2] S8x2048 := by decide
  refine (Ideal.hostReduceAdd_single reducesTo_S8x2048x512_S8x2048_d2 hR u _ (ix2 b n)).trans ?_
  rw [constant_apply, Ideal.ofBits_zero_f32, zero_add]
  refine Finset.sum_congr rfl fun k _ => congrArg u ?_
  funext a
  match a with
  | ⟨0, _⟩ => rfl
  | ⟨1, _⟩ => rfl
  | ⟨2, _⟩ => rfl

theorem rowDen_apply (hc : FVec Ideal S8x2048x512 .f32) (b : Fin 8) (n : Fin 2048) :
    rowDen (F := Ideal) hc (ix3 b n 0)
      = max (Ideal.sqrt (∑ c' : Fin 512, hc (ix3 b n c') * hc (ix3 b n c'))) Cert.Spec.eps12 := by
  unfold rowDen
  rw [maximumf_apply, broadcastInDim_scalar_apply, constant_apply, hostSqrt_apply, bc_keep, rowSum_apply]
  rfl

/-! ## A 512-vector repeated over batches and nodes -/

theorem spread512_apply (v : FVec Ideal S512 .f32) (b : Fin 8) (n : Fin 2048) (ch : Fin 512) :
    spread512 (F := Ideal) v (ix3 b n ch) = v (ix1 ch) := by
  unfold spread512
  refine (broadcastInDim_apply _ _ _ _ (ix3 0 0 ch) (fun a => by
    match a with
    | ⟨0, _⟩ => rfl
    | ⟨1, _⟩ => rfl
    | ⟨2, _⟩ => rfl)).trans ?_
  exact broadcastInDim_apply _ _ v _ (ix1 ch) (fun a => by
    match a with
    | ⟨0, _⟩ => rfl)

/-! ## A channel's sum over the (batch, node) pairs -/

/-- Dropping the batch and node coordinates of an index leaves its channel. -/
theorem drop_chan (i : S8x2048x512.Idx) (ch : Fin 512) :
    reducesTo_S8x2048x512_S512_d0_1.drop i = ix1 ch ↔ i 2 = ch := by
  constructor
  · intro h
    have h0 : ((reducesTo_S8x2048x512_S512_d0_1.drop i) 0).val = ch.val :=
      congrArg (fun j : S512.Idx => (j 0).val) h
    exact Fin.ext ((Shape.ReducesTo.drop_apply_val_of_eq reducesTo_S8x2048x512_S512_d0_1 i 0 2).symm.trans h0)
  · intro h
    funext a
    match a with
    | ⟨0, _⟩ =>
      exact Fin.ext ((Shape.ReducesTo.drop_apply_val_of_eq reducesTo_S8x2048x512_S512_d0_1 i 0 2).trans
        (congrArg Fin.val h))

/-- An index of the activations as its three coordinates. -/
def idxEquiv3 : S8x2048x512.Idx ≃ Fin 8 × Fin 2048 × Fin 512 where
  toFun j := (j 0, j 1, j 2)
  invFun p := ix3 p.1 p.2.1 p.2.2
  left_inv j := (eq_ix3 j).symm
  right_inv _ := rfl

theorem chanSum_apply (u : FVec Ideal S8x2048x512 .f32) (ch : Fin 512) :
    Host.reduceAdd (F := Ideal) u (constant (F := Ideal) S_ .f32 0x00000000#32)
        reducesTo_S8x2048x512_S512_d0_1 h_S_ (ix1 ch)
      = ∑ b : Fin 8, ∑ n : Fin 2048, u (ix3 b n ch) := by
  rw [hostReduceAdd_apply]
  unfold Ideal.hostReduceAdd
  rw [constant_apply, Ideal.ofBits_zero_f32, zero_add, Finset.sum_filter]
  rw [← Equiv.sum_comp idxEquiv3.symm, Fintype.sum_prod_type]
  refine Finset.sum_congr rfl fun b _ => ?_
  rw [Fintype.sum_prod_type]
  refine Finset.sum_congr rfl fun n _ => ?_
  refine (Finset.sum_congr rfl fun c _ => (if_congr (drop_chan (ix3 b n c) ch) rfl rfl :
    _ = (if c = ch then u (ix3 b n c) else 0))).trans ?_
  rw [Finset.sum_ite_eq' Finset.univ ch, if_pos (Finset.mem_univ ch)]

theorem chanMean_apply (u : FVec Ideal S8x2048x512 .f32) (ch : Fin 512) :
    chanMean (F := Ideal) u (ix1 ch)
      = Ideal.div (∑ b : Fin 8, ∑ n : Fin 2048, u (ix3 b n ch)) Cert.Spec.cnt := by
  unfold chanMean
  rw [hostDivf_apply, chanSum_apply, broadcastInDim_scalar_apply, constant_apply]

/-! ## The batch normalisation -/

theorem cenTerm_apply (h : FVec Ideal S8x2048x512 .f32) (b : Fin 8) (n : Fin 2048) (ch : Fin 512) :
    cenTerm (F := Ideal) h (ix3 b n ch)
      = h (ix3 b n ch) - Cert.Spec.muR (fun b n c => h (ix3 b n c)) ch := by
  unfold cenTerm
  rw [subf_apply, spread512_apply, chanMean_apply]
  rfl

theorem rstdTerm_apply (h : FVec Ideal S8x2048x512 .f32) (ch : Fin 512) :
    rstdTerm (F := Ideal) h (ix1 ch)
      = Ideal.rsqrt (Cert.Spec.varR (fun b n c => h (ix3 b n c)) ch + Cert.Spec.eps5) := by
  unfold rstdTerm
  rw [hostRsqrt_apply, addf_apply, chanMean_apply, broadcastInDim_scalar_apply, constant_apply]
  simp only [mulf_apply, cenTerm_apply]
  rfl

end BN

open BN

/-! ## The two stages at an index -/

theorem hTerm_apply (hc : FVec Ideal S8x2048x512 .f32) (b : Fin 8) (n : Fin 2048) (ch : Fin 512) :
    hTerm (F := Ideal) hc (ix3 b n ch)
      = max (Ideal.div (hc (ix3 b n ch))
          (max (Ideal.sqrt (∑ c' : Fin 512, hc (ix3 b n c') * hc (ix3 b n c'))) Cert.Spec.eps12)) 0 := by
  unfold hTerm
  rw [maximumf_apply, hostDivf_apply, bc_row, rowDen_apply, broadcastInDim_scalar_apply, constant_apply,
    Ideal.ofBits_zero_f32]

theorem bnTerm_apply (h : FVec Ideal S8x2048x512 .f32) (a6 a7 : FVec Ideal S512 .f32)
    (b : Fin 8) (n : Fin 2048) (ch : Fin 512) :
    bnTerm (F := Ideal) h a6 a7 (ix3 b n ch)
      = Cert.Spec.outR (fun b n c => h (ix3 b n c)) (fun c => a6 (ix1 c)) (fun c => a7 (ix1 c)) b n ch := by
  unfold bnTerm
  rw [addf_apply, mulf_apply, mulf_apply, spread512_apply, spread512_apply, spread512_apply, cenTerm_apply,
    rstdTerm_apply]
  rfl

end Cert.ReferenceIdeal.Hand

end
-- ==== Proof.Ref.ReadAll.lean ====
/-
  The reference's whole term at an index is the specification's result.

  The 512 channels at (b, n, ch) are the specification's `hcat` once the neighbour half is recognised: the mean of the
  gathered rows is `xneib` for an index table with entries in [0, 2048), so its projection plus bias is `hneiR`. The
  row normalisation with the clamp is then `hrelu`, and the batch normalisation of that array is `outR`, which
  together are `resR`.
-/
import proofs.«421764_j40862318854441_1_alg».proof.Proof.Ref.Read
import proofs.«421764_j40862318854441_1_alg».proof.Proof.Ref.ReadProj
import proofs.«421764_j40862318854441_1_alg».proof.Proof.Ref.ReadBN

noncomputable section

open scoped BigOperators

namespace Cert.ReferenceIdeal.Hand

open Cert.ReferenceIdeal Cert.ReferenceIdeal.Gen Idealize.ShloMosaic Idealize.ShloMosaic.ValueIdx

variable (a0 : FVec Ideal S8x2048x256 .f32) (a1 : IVec S2048x32 32) (a2 : FVec Ideal S256x256 .f32) (a3 : FVec Ideal S256 .f32)
  (a4 : FVec Ideal S256x256 .f32) (a5 : FVec Ideal S256 .f32) (a6 a7 : FVec Ideal S512 .f32)

/-- For an index table with entries in [0, 2048) the 512 channels are the specification's, the neighbour half through
    the gathered mean. -/
theorem hcatTerm_spec (hidx : ∀ n k, 0 ≤ (a1 (ix2 n k)).toInt ∧ (a1 (ix2 n k)).toInt < 2048)
    (b : Fin 8) (n : Fin 2048) (ch : Fin 512) :
    hcatTerm (F := Ideal) a0 a1 a2 a3 a4 a5 (ix3 b n ch)
      = Cert.Spec.hcat (fun b n f => a0 (ix3 b n f)) (fun o f => a2 (ix2 o f)) (fun o => a3 (ix1 o))
          (Cert.Spec.hneiR (fun b n f => a0 (ix3 b n f)) (fun n k => a1 (ix2 n k)) (fun o f => a4 (ix2 o f))
            (fun o => a5 (ix1 o))) b n ch := by
  have hn : (fun b n o => (∑ f : Fin 256, xneibTerm (F := Ideal) a0 a1 (ix3 b n f) * a4 (ix2 o f)) + a5 (ix1 o))
      = Cert.Spec.hneiR (fun b n f => a0 (ix3 b n f)) (fun n k => a1 (ix2 n k)) (fun o f => a4 (ix2 o f))
          (fun o => a5 (ix1 o)) := by
    funext b n o
    unfold Cert.Spec.hneiR
    simp only [xneibTerm_apply a0 a1 hidx]
  rw [hcatTerm_apply, hn]

/-- The reference's composed term at (b, n, ch) is the specification's result computed with the gather and the
    textbook batch normalisation. -/
theorem refTerm_apply (hidx : ∀ n k, 0 ≤ (a1 (ix2 n k)).toInt ∧ (a1 (ix2 n k)).toInt < 2048)
    (b : Fin 8) (n : Fin 2048) (ch : Fin 512) :
    refTerm (F := Ideal) a0 a1 a2 a3 a4 a5 a6 a7 (ix3 b n ch)
      = Cert.Spec.resR (fun b n f => a0 (ix3 b n f)) (fun n k => a1 (ix2 n k)) (fun o f => a2 (ix2 o f)) (fun o => a3 (ix1 o))
          (fun o f => a4 (ix2 o f)) (fun o => a5 (ix1 o)) (fun c => a6 (ix1 c)) (fun c => a7 (ix1 c)) b n ch := by
  unfold refTerm
  rw [bnTerm_apply]
  unfold Cert.Spec.resR Cert.Spec.HR
  have hH : (fun b n c => hTerm (F := Ideal) (hcatTerm (F := Ideal) a0 a1 a2 a3 a4 a5) (ix3 b n c))
      = Cert.Spec.hrelu (fun b n f => a0 (ix3 b n f)) (fun o f => a2 (ix2 o f)) (fun o => a3 (ix1 o))
          (Cert.Spec.hneiR (fun b n f => a0 (ix3 b n f)) (fun n k => a1 (ix2 n k)) (fun o f => a4 (ix2 o f))
            (fun o => a5 (ix1 o))) := by
    funext b n c
    rw [hTerm_apply]
    unfold Cert.Spec.hrelu Cert.Spec.nrm
    simp only [hcatTerm_spec a0 a1 a2 a3 a4 a5 hidx]
  rw [hH]

end Cert.ReferenceIdeal.Hand

end
-- ==== Proof.KI.Pay0.lean ====
/-
  Region 0's composed payload read at one entry, over the extended reals.

  The tile stored at a grid point is built from the 256×32 block of neighbour indices `x0`: from a zero start, for each of
  the 32 neighbour slots `k` the 0/1 matrix "column number `q` equals `x0[p, k]`" is added, and the total is multiplied
  by the word of `1/32` (the closing change of format is the identity on extended reals). Read at `(p, q)` this is the
  number of row `p`'s slots that name column `q`, times `1/32`.

  The road: one slot's term at `(p, q)` is the slot's indicator (`slot_apply`: the column slice, the cast to a vector and
  back, the spread over the columns and the column iota each read at an index; the comparison's bit widened and converted
  is `1` or `0`); one accumulation step adds it (`step_apply`); each of the five accumulating payloads is its accumulator
  plus its slots' indicators in order; chained, the 32 additions from zero are the sum over `Finset.range 32`, which is
  the sum over `Fin 32`.
-/
import proofs.«421764_j40862318854441_1_alg».proof.Proof.KI.Pure
import proofs.«421764_j40862318854441_1_alg».proof.Proof.Math.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen Cert.KernelIdeal.Hand
open scoped BigOperators

/-- The indicator "row `p`'s neighbour slot `k` names column `q`" as an extended real; zero for a slot number
    past the table's 32 slots, so that partial sums over `Finset.range` can be stated. -/
def slotInd (x0 : Vec Ideal S256x32 .i32) (p : Fin 256) (q : Fin 2048) (k : Nat) : EReal :=
  if h : k < 32 then (if x0 (ix2 p ⟨k, h⟩) = BitVec.ofNat 32 q.val then (1 : EReal) else 0) else 0

/-- The equality bit of two 32-bit words, widened to a word and converted, is the 0/1 indicator of their equality. -/
theorem sitofp_eqBit (a b : BitVec 32) :
    (FloatOps.sitofp (F := Ideal) .f32 ((IntOp.cmpi .eq a b).setWidth 32) : EReal) = if b = a then (1 : EReal) else 0 := by
  show (((((IntOp.cmpi .eq a b).setWidth 32).toInt : ℤ) : ℝ) : EReal) = _
  by_cases h : b = a
  · subst h
    rw [if_pos rfl]
    have e : IntOp.cmpi .eq b b = 1#1 := by simp [IntOp.cmpi]
    rw [e]
    have e2 : ((1#1 : BitVec 1).setWidth 32).toInt = 1 := by decide
    rw [e2]; simp
  · rw [if_neg h]
    have e : IntOp.cmpi .eq a b = 0#1 := by
      have : (a == b) = false := by simpa using (Ne.symm h)
      simp [IntOp.cmpi, this]
    rw [e]
    have e2 : ((0#1 : BitVec 1).setWidth 32).toInt = 0 := by decide
    rw [e2]; simp

/-- One neighbour slot's term read at `(p, q)`: column `k` of the index block, cast to a vector and back, spread over
    the 2048 columns, compared with the column number, widened and converted — the slot's indicator. -/
theorem slot_apply (x0 : Vec Ideal S256x32 .i32) (k : Nat) (hk : k < 32)
    (hs : S256x32.Slices ![0, k] S256x1) (h1 : S256x1.ShapeCasts S256) (h2 : S256.ShapeCasts S256x1)
    (h3 : S256x1.Broadcasts S256x2048) (h4 : 1 < 32) (hi : S256x2048.Iotas .tc 32 [1]) (p : Fin 256) (q : Fin 2048) :
    (sitofp .f32 (extui 32 (cmpi .eq (iota .tc S256x2048 32 [1] hi)
        (broadcastTo S256x2048 (shapeCast S256x1 (shapeCast S256 (extractStridedSlice S256x1 ![0, k] x0 hs) h1) h2) h3)) h4)
      : FVec Ideal S256x2048 .f32) (ix2 p q) = slotInd x0 p q k := by
  rw [shapeCast_shapeCast]
  show FloatOps.sitofp (F := Ideal) .f32 ((IntOp.cmpi .eq (iota .tc S256x2048 32 [1] hi (ix2 p q))
      (broadcastTo S256x2048 (extractStridedSlice S256x1 ![0, k] x0 hs) h3 (ix2 p q))).setWidth 32) = _
  rw [iota_single_apply]
  have hb : broadcastTo S256x2048 (extractStridedSlice S256x1 ![0, k] x0 hs) h3 (ix2 p q)
      = extractStridedSlice S256x1 ![0, k] x0 hs (ix2 p (0 : Fin 1)) :=
    broadcastTo_apply _ h3 (ix2 p q) (ix2 p (0 : Fin 1)) fun a =>
      match a with | ⟨0, _⟩ => rfl | ⟨1, _⟩ => rfl
  have he : extractStridedSlice S256x1 ![0, k] x0 hs (ix2 p (0 : Fin 1)) = x0 (ix2 p ⟨k, hk⟩) :=
    extractStridedSlice_apply ![0, k] x0 hs (ix2 p (0 : Fin 1)) (ix2 p ⟨k, hk⟩) fun a =>
      match a with
      | ⟨0, _⟩ => by show p.val = 0 + p.val; omega
      | ⟨1, _⟩ => by show k = k + 0; omega
  rw [hb, he, sitofp_eqBit]
  unfold slotInd
  rw [dif_pos hk]

/-- The column numbers `0 … 2047` along every row. -/
abbrev colIota : IVec S256x2048 32 := iota .tc S256x2048 32 [1] iota_S256x2048_d1_w32

/-- One accumulation step read at `(p, q)`: the accumulator there plus the slot's indicator. -/
theorem step_apply (x0 : Vec Ideal S256x32 .i32) (acc : FVec Ideal S256x2048 .f32) (k : Nat) (hk : k < 32)
    (hs : S256x32.Slices ![0, k] S256x1) (h1 : S256x1.ShapeCasts S256) (h2 : S256.ShapeCasts S256x1)
    (h3 : S256x1.Broadcasts S256x2048) (h4 : 1 < 32) (hi : S256x2048.Iotas .tc 32 [1]) (p : Fin 256) (q : Fin 2048) :
    addf acc (sitofp .f32 (extui 32 (cmpi .eq (iota .tc S256x2048 32 [1] hi)
        (broadcastTo S256x2048 (shapeCast S256x1 (shapeCast S256 (extractStridedSlice S256x1 ![0, k] x0 hs) h1) h2) h3)) h4))
      (ix2 p q) = acc (ix2 p q) + slotInd x0 p q k :=
  congrArg (fun z => acc (ix2 p q) + z) (slot_apply x0 k hk hs h1 h2 h3 h4 hi p q)

/-- Peel the last accumulation step off a payload read at `(p, q)`: the slot `k` term splits off both sides. -/
local macro "peel " k:num : tactic =>
  `(tactic| (refine (step_apply _ _ $k (by omega) _ _ _ _ _ _ _ _).trans ?_; refine congrArg (fun z => z + _) ?_))

/-- Slots 0–5, from the zero start. -/
theorem pay2_apply (x0 : Vec Ideal S256x32 .i32) (p : Fin 256) (q : Fin 2048) :
    k0_pay2 (F := Ideal) x0 (ix2 p q)
      = 0 + slotInd x0 p q 0 + slotInd x0 p q 1 + slotInd x0 p q 2 + slotInd x0 p q 3 + slotInd x0 p q 4 + slotInd x0 p q 5 := by
  unfold k0_pay2
  peel 5
  peel 4
  peel 3
  peel 2
  peel 1
  peel 0
  exact Ideal.ofBits_zero_f32

/-- Slots 6–13 on top of an accumulator. -/
theorem pay4_apply (x0 : Vec Ideal S256x32 .i32) (acc : FVec Ideal S256x2048 .f32) (p : Fin 256) (q : Fin 2048) :
    k0_pay4 (F := Ideal) x0 colIota acc (k0_pay3 x0) (ix2 p q)
      = acc (ix2 p q) + slotInd x0 p q 6 + slotInd x0 p q 7 + slotInd x0 p q 8 + slotInd x0 p q 9 + slotInd x0 p q 10
          + slotInd x0 p q 11 + slotInd x0 p q 12 + slotInd x0 p q 13 := by
  unfold k0_pay4 k0_pay3
  peel 13
  peel 12
  peel 11
  peel 10
  peel 9
  peel 8
  peel 7
  peel 6
  rfl

/-- Slots 14–20 on top of an accumulator. -/
theorem pay6_apply (x0 : Vec Ideal S256x32 .i32) (acc : FVec Ideal S256x2048 .f32) (p : Fin 256) (q : Fin 2048) :
    k0_pay6 (F := Ideal) x0 colIota acc (k0_pay5 x0) (ix2 p q)
      = acc (ix2 p q) + slotInd x0 p q 14 + slotInd x0 p q 15 + slotInd x0 p q 16 + slotInd x0 p q 17 + slotInd x0 p q 18
          + slotInd x0 p q 19 + slotInd x0 p q 20 := by
  unfold k0_pay6 k0_pay5
  peel 20
  peel 19
  peel 18
  peel 17
  peel 16
  peel 15
  peel 14
  rfl

/-- Slots 21–28 on top of an accumulator. -/
theorem pay8_apply (x0 : Vec Ideal S256x32 .i32) (acc : FVec Ideal S256x2048 .f32) (p : Fin 256) (q : Fin 2048) :
    k0_pay8 (F := Ideal) x0 colIota acc (k0_pay7 x0 colIota) (ix2 p q)
      = acc (ix2 p q) + slotInd x0 p q 21 + slotInd x0 p q 22 + slotInd x0 p q 23 + slotInd x0 p q 24 + slotInd x0 p q 25
          + slotInd x0 p q 26 + slotInd x0 p q 27 + slotInd x0 p q 28 := by
  unfold k0_pay8 k0_pay7
  peel 28
  peel 27
  peel 26
  peel 25
  peel 24
  peel 23
  peel 22
  peel 21
  rfl

/-- The closing scale by the word of `1/32` and the change of format (the identity on extended reals), at an index. -/
theorem scale_apply (a : FVec Ideal S256x2048 .f32) (h : FTy.bits .bf16 < FTy.bits .f32) (i : S256x2048.Idx) :
    (truncf .bf16 (mulf a (broadcast S256x2048 (Scalar.ofBits (F := Ideal) .f32 0x3D000000#32))) h : FVec Ideal S256x2048 .bf16) i
      = a i * Cert.Spec.inv32 := rfl

/-- Slots 29–31 on top of an accumulator, then the scale. -/
theorem pay1_apply (x0 : Vec Ideal S256x32 .i32) (acc : FVec Ideal S256x2048 .f32) (p : Fin 256) (q : Fin 2048) :
    k0_pay1 (F := Ideal) x0 colIota acc (k0_pay9 x0) (ix2 p q)
      = (acc (ix2 p q) + slotInd x0 p q 29 + slotInd x0 p q 30 + slotInd x0 p q 31) * Cert.Spec.inv32 := by
  unfold k0_pay1 k0_pay9
  refine (scale_apply _ _ _).trans ?_
  refine congrArg (fun z => z * Cert.Spec.inv32) ?_
  peel 31
  peel 30
  peel 29
  rfl

/-- The 32 indicators added one after the other from zero are their sum over the 32 slots. -/
theorem sum_slots (x0 : Vec Ideal S256x32 .i32) (p : Fin 256) (q : Fin 2048) :
    (∑ k : Fin 32, if x0 (ix2 p k) = BitVec.ofNat 32 q.val then (1 : EReal) else 0)
      = ∑ k ∈ Finset.range 32, slotInd x0 p q k := by
  rw [← Fin.sum_univ_eq_sum_range (fun k => slotInd x0 p q k) 32]
  refine Finset.sum_congr rfl fun k _ => ?_
  unfold slotInd
  rw [dif_pos k.isLt]

/-- REGION 0'S PAYLOAD AT `(p, q)`: the number of row `p`'s 32 neighbour slots that name column `q`, times `1/32`. -/
theorem adjPay_apply (x0 : Vec Ideal S256x32 .i32) (p : Fin 256) (q : Fin 2048) :
    adjPay (F := Ideal) x0 (ix2 p q)
      = (∑ k : Fin 32, if x0 (ix2 p k) = BitVec.ofNat 32 q.val then (1 : EReal) else 0) * Cert.Spec.inv32 := by
  unfold adjPay
  refine (pay1_apply x0 _ p q).trans ?_
  refine congrArg (fun z => z * Cert.Spec.inv32) ?_
  rw [pay8_apply, pay6_apply, pay4_apply, pay2_apply, sum_slots]
  simp only [Finset.sum_range_succ, Finset.sum_range_zero]

end Cert.KernelIdeal.Val

end
-- ==== Proof.KI.Val0.lean ====
/-
  Region 0's array after the run is the mean-adjacency matrix of the index array: what a grid point writes back is
  its 256-row block of that matrix (the tile computed from the point's block of the index array), and the eight
  blocks cover the 2048 rows.
-/
import proofs.«421764_j40862318854441_1_alg».proof.Proof.KI.R0
import proofs.«421764_j40862318854441_1_alg».proof.Proof.KI.Pay0
import proofs.«421764_j40862318854441_1_alg».proof.Proof.Math.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

/-- The mean-adjacency matrix of an index array, as a function of the matrix index. -/
def adjArr (idx : S2048x32.Idx → BitVec 32) : S2048x2048.Idx → EReal :=
  fun i => Cert.Spec.adj (fun n k => idx (ix2 n k)) (i 0) (i 1)

/-- The tile computed from a 256-row block of the index array is the same rows of the matrix: the block's row `p`
    is the array's row `r`, and the column is the same number. -/
theorem adjPay_block (idx : S2048x32.Idx → BitVec 32) (x0 : Vec Ideal S256x32 .i32) (p : Fin 256) (q : Fin 2048)
    (r c' : Fin 2048) (hx : ∀ k : Fin 32, x0 (ix2 p k) = idx (ix2 r k)) (hq : c'.val = q.val) :
    adjPay (F := Ideal) x0 (ix2 p q) = Cert.Spec.adj (fun n k => idx (ix2 n k)) r c' := by
  rw [adjPay_apply]
  unfold Cert.Spec.adj
  rw [hq]
  refine congrArg (· * Cert.Spec.inv32) (Finset.sum_congr rfl fun k _ => ?_)
  rw [hx k]

/-- The two windows' block indices at a point: the point's number along the rows, zero along the columns. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is its block of the matrix of the index array as the region finds it. -/
theorem flushed0_eq (c : Dev nD) (t : Fin cfg0.N) :
    (dat0 V c).flushed 1 t = ((cfg0.win 1).blk t).view.read (Elt Ideal) (adjArr (V c main_arg1)) := by
  show (cfg0.win 1).cut (grid0.coords t) ((dat0 V c).after 1 t) = _
  rw [after0_1]
  unfold out0_1
  rw [View.canon_unit_zero zero_off0]
  obtain ⟨e0, e1, e2, e3⟩ := idx_facts0 t
  funext j
  obtain ⟨p, q, rfl⟩ : ∃ (p : Fin 256) (q : Fin 2048), j = ix2 p q := ⟨j 0, j 1, eq_ix2 j⟩
  show adjPay (F := Ideal) (iblk0 V c 0 t) (ix2 p q)
    = Cert.Spec.adj (fun n k => V c main_arg1 (ix2 n k)) ((((cfg0.win 1).blk t).view.emb (ix2 p q)) 0) ((((cfg0.win 1).blk t).view.emb (ix2 p q)) 1)
  refine adjPay_block (V c main_arg1) _ p q _ _ (fun k => ?_) ?_
  · show V c main_arg1 (((cfg0.win 0).blk t).view.emb (ix2 p k)) = V c main_arg1 (ix2 _ k)
    refine congrArg _ (funext fun a => Fin.ext ?_)
    match a with
    | ⟨0, _⟩ =>
      show win0_0.index t (0 : Fin 2) * 256 + 1 * p.val = win0_1.index t (0 : Fin 2) * 256 + 1 * p.val
      omega
    | ⟨1, _⟩ =>
      show win0_0.index t (1 : Fin 2) * 32 + 1 * k.val = k.val
      omega
  · show win0_1.index t (1 : Fin 2) * 2048 + 1 * q.val = q.val
    omega

/-- An index of the matrix is in point `t`'s block iff each coordinate is in the block's range on its axis. -/
theorem mem_blk0 (t : Fin cfg0.N) (i : S2048x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v0).slice (win0_1.rect t)).set ↔ _
  rw [View.set_slice_whole, Rect.mem_set_unit]
  exact Iff.rfl

/-- Every index of the matrix is in the block of the point its row falls in: row `r` is in point `r / 256`'s. -/
theorem cover0 (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  let t : Fin cfg0.N := ⟨(i 0).val / 256, by show (i 0).val / 256 < 8; omega⟩
  obtain ⟨e0, e1, e2, e3⟩ := idx_facts0 t
  have ht : t.val = (i 0).val / 256 := rfl
  refine ⟨t, flush0_1 t, ?_⟩
  rw [mem_blk0]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2048 ≤ (i 1).val ∧ (i 1).val < win0_1.index t (1 : Fin 2) * 2048 + 2048; omega

/-- The array after the region's run is the mean-adjacency matrix of the index array. -/
theorem arr0_eq (c : Dev nD) : (dat0 V c).arrAt 1 cfg0.N = adjArr (V c main_arg1) :=
  (dat0 V c).arrAt_eq_of_cover 1 (adjArr (V c main_arg1)) (fun t _ => flushed0_eq V c t) cover0

/-- Entry by entry: the share of row `n`'s 32 neighbour slots that name column `j`. -/
theorem val0 (c : Dev nD) (n j : Fin 2048) :
    (dat0 V c).arrAt 1 cfg0.N (ix2 n j) = Cert.Spec.adj (fun n k => V c main_arg1 (ix2 n k)) n j :=
  congrFun (arr0_eq V c) (ix2 n j)

end Cert.KernelIdeal.Val

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KI.Pay1.lean ====
/-
  Region 1's and region 2's pure values read at one index, over the extended reals.

  The tile of activations is stored unchanged under a leading unit axis; the 2×512 totals start from zero; after a
  512×512 tile `h`, row 0 of the totals gains, at column `c`, the sum of `h`'s column `c`, and row 1 the sum of that
  column's squares; region 2 multiplies every entry by its channel's scale and adds its channel's shift.
  The cached neighbour projection at (j, o) is the sum over the 256 features of the batch's row `j` times the
  weight matrix's row `o`.
-/
import proofs.«421764_j40862318854441_1_alg».proof.Proof.KI.R1Defs
import proofs.«421764_j40862318854441_1_alg».proof.Proof.LibPlainDot
import proofs.«421764_j40862318854441_1_alg».proof.Proof.Math.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen Cert.KernelIdeal.Hand

/-! ## Column sums of a 512×512 array -/

/-- The sum over the row axis of a 512×512 array, at column `c`, is the sum of the column's 512 entries. -/
theorem colsum_apply (h : FVec Ideal S512x512 .f32) (hr : Shape.Reduces S512x512 [0] S512) (hφ : FKind.Formats .f32)
    (hacc : (0x00000000#32 : BitVec 32) = 0x00000000#32) (c : Fin 512) :
    multiReduction (F := Ideal) .add [0] S512 h 0x00000000#32 hr hφ hacc (ix1 c) = ∑ p : Fin 512, h (ix2 p c) := by
  refine (Ideal.multiReduction_add_single h 0x00000000#32 hr hφ hacc (ix1 c)).trans ?_
  refine Finset.sum_congr rfl fun p _ => congrArg h ?_
  funext a; apply Fin.ext
  match a with
  | ⟨0, _⟩ => rfl
  | ⟨1, _⟩ => rfl

/-! ## The stored tile, the zeroed totals, the two row updates -/

/-- The tile as stored: the same entries under a leading unit axis. -/
theorem k1_pay1_apply (h : FVec Ideal S512x512 .f32) (p c : Fin 512) :
    k1_pay1 (F := Ideal) h (ix3 0 p c) = h (ix2 p c) := by
  unfold k1_pay1
  exact shapeCast_ab_1ab_apply h _ 0 p c

/-- The totals start from zero everywhere. -/
theorem k1_pay2_apply (j : S2x512.Idx) : k1_pay2 (F := Ideal) j = 0 := by
  unfold k1_pay2
  exact Ideal.ofBits_zero_f32

/-- Row 0's update: the old total of column `c` plus the tile's column sum. -/
theorem k1_pay3_apply (h : FVec Ideal S512x512 .f32) (s : Vec Ideal S1x512 .f32) (c : Fin 512) :
    k1_pay3 (F := Ideal) h s (ix2 0 c) = s (ix2 0 c) + ∑ p : Fin 512, h (ix2 p c) := by
  unfold k1_pay3
  show shapeCast S1x512 s shapeCasts_S1x512_S1x512 (ix2 0 c) + shapeCast S1x512 _ shapeCasts_S512_S1x512 (ix2 0 c) = _
  refine congrArg₂ (· + ·) ?_ ?_
  · exact congrFun (shapeCast_self s _) _
  · refine (shapeCast_a_1a_apply _ _ 0 c).trans ?_
    exact colsum_apply h _ _ _ c

/-- Row 1's update: the old total of column `c` plus the tile's column sum of squares. -/
theorem k1_pay4_apply (h : FVec Ideal S512x512 .f32) (s : Vec Ideal S1x512 .f32) (c : Fin 512) :
    k1_pay4 (F := Ideal) h s (ix2 0 c) = s (ix2 0 c) + ∑ p : Fin 512, h (ix2 p c) * h (ix2 p c) := by
  unfold k1_pay4
  show shapeCast S1x512 s shapeCasts_S1x512_S1x512 (ix2 0 c) + shapeCast S1x512 _ shapeCasts_S512_S1x512 (ix2 0 c) = _
  refine congrArg₂ (· + ·) ?_ ?_
  · exact congrFun (shapeCast_self s _) _
  · refine (shapeCast_a_1a_apply _ _ 0 c).trans ?_
    exact colsum_apply (mulf h h) _ _ _ c

/-! ## The totals after a tile: both rows -/

/-- Row 0 of the totals after a tile gains the tile's column sums. -/
theorem statPay_apply0 (h : FVec Ideal S512x512 .f32) (s : Vec Ideal S2x512 .f32) (c : Fin 512) :
    statPay h s (ix2 0 c) = s (ix2 0 c) + ∑ p : Fin 512, h (ix2 p c) := by
  unfold statPay
  have hn : (ix2 (0 : Fin 2) c : S2x512.Idx) ∉ (rRow1).set := by
    rw [Rect.mem_set_unit]
    intro hh
    exact Nat.not_succ_le_zero 0 (hh 0).1
  refine (View.canon_cons_of_not_mem _ _ ?_).trans ?_
  · exact hn
  have he : (ix2 (0 : Fin 2) c : S2x512.Idx) = rRow0.emb (ix2 (0 : Fin 1) c) := by
    funext a; apply Fin.ext
    match a with
    | ⟨0, _⟩ => rfl
    | ⟨1, _⟩ => show c.val = 0 + 1 * c.val; omega
  rw [he, View.canon_cons_emb]
  exact k1_pay3_apply h _ c

/-- Row 1 of the totals after a tile gains the tile's column sums of squares. -/
theorem statPay_apply1 (h : FVec Ideal S512x512 .f32) (s : Vec Ideal S2x512 .f32) (c : Fin 512) :
    statPay h s (ix2 1 c) = s (ix2 1 c) + ∑ p : Fin 512, h (ix2 p c) * h (ix2 p c) := by
  unfold statPay
  have he : (ix2 (1 : Fin 2) c : S2x512.Idx) = rRow1.emb (ix2 (0 : Fin 1) c) := by
    funext a; apply Fin.ext
    match a with
    | ⟨0, _⟩ => rfl
    | ⟨1, _⟩ => show c.val = 0 + 1 * c.val; omega
  rw [he, View.canon_cons_emb]
  exact k1_pay4_apply h _ c

/-! ## Region 2's tile: one scale and one shift per channel -/

/-- Each entry times its channel's scale plus its channel's shift. -/
theorem k2_pay1_apply (x0 : Vec Ideal S1x512x512 .f32) (x1 x2 : Vec Ideal S512 .f32) (p c : Fin 512) :
    k2_pay1 (F := Ideal) x0 x1 x2 (ix3 0 p c) = x0 (ix3 0 p c) * x1 (ix1 c) + x2 (ix1 c) := by
  unfold k2_pay1
  refine (shapeCast_ab_1ab_apply _ _ 0 p c).trans ?_
  show shapeCast S512x512 x0 _ (ix2 p c) * broadcastTo S512x512 _ _ (ix2 p c) + broadcastTo S512x512 _ _ (ix2 p c) = _
  refine congrArg₂ (· + ·) (congrArg₂ (· * ·) ?_ ?_) ?_
  · exact shapeCast_1ab_ab_apply x0 _ p c
  · refine (broadcastTo_1b_ab_apply _ _ p c).trans ?_
    refine (shapeCast_a_1a_apply _ _ 0 c).trans ?_
    exact congrFun (shapeCast_self x1 _) _
  · refine (broadcastTo_1b_ab_apply _ _ p c).trans ?_
    refine (shapeCast_a_1a_apply _ _ 0 c).trans ?_
    exact congrFun (shapeCast_self x2 _) _

/-! ## The cached neighbour projection -/

/-- The projection's dimension numbers are the plain "rows × contraction by contraction × columns" ones. -/
theorem dotProj_eq_plain : dot_S2048x256_S256x256_S2048x256_1_0_0_1_n_n = DotDims.plain 2048 256 256 := rfl

/-- Row `j` of the batch's features times row `o` of the weight matrix, summed over the 256 features. -/
theorem k1_pay5_apply (xb : Vec Ideal S1x2048x256 .f32) (wn : Vec Ideal S256x256 .f32) (j : Fin 2048) (o : Fin 256) :
    k1_pay5 (F := Ideal) xb wn (ix2 j o) = ∑ f : Fin 256, xb (ix3 0 j f) * wn (ix2 o f) := by
  unfold k1_pay5
  refine (congrFun (shapeCast_self _ _) _).trans ?_
  show FloatOps.matmul (F := Ideal) (DotDims.plain 2048 256 256) none _ _ (constant (F := Ideal) S2048x256 .f32 0x00000000#32) (ix2 j o) = _
  refine (Cert.LibPlainDot.matmul_plain_apply 2048 256 256 none _ _ j o).trans ?_
  refine Finset.sum_congr rfl fun f _ => congrArg₂ (· * ·) ?_ ?_
  · exact shapeCast_1ab_ab_apply xb _ j f
  · exact transpose_ix2_apply _ _ f o

end Cert.KernelIdeal.Val

end
-- ==== Proof.KI.Pay1H.lean ====
/-
  Region 1's activations tile read at one entry, over the extended reals.

  At grid coordinates `i` the body loads rows `512 · i₁ … 512 · i₁ + 511` of the batch's feature block, multiplies them
  with the transposed own-projection weights and adds the bias row (channels 0–255), multiplies the adjacency tile with
  the cached neighbour projection and adds the neighbour bias row (channels 256–511), lays the two halves side by side,
  and divides every row by the larger of its Euclidean norm and the floor word, clamping at zero.

  The road: the payload is, by unfolding, the normalisation stage `normVec` applied to the concatenation stage `catVec` of
  the loaded tile (`hPay_eq`). `catVec` at `(p, c)` is the channel `hc p c` (`catVec_apply`: the two products read as
  sums over the contracted coordinate, the bias rows, the side-by-side pieces, the tile's rows inside the block);
  `normVec` at `(p, c)` is the entry over `max (√(∑ of the row's squares)) floor`, clamped (`normVec_apply`: the lane
  sum, the vector stood up as a column, the column copied across). Changes of format are the identity here.
-/
import proofs.«421764_j40862318854441_1_alg».proof.Proof.KI.R1Defs
import proofs.«421764_j40862318854441_1_alg».proof.Proof.Math.Spec
import proofs.«421764_j40862318854441_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen Cert.KernelIdeal.Hand
open scoped BigOperators

/-! ## The tile's rows inside the batch block -/

/-- The tile's offsets inside the batch block: nothing on the unit axis … -/
theorem off1_0 (i : grid1.Coords) : k1_off1 i 0 = 0 := rfl
/-- … nothing on the feature axis … -/
theorem off1_2 (i : grid1.Coords) : k1_off1 i 2 = 0 := rfl
/-- … and `512` rows per tile coordinate on the node axis (the 32-bit product does not wrap: the coordinate is below 4). -/
theorem off1_1 (i : grid1.Coords) : k1_off1 i 1 = 512 * (i 1).val := by
  have h4 : (i 1).val < 4 := (i 1).isLt
  show (BitVec.ofNat 32 (i 1).val * 512#32).toNat = 512 * (i 1).val
  rw [BitVec.toNat_mul, BitVec.toNat_ofNat]
  show ((i 1).val % 2 ^ 32 * 512) % 2 ^ 32 = 512 * (i 1).val
  omega

/-- A tile's row `p` is a row of the batch block. -/
theorem tile_lt (i : grid1.Coords) (p : Fin 512) : 512 * (i 1).val + p.val < 2048 := by
  have h4 : (i 1).val < 4 := (i 1).isLt
  omega

/-- The tile loaded from the batch block, at `(0, p, f)`: the block at row `512 · tile + p`. -/
theorem ldTile_apply (i : grid1.Coords) (xb : Vec Ideal S1x2048x256 .f32) (p : Fin 512) (f : Fin 256) :
    View.ld xb (rTile i) (ix3 (0 : Fin 1) p f) = xb (ix3 (0 : Fin 1) ⟨512 * (i 1).val + p.val, tile_lt i p⟩ f) := by
  show xb ((rTile i).idx (ix3 (0 : Fin 1) p f)) = _
  refine congrArg xb (funext fun a => Fin.ext ?_)
  match a with
  | ⟨0, _⟩ => show k1_off1 i 0 + 1 * 0 = 0; rw [off1_0]
  | ⟨1, _⟩ => show k1_off1 i 1 + 1 * p.val = 512 * (i 1).val + p.val; rw [off1_1]; omega
  | ⟨2, _⟩ => show k1_off1 i 2 + 1 * f.val = f.val; rw [off1_2]; omega

/-! ## The two products, the bias rows, the concatenation -/

/-- The own projection's product at `(p, o)`: the tile (its unit axis dropped) times the transposed weights. -/
theorem xproj_apply (v6 : Vec Ideal S1x512x256 .f32) (wx : Vec Ideal S256x256 .f32)
    (h1 : S1x512x256.ShapeCasts S512x256) (h2 h2' : FTy.bits .bf16 < FTy.bits .f32)
    (h3 : S256x256.Transposes [1, 0] S256x256) (p : Fin 512) (o : Fin 256) :
    matmul dot_S512x256_S256x256_S512x256_1_0_0_1_n_n none
        (truncf .bf16 (shapeCast S512x256 v6 h1) h2 : FVec Ideal S512x256 .bf16)
        (transpose S256x256 [1, 0] (truncf .bf16 wx h2' : FVec Ideal S256x256 .bf16) h3)
        (constant S512x256 .f32 0x00000000#32) (ix2 p o)
      = ∑ f : Fin 256, v6 (ix3 (0 : Fin 1) p f) * wx (ix2 o f) := by
  show FloatOps.matmul (F := Ideal) (DotDims.plain 512 256 256) none _ _
      (constant (F := Ideal) ⟨2, ![512, 256]⟩ .f32 0x00000000#32) (ix2 p o) = _
  refine (Cert.LibPlainDot.matmul_plain_apply 512 256 256 none _ _ p o).trans ?_
  refine Finset.sum_congr rfl fun f _ => ?_
  refine congrArg₂ (fun u w : EReal => u * w) ?_ ?_
  · exact shapeCast_1ab_ab_apply v6 h1 p f
  · exact transpose_ix2_apply (truncf .bf16 wx h2' : FVec Ideal S256x256 .bf16) h3 f o

/-- The neighbour half's product at `(p, o)`: the adjacency tile times the cached projection. -/
theorem nproj_apply (a : FVec Ideal S512x2048 .bf16) (y : FVec Ideal S2048x256 .bf16)
    (h1 : S512x2048.ShapeCasts S512x2048) (p : Fin 512) (o : Fin 256) :
    matmul dot_S512x2048_S2048x256_S512x256_1_0_0_1_n_n none (shapeCast S512x2048 a h1) y
        (constant S512x256 .f32 0x00000000#32) (ix2 p o)
      = ∑ j : Fin 2048, a (ix2 p j) * y (ix2 j o) := by
  rw [shapeCast_self]
  show FloatOps.matmul (F := Ideal) (DotDims.plain 512 2048 256) none _ _
      (constant (F := Ideal) ⟨2, ![512, 256]⟩ .f32 0x00000000#32) (ix2 p o) = _
  exact Cert.LibPlainDot.matmul_plain_apply 512 2048 256 none a y p o

/-- A bias vector laid as one row and copied down the 512 rows, at `(p, o)`: the bias at `o`. -/
theorem biasRow_apply (b : Vec Ideal S256 .f32) (h1 : S256.ShapeCasts S1x256) (h2 : S1x256.Broadcasts S512x256)
    (p : Fin 512) (o : Fin 256) : broadcastTo S512x256 (shapeCast S1x256 b h1) h2 (ix2 p o) = b (ix1 o) :=
  (broadcastTo_1b_ab_apply _ h2 p o).trans (shapeCast_a_1a_apply b h1 0 o)

/-- Two 512×256 halves side by side, at a column of the left half. -/
theorem cat_left (x₁ x₂ : S512x256.Idx → EReal) (h : Shape.Concatenates [S512x256, S512x256] S512x512 1)
    (p c : Fin 512) (hc : c.val < 256) :
    concatenate S512x512 1 [⟨S512x256, x₁⟩, ⟨S512x256, x₂⟩] h (ix2 p c) = x₁ (ix2 p ⟨c.val, hc⟩) :=
  concatenate_pair_apply_left 1 x₁ x₂ h (ix2 p c) rfl (ix2 p ⟨c.val, hc⟩) fun b =>
    match b with | ⟨0, _⟩ => rfl | ⟨1, _⟩ => rfl

/-- Two 512×256 halves side by side, at a column of the right half. -/
theorem cat_right (x₁ x₂ : S512x256.Idx → EReal) (h : Shape.Concatenates [S512x256, S512x256] S512x512 1)
    (p c : Fin 512) (hc : ¬ c.val < 256) (hc' : c.val - 256 < 256) :
    concatenate S512x512 1 [⟨S512x256, x₁⟩, ⟨S512x256, x₂⟩] h (ix2 p c) = x₂ (ix2 p ⟨c.val - 256, hc'⟩) :=
  concatenate_pair_apply_right 1 x₁ x₂ h (ix2 p c) rfl rfl (ix2 p ⟨c.val - 256, hc'⟩)
    (fun b hb => match b, hb with
      | ⟨0, _⟩, _ => rfl
      | ⟨1, _⟩, hb => absurd rfl hb)
    (by show c.val - 256 + 256 = c.val; omega)

/-! ## The row norm's layout steps -/

/-- A lane sum of a 512×512 array at row `p`: the sum over the row's 512 entries. -/
theorem laneSum_apply (v : FVec Ideal S512x512 .f32) (h : S512x512.Reduces [1] S512) (hφ : FKind.Formats .f32)
    (hacc : (0x00000000#32 : BitVec 32) = 0x00000000#32) (p : Fin 512) :
    multiReduction .add [1] S512 v 0x00000000#32 h hφ hacc (ix1 p) = ∑ k : Fin 512, v (ix2 p k) := by
  refine (Ideal.multiReduction_add_single v _ h hφ hacc (ix1 p)).trans ?_
  refine Finset.sum_congr rfl fun k _ => ?_
  refine congrArg v (funext fun a => Fin.ext ?_)
  match a with
  | ⟨0, _⟩ => rfl
  | ⟨1, _⟩ => rfl

/-- A vector of 512 entries stood up as one column, at `(p, 0)`: the vector at `p`. -/
theorem col_apply (x : S512.Idx → EReal) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu]; omega)

/-- One column copied across the 512 columns, at `(p, c)`: the column at `p`. -/
theorem colBcast_apply (v : S512x1.Idx → EReal) (h : S512x1.Broadcasts S512x512) (p c : Fin 512) :
    broadcastTo S512x512 v h (ix2 p c) = v (ix2 p (0 : Fin 1)) :=
  broadcastTo_apply v h (ix2 p c) (ix2 p (0 : Fin 1)) fun a =>
    match a with | ⟨0, _⟩ => rfl | ⟨1, _⟩ => rfl

/-! ## The payload as two stages -/

/-- The 512 concatenated channels of every row of the tile, as the body computes them from the loaded tile `v6`. -/
def catVec (v6 : Vec Ideal S1x512x256 .f32) (wx : Vec Ideal S256x256 .f32) (bx : Vec Ideal S256 .f32)
    (a : Vec Ideal S512x2048 .bf16) (y : Vec Ideal S2048x256 .bf16) (bn : Vec Ideal S256 .f32) : FVec Ideal S512x512 .f32 :=
  concatenate S512x512 1
    [⟨S512x256, addf
        (matmul dot_S512x256_S256x256_S512x256_1_0_0_1_n_n none
          (truncf .bf16 (shapeCast S512x256 v6 shapeCasts_S1x512x256_S512x256) bitsLt_bf16_f32 : FVec Ideal S512x256 .bf16)
          (transpose S256x256 [1, 0] (truncf .bf16 wx bitsLt_bf16_f32 : FVec Ideal S256x256 .bf16) transposes_S256x256_p1_0_S256x256)
          (constant S512x256 .f32 0x00000000#32))
        (broadcastTo S512x256 (shapeCast S1x256 bx shapeCasts_S256_S1x256) broadcasts_S1x256_S512x256)⟩,
     ⟨S512x256, addf
        (matmul (φ₁ := .bf16) (φ₂ := .bf16) dot_S512x2048_S2048x256_S512x256_1_0_0_1_n_n none
          (shapeCast S512x2048 a shapeCasts_S512x2048_S512x2048) y (constant S512x256 .f32 0x00000000#32))
        (broadcastTo S512x256 (shapeCast S1x256 bn shapeCasts_S256_S1x256) broadcasts_S1x256_S512x256)⟩]
    concatenates_S512x256_S512x256_S512x512_d1

/-- Every row divided by the larger of its Euclidean norm and the floor, then clamped at zero. -/
def normVec (V : FVec Ideal S512x512 .f32) : FVec Ideal S512x512 .f32 :=
  maximumf
    (divf V (broadcastTo S512x512
      (maximumf
        (sqrt (shapeCast S512x1 (multiReduction .add [1] S512 (mulf V V) 0x00000000#32 reduces_S512x512_S512 (.inl rfl) rfl)
          shapeCasts_S512_S512x1))
        (broadcast S512x1 (Scalar.ofBits (F := Ideal) .f32 0x2B8CBCCC#32)))
      broadcasts_S512x1_S512x512))
    (broadcast S512x512 (Scalar.ofBits (F := Ideal) .f32 0x00000000#32))

/-- The activations tile is the normalisation of the concatenated channels of the loaded tile. -/
theorem hPay_eq (i : grid1.Coords) (xb : Vec Ideal S1x2048x256 .f32) (a : Vec Ideal S512x2048 .bf16)
    (wx : Vec Ideal S256x256 .f32) (bx : Vec Ideal S256 .f32) (y : Vec Ideal S2048x256 .bf16) (bn : Vec Ideal S256 .f32) :
    hPay (F := Ideal) i xb a wx bx y bn = normVec (catVec (View.ld xb (rTile i)) wx bx a y bn) := rfl

/-! ## The two stages at an entry -/

/-- Row `p`'s channel `c` before the normalisation: below 256 the own projection of the tile's row `p` (row
    `512 · tile + p` of the batch block) plus its bias, from 256 on the adjacency row times the cached projection plus
    the neighbour bias. -/
def hc (i : grid1.Coords) (xb : Vec Ideal S1x2048x256 .f32) (a : Vec Ideal S512x2048 .bf16) (wx : Vec Ideal S256x256 .f32)
    (bx : Vec Ideal S256 .f32) (y : Vec Ideal S2048x256 .bf16) (bn : Vec Ideal S256 .f32) (p c : Fin 512) : EReal :=
  if h : c.val < 256 then
    (∑ f : Fin 256, xb (ix3 (0 : Fin 1) ⟨512 * (i 1).val + p.val, tile_lt i p⟩ f) * wx (ix2 ⟨c.val, h⟩ f))
      + bx (ix1 ⟨c.val, h⟩)
  else
    (∑ j : Fin 2048, a (ix2 p j) * y (ix2 j ⟨c.val - 256, by have := c.isLt; omega⟩))
      + bn (ix1 ⟨c.val - 256, by have := c.isLt; omega⟩)

/-- The concatenated channels of the loaded tile, at `(p, c)`. -/
theorem catVec_apply (i : grid1.Coords) (xb : Vec Ideal S1x2048x256 .f32) (a : Vec Ideal S512x2048 .bf16)
    (wx : Vec Ideal S256x256 .f32) (bx : Vec Ideal S256 .f32) (y : Vec Ideal S2048x256 .bf16) (bn : Vec Ideal S256 .f32)
    (p c : Fin 512) :
    catVec (View.ld xb (rTile i)) wx bx a y bn (ix2 p c) = hc i xb a wx bx y bn p c := by
  unfold catVec hc
  by_cases h : c.val < 256
  · rw [dif_pos h]
    refine (cat_left _ _ _ p c h).trans ?_
    refine (addf_apply _ _ _).trans ?_
    refine congrArg₂ (fun u w : EReal => u + w) ?_ (biasRow_apply bx _ _ p ⟨c.val, h⟩)
    refine (xproj_apply _ wx _ _ _ _ p ⟨c.val, h⟩).trans ?_
    refine Finset.sum_congr rfl fun f _ => ?_
    rw [ldTile_apply]
  · rw [dif_neg h]
    have hc' : c.val - 256 < 256 := by have := c.isLt; omega
    refine (cat_right _ _ _ p c h hc').trans ?_
    refine (addf_apply _ _ _).trans ?_
    exact congrArg₂ (fun u w : EReal => u + w) (nproj_apply a y _ p ⟨c.val - 256, hc'⟩)
      (biasRow_apply bn _ _ p ⟨c.val - 256, hc'⟩)

/-- The normalisation at `(p, c)`: the entry over the larger of its row's norm and the floor, clamped at zero. -/
theorem normVec_apply (V : FVec Ideal S512x512 .f32) (p c : Fin 512) :
    normVec V (ix2 p c)
      = max (Ideal.div (V (ix2 p c))
          (max (Ideal.sqrt (∑ c' : Fin 512, V (ix2 p c') * V (ix2 p c'))) Cert.Spec.eps12)) 0 := by
  unfold normVec
  show max (Ideal.div (V (ix2 p c)) (broadcastTo S512x512 _ _ (ix2 p c))) (Ideal.ofBits .f32 0x00000000#32) = _
  rw [Ideal.ofBits_zero_f32, colBcast_apply]
  show max (Ideal.div (V (ix2 p c))
      (max (Ideal.sqrt (shapeCast S512x1 _ _ (ix2 p (0 : Fin 1)))) Cert.Spec.eps12)) 0 = _
  rw [col_apply]
  refine congrArg (fun z => max (Ideal.div (V (ix2 p c)) (max (Ideal.sqrt z) Cert.Spec.eps12)) 0) ?_
  exact laneSum_apply (mulf V V) _ _ _ p

/-- REGION 1'S ACTIVATIONS TILE AT `(p, c)`: the row's channel over the larger of the row's Euclidean norm and the
    floor, clamped at zero. -/
theorem hPay_apply (i : grid1.Coords) (xb : Vec Ideal S1x2048x256 .f32) (a : Vec Ideal S512x2048 .bf16)
    (wx : Vec Ideal S256x256 .f32) (bx : Vec Ideal S256 .f32) (y : Vec Ideal S2048x256 .bf16) (bn : Vec Ideal S256 .f32)
    (p c : Fin 512) :
    hPay (F := Ideal) i xb a wx bx y bn (ix2 p c)
      = max (Ideal.div (hc i xb a wx bx y bn p c)
          (max (Ideal.sqrt (∑ c' : Fin 512, hc i xb a wx bx y bn p c' * hc i xb a wx bx y bn p c')) Cert.Spec.eps12)) 0 := by
  rw [hPay_eq, normVec_apply]
  simp only [catVec_apply]

end Cert.KernelIdeal.Val

end
-- ==== Proof.KI.Val1.lean ====
/-
  Region 1's two arrays after the run, index by index: the activations array is the normalised, clamped
  concatenation of the own projection and the neighbour half through the adjacency matrix as the region finds it,
  and the totals array holds every channel's sum and sum of squares of those activations over all
  (batch, node) pairs.  The road: each input block read where its array says; by induction on the position in the
  8×4 grid, the cached projection at a position is the projection of that position's batch, and the totals after a
  position are the sums over the tiles so far; then the activations' blocks tile their array, and the totals are
  written back once, after the last position, where the 32 tiles of 512 rows regroup into 8 batches of 2048 nodes.
-/
import proofs.«421764_j40862318854441_1_alg».proof.Proof.KI.R1Defs
import proofs.«421764_j40862318854441_1_alg».proof.Proof.Math.Spec
import proofs.«421764_j40862318854441_1_alg».proof.Proof.KI.Pay1
import proofs.«421764_j40862318854441_1_alg».proof.Proof.KI.Pay1H
import Idealize.ShloMosaic.Lib.Pipeline.Value
import Idealize.ShloMosaic.Lib.ValueIdx
import Idealize.ShloMosaic.Lib.ValueIdxCoords
import Idealize.ShloMosaic.Lib.Tactic

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand
open scoped BigOperators

variable (V : (c : Dev nD) → (b : Ref sig .tc) → Buf (Elt Ideal) ((c : Thread nD τ).loc b)) (c : Dev nD)

/-! ## The arrays as the region finds them, and the mathematics' arguments read off them -/

abbrev xarr : Vec Ideal S8x2048x256 .f32 := V c main_arg0
abbrev aarr : Vec Ideal S2048x2048 .bf16 := V c main_v0
abbrev wxarr : Vec Ideal S256x256 .f32 := V c main_arg2
abbrev bxarr : Vec Ideal S256 .f32 := V c main_arg3
abbrev wnarr : Vec Ideal S256x256 .f32 := V c main_arg4
abbrev bnarr : Vec Ideal S256 .f32 := V c main_arg5

/-- The node features, the adjacency matrix, the two weight matrices and the two biases, by coordinates. -/
def X (b : Fin 8) (n : Fin 2048) (f : Fin 256) : EReal := xarr V c (ix3 b n f)
def A (n j : Fin 2048) : EReal := aarr V c (ix2 n j)
def WX (o f : Fin 256) : EReal := wxarr V c (ix2 o f)
def BX (o : Fin 256) : EReal := bxarr V c (ix1 o)
def WN (o f : Fin 256) : EReal := wnarr V c (ix2 o f)
def BN (o : Fin 256) : EReal := bnarr V c (ix1 o)

/-- The activations both arrays are stated through. -/
def H : Fin 8 → Fin 2048 → Fin 512 → EReal :=
  Cert.Spec.hrelu (X V c) (WX V c) (BX V c) (Cert.Spec.hneiA (X V c) (WN V c) (BN V c) (A V c))

/-! ## The blocks at a point, by their literal types -/

abbrev xblk (t : Fin cfg1.N) : Vec Ideal S1x2048x256 .f32 := iblk1 V c 0 t
abbrev ablk (t : Fin cfg1.N) : Vec Ideal S512x2048 .bf16 := iblk1 V c 1 t
abbrev wxblk (t : Fin cfg1.N) : Vec Ideal S256x256 .f32 := iblk1 V c 2 t
abbrev bxblk (t : Fin cfg1.N) : Vec Ideal S256 .f32 := iblk1 V c 3 t
abbrev wnblk (t : Fin cfg1.N) : Vec Ideal S256x256 .f32 := iblk1 V c 4 t
abbrev bnblk (t : Fin cfg1.N) : Vec Ideal S256 .f32 := iblk1 V c 5 t

/-- The printed index maps, decided once over the 32 points: position `t` is batch `t / 4`, tile `t % 4`. -/
theorem idx_facts : ∀ t : Fin cfg1.N,
    (grid1.coords t 0).val = t.val / 4 ∧ (grid1.coords t 1).val = t.val % 4
    ∧ win1_0.index t (0 : Fin 3) = t.val / 4 ∧ win1_0.index t (1 : Fin 3) = 0 ∧ win1_0.index t (2 : Fin 3) = 0
    ∧ win1_1.index t (0 : Fin 2) = t.val % 4 ∧ win1_1.index t (1 : Fin 2) = 0
    ∧ win1_6.index t (0 : Fin 3) = t.val / 4 ∧ win1_6.index t (1 : Fin 3) = t.val % 4 ∧ win1_6.index t (2 : Fin 3) = 0 :=
  (by decide +kernel : ∀ t : Fin grid1.N, _)

/-- The windows whose block is their whole array sit at block index zero at every point. -/
theorem idx_facts_w : ∀ t : Fin cfg1.N,
    win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_7.index t (0 : Fin 2) = 0 ∧ win1_7.index t (1 : Fin 2) = 0 :=
  (by decide +kernel : ∀ t : Fin grid1.N, _)

theorem lt32 (t : Fin cfg1.N) : t.val < 32 := by have := t.isLt; have : cfg1.N = 32 := N_1; omega

/-- The feature block at position `t` is batch `t / 4`, whole. -/
theorem xblk_apply (t : Fin cfg1.N) (j : Fin 2048) (f : Fin 256) :
    xblk V c t (ix3 0 j f) = X V c ⟨t.val / 4, by have := lt32 t; omega⟩ j f := by
  obtain ⟨-, -, e0, e1, e2, -⟩ := idx_facts t
  unfold X
  show ((cfg1.win 0).blk t).view.read (Elt Ideal) (V c (Pipeline.arrRef spec1 0)) (ix3 0 j f) = _
  rw [View.read_apply]
  show V c main_arg0 _ = V c main_arg0 _
  congr 1
  funext a
  apply Fin.ext
  match a with
  | ⟨0, _⟩ => show win1_0.index t (0 : Fin 3) * 1 + 1 * 0 = t.val / 4; omega
  | ⟨1, _⟩ => show win1_0.index t (1 : Fin 3) * 2048 + 1 * j.val = j.val; omega
  | ⟨2, _⟩ => show win1_0.index t (2 : Fin 3) * 256 + 1 * f.val = f.val; omega

/-- The adjacency block at position `t` is rows `512 · (t % 4) …` of the matrix. -/
theorem ablk_apply (t : Fin cfg1.N) (p : Fin 512) (j : Fin 2048) :
    ablk V c t (ix2 p j) = A V c ⟨512 * (t.val % 4) + p.val, by have := p.isLt; omega⟩ j := by
  obtain ⟨-, -, -, -, -, e0, e1, -⟩ := idx_facts t
  unfold A
  show ((cfg1.win 1).blk t).view.read (Elt Ideal) (V c (Pipeline.arrRef spec1 1)) (ix2 p j) = _
  rw [View.read_apply]
  show V c main_v0 _ = V c main_v0 _
  congr 1
  funext a
  apply Fin.ext
  match a with
  | ⟨0, _⟩ => show win1_1.index t (0 : Fin 2) * 512 + 1 * p.val = 512 * (t.val % 4) + p.val; omega
  | ⟨1, _⟩ => show win1_1.index t (1 : Fin 2) * 2048 + 1 * j.val = j.val; omega

/-- The weights and biases are read whole at every point. -/
theorem wxblk_apply (t : Fin cfg1.N) (o f : Fin 256) : wxblk V c t (ix2 o f) = WX V c o f := by
  obtain ⟨e0, e1, -⟩ := idx_facts_w t
  unfold WX
  show ((cfg1.win 2).blk t).view.read (Elt Ideal) (V c (Pipeline.arrRef spec1 2)) (ix2 o f) = _
  rw [View.read_apply]
  show V c main_arg2 _ = V c main_arg2 _
  congr 1
  funext a
  apply Fin.ext
  match a with
  | ⟨0, _⟩ => show win1_2.index t (0 : Fin 2) * 256 + 1 * o.val = o.val; omega
  | ⟨1, _⟩ => show win1_2.index t (1 : Fin 2) * 256 + 1 * f.val = f.val; omega

theorem bxblk_apply (t : Fin cfg1.N) (o : Fin 256) : bxblk V c t (ix1 o) = BX V c o := by
  obtain ⟨-, -, e0, -⟩ := idx_facts_w t
  unfold BX
  show ((cfg1.win 3).blk t).view.read (Elt Ideal) (V c (Pipeline.arrRef spec1 3)) (ix1 o) = _
  rw [View.read_apply]
  show V c main_arg3 _ = V c main_arg3 _
  congr 1
  funext a
  apply Fin.ext
  match a with
  | ⟨0, _⟩ => show win1_3.index t (0 : Fin 1) * 256 + 1 * o.val = o.val; omega

theorem wnblk_apply (t : Fin cfg1.N) (o f : Fin 256) : wnblk V c t (ix2 o f) = WN V c o f := by
  obtain ⟨-, -, -, e0, e1, -⟩ := idx_facts_w t
  unfold WN
  show ((cfg1.win 4).blk t).view.read (Elt Ideal) (V c (Pipeline.arrRef spec1 4)) (ix2 o f) = _
  rw [View.read_apply]
  show V c main_arg4 _ = V c main_arg4 _
  congr 1
  funext a
  apply Fin.ext
  match a with
  | ⟨0, _⟩ => show win1_4.index t (0 : Fin 2) * 256 + 1 * o.val = o.val; omega
  | ⟨1, _⟩ => show win1_4.index t (1 : Fin 2) * 256 + 1 * f.val = f.val; omega

theorem bnblk_apply (t : Fin cfg1.N) (o : Fin 256) : bnblk V c t (ix1 o) = BN V c o := by
  obtain ⟨-, -, -, -, -, e0, -⟩ := idx_facts_w t
  unfold BN
  show ((cfg1.win 5).blk t).view.read (Elt Ideal) (V c (Pipeline.arrRef spec1 5)) (ix1 o) = _
  rw [View.read_apply]
  show V c main_arg5 _ = V c main_arg5 _
  congr 1
  funext a
  apply Fin.ext
  match a with
  | ⟨0, _⟩ => show win1_5.index t (0 : Fin 1) * 256 + 1 * o.val = o.val; omega

/-! ## What a position leaves: the cached projection, the tile, the totals — each by its own recursion -/

theorem lt32' {n : ℕ} (hn : n < cfg1.N) : n < 32 := by have : cfg1.N = 32 := N_1; omega

/-- The cached projection a position's tile is computed with: refreshed at every batch's first tile. -/
def yAt : (n : ℕ) → n < cfg1.N → Vec Ideal S2048x256 .bf16
  | 0, hn => k1_pay5 (xblk V c ⟨0, hn⟩) (wnblk V c ⟨0, hn⟩)
  | n + 1, hn => if (n + 1) % 4 = 0 then k1_pay5 (xblk V c ⟨n + 1, hn⟩) (wnblk V c ⟨n + 1, hn⟩) else yAt n (Nat.lt_of_succ_lt hn)

/-- The activations tile a position computes. -/
def tileAt (n : ℕ) (hn : n < cfg1.N) : FVec Ideal S512x512 .f32 :=
  hPay (grid1.coords ⟨n, hn⟩) (xblk V c ⟨n, hn⟩) (ablk V c ⟨n, hn⟩) (wxblk V c ⟨n, hn⟩) (bxblk V c ⟨n, hn⟩) (yAt V c n hn) (bnblk V c ⟨n, hn⟩)

/-- The running totals after a position. -/
def totAt : (n : ℕ) → n < cfg1.N → Vec Ideal S2x512 .f32
  | 0, hn => statPay (tileAt V c 0 hn) (k1_pay2 (F := Ideal))
  | n + 1, hn => statPay (tileAt V c (n + 1) hn) (totAt n (Nat.lt_of_succ_lt hn))

/-- What a position leaves is these three. -/
theorem outs_eq : ∀ (n : ℕ) (hn : n < cfg1.N),
    outsAt1 V c n hn = (k1_pay1 (tileAt V c n hn), totAt V c n hn, yAt V c n hn)
  | 0, hn => by
    rw [outsAt1, totAt, yAt]
    unfold tileAt
    rw [yAt]
  | n + 1, hn => by
    rw [outsAt1, outs_eq n (Nat.lt_of_succ_lt hn), totAt, yAt]
    unfold tileAt
    rw [yAt]

/-! ## The three at an index, in the mathematics' terms -/

/-- A position's batch, and the node a tile's row is. -/
def bOf (n : ℕ) (hn : n < cfg1.N) : Fin 8 := ⟨n / 4, by have := lt32' hn; omega⟩
def rowOf (n : ℕ) (p : Fin 512) : Fin 2048 := ⟨512 * (n % 4) + p.val, by have := p.isLt; omega⟩

/-- The cached projection at a position is the projection of the position's batch. -/
theorem yAt_apply : ∀ (n : ℕ) (hn : n < cfg1.N) (j : Fin 2048) (o : Fin 256),
    yAt V c n hn (ix2 j o) = Cert.Spec.yproj (X V c) (WN V c) (bOf n hn) j o
  | 0, hn, j, o => by
    rw [yAt, k1_pay5_apply]
    unfold Cert.Spec.yproj
    refine Finset.sum_congr rfl fun f _ => ?_
    rw [xblk_apply, wnblk_apply]
    rfl
  | n + 1, hn, j, o => by
    rw [yAt]
    split_ifs with h
    · rw [k1_pay5_apply]
      unfold Cert.Spec.yproj
      refine Finset.sum_congr rfl fun f _ => ?_
      rw [xblk_apply, wnblk_apply]
      rfl
    · rw [yAt_apply n (Nat.lt_of_succ_lt hn) j o]
      have e : bOf n (Nat.lt_of_succ_lt hn) = bOf (n + 1) hn := Fin.ext (by show n / 4 = (n + 1) / 4; omega)
      rw [e]

/-- The tile's channels before the normalisation are the concatenated projections of the tile's rows. -/
theorem hc_eq (n : ℕ) (hn : n < cfg1.N) (p ch : Fin 512) :
    hc (grid1.coords ⟨n, hn⟩) (xblk V c ⟨n, hn⟩) (ablk V c ⟨n, hn⟩) (wxblk V c ⟨n, hn⟩) (bxblk V c ⟨n, hn⟩) (yAt V c n hn) (bnblk V c ⟨n, hn⟩) p ch
      = Cert.Spec.hcat (X V c) (WX V c) (BX V c) (Cert.Spec.hneiA (X V c) (WN V c) (BN V c) (A V c)) (bOf n hn) (rowOf n p) ch := by
  obtain ⟨-, e1, -⟩ := idx_facts ⟨n, hn⟩
  have e1' : (grid1.coords ⟨n, hn⟩ 1).val = n % 4 := e1
  unfold hc Cert.Spec.hcat
  by_cases h : ch.val < 256
  · rw [dif_pos h, dif_pos h]
    unfold Cert.Spec.hself
    rw [bxblk_apply]
    congr 1
    refine Finset.sum_congr rfl fun f _ => ?_
    rw [xblk_apply, wxblk_apply]
    congr 2
    exact Fin.ext (by show 512 * (grid1.coords ⟨n, hn⟩ 1).val + p.val = 512 * (n % 4) + p.val; rw [e1'])
  · rw [dif_neg h, dif_neg h]
    unfold Cert.Spec.hneiA
    rw [bnblk_apply]
    congr 1
    refine Finset.sum_congr rfl fun j _ => ?_
    rw [ablk_apply, yAt_apply]
    rfl

/-- The tile at a position is the activations of the position's batch at the tile's rows. -/
theorem tileAt_apply (n : ℕ) (hn : n < cfg1.N) (p ch : Fin 512) :
    tileAt V c n hn (ix2 p ch) = H V c (bOf n hn) (rowOf n p) ch := by
  unfold tileAt H Cert.Spec.hrelu Cert.Spec.nrm
  rw [hPay_apply]
  simp only [hc_eq]

/-! ## The activations array: its blocks tile it -/

/-- The activations array, whole. -/
def G6 : Vec Ideal S8x2048x512 .f32 := fun i => H V c (i 0) (i 1) (i 2)

variable (dat : Dat τ (Elt Ideal) Unit ℕ (UR sig nD τ) ℕ cfg1 c)

/-- What position `t` writes back is block `t` of the activations array. -/
theorem flushed6_eq (h6 : ∀ t : Fin cfg1.N, dat.after 6 t = (outsAt1 V c t.val t.isLt).1) (t : Fin cfg1.N) :
    dat.flushed 6 t = ((cfg1.win 6).blk t).view.read (Elt Ideal) (G6 V c) := by
  show (cfg1.win 6).cut (grid1.coords t) (dat.after 6 t) = _
  rw [h6, outs_eq]
  obtain ⟨-, -, -, -, -, -, -, e0, e1, e2⟩ := idx_facts t
  funext j
  rw [View.read_apply]
  show k1_pay1 (tileAt V c t.val t.isLt) ((cfg1.win 6).xinj (grid1.coords t) j) = G6 V c (((cfg1.win 6).blk t).view.emb j)
  have hj0 : (j 0).val < 1 := (j 0).isLt
  have hj1 : (j 1).val < 512 := (j 1).isLt
  have hj2 : (j 2).val < 512 := (j 2).isLt
  have hk : ((cfg1.win 6).xinj (grid1.coords t) j : S1x512x512.Idx) = ix3 0 ⟨(j 1).val, hj1⟩ ⟨(j 2).val, hj2⟩ := by
    funext a
    apply Fin.ext
    match a with
    | ⟨0, _⟩ => show (j 0).val = 0; omega
    | ⟨1, _⟩ => rfl
    | ⟨2, _⟩ => rfl
  rw [hk, k1_pay1_apply, tileAt_apply]
  unfold G6
  have a0 : bOf t.val t.isLt = ((cfg1.win 6).blk t).view.emb j 0 :=
    Fin.ext (by show t.val / 4 = win1_6.index t (0 : Fin 3) * 1 + 1 * (j 0).val; omega)
  have a1 : rowOf t.val ⟨(j 1).val, hj1⟩ = ((cfg1.win 6).blk t).view.emb j 1 :=
    Fin.ext (by show 512 * (t.val % 4) + (j 1).val = win1_6.index t (1 : Fin 3) * 512 + 1 * (j 1).val; omega)
  have a2 : (⟨(j 2).val, hj2⟩ : Fin 512) = ((cfg1.win 6).blk t).view.emb j 2 :=
    Fin.ext (by show (j 2).val = win1_6.index t (2 : Fin 3) * 512 + 1 * (j 2).val; omega)
  rw [a0, a1, a2]

/-- An index of the array is in position `t`'s block iff each coordinate is in the block's range on its axis. -/
theorem mem_blk6 (t : Fin cfg1.N) (i : S8x2048x512.Idx) :
    i ∈ ((cfg1.win 6).blk t).view.set ↔ ∀ a : Fin 3, win1_6.index t a * S1x512x512.size a ≤ (i a).val ∧ (i a).val < win1_6.index t a * S1x512x512.size a + S1x512x512.size a := by
  show i ∈ ((View.whole main_v1_0).slice (win1_6.rect t)).set ↔ _
  rw [View.set_slice_whole, Rect.mem_set_unit]
  exact Iff.rfl

/-- Row `n` of batch `b` is in the block of position `4 b + n / 512`. -/
theorem cover6 (i : S8x2048x512.Idx) : ∃ t : Fin cfg1.N, (cfg1.win 6).flush t = true ∧ i ∈ ((cfg1.win 6).blk t).view.set := by
  have hi0 : (i 0).val < 8 := (i 0).isLt
  have hi1 : (i 1).val < 2048 := (i 1).isLt
  have hi2 : (i 2).val < 512 := (i 2).isLt
  have hN : cfg1.N = 32 := N_1
  let t : Fin cfg1.N := ⟨4 * (i 0).val + (i 1).val / 512, by omega⟩
  obtain ⟨-, -, -, -, -, -, -, e0, e1, e2⟩ := idx_facts t
  have tv : t.val = 4 * (i 0).val + (i 1).val / 512 := rfl
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 512 ≤ (i 2).val ∧ (i 2).val < win1_6.index t (2 : Fin 3) * 512 + 512; omega

/-- The activations array after the run. -/
theorem arr6_eq (h6 : ∀ t : Fin cfg1.N, dat.after 6 t = (outsAt1 V c t.val t.isLt).1) : dat.arrAt 6 cfg1.N = G6 V c :=
  dat.arrAt_eq_of_cover 6 (G6 V c) (fun t _ => flushed6_eq V c dat h6 t) (cover6)

theorem arr6_apply (h6 : ∀ t : Fin cfg1.N, dat.after 6 t = (outsAt1 V c t.val t.isLt).1) (b : Fin 8) (n : Fin 2048) (ch : Fin 512) :
    dat.arrAt 6 cfg1.N (ix3 b n ch) = H V c b n ch := by
  rw [arr6_eq V c dat h6]
  rfl

/-! ## The totals: sums over the positions so far, then over batches and nodes -/

/-- The activations of one channel, and their squares, at natural coordinates (zero outside the ranges). -/
def Hn1 (ch : Fin 512) (b n : ℕ) : EReal := if h : b < 8 ∧ n < 2048 then H V c ⟨b, h.1⟩ ⟨n, h.2⟩ ch else 0
def Hn2 (ch : Fin 512) (b n : ℕ) : EReal := if h : b < 8 ∧ n < 2048 then H V c ⟨b, h.1⟩ ⟨n, h.2⟩ ch * H V c ⟨b, h.1⟩ ⟨n, h.2⟩ ch else 0

theorem tile_rng (n : ℕ) (hn : n < cfg1.N) (p : Fin 512) : n / 4 < 8 ∧ 512 * (n % 4) + p.val < 2048 := by
  have := lt32' hn; have := p.isLt; omega

theorem Hn1_tile (n : ℕ) (hn : n < cfg1.N) (p ch : Fin 512) :
    H V c (bOf n hn) (rowOf n p) ch = Hn1 V c ch (n / 4) (512 * (n % 4) + p.val) := by
  unfold Hn1; rw [dif_pos (tile_rng n hn p)]; rfl

theorem Hn2_tile (n : ℕ) (hn : n < cfg1.N) (p ch : Fin 512) :
    H V c (bOf n hn) (rowOf n p) ch * H V c (bOf n hn) (rowOf n p) ch = Hn2 V c ch (n / 4) (512 * (n % 4) + p.val) := by
  unfold Hn2; rw [dif_pos (tile_rng n hn p)]; rfl

/-- A tile's column sum, and its column sum of squares, over natural row numbers. -/
theorem tile_sum1 (n : ℕ) (hn : n < cfg1.N) (ch : Fin 512) :
    ∑ p : Fin 512, tileAt V c n hn (ix2 p ch) = ∑ p ∈ Finset.range 512, Hn1 V c ch (n / 4) (512 * (n % 4) + p) := by
  rw [← Fin.sum_univ_eq_sum_range (fun p => Hn1 V c ch (n / 4) (512 * (n % 4) + p)) 512]
  refine Finset.sum_congr rfl fun p _ => ?_
  rw [tileAt_apply, Hn1_tile]

theorem tile_sum2 (n : ℕ) (hn : n < cfg1.N) (ch : Fin 512) :
    ∑ p : Fin 512, tileAt V c n hn (ix2 p ch) * tileAt V c n hn (ix2 p ch) = ∑ p ∈ Finset.range 512, Hn2 V c ch (n / 4) (512 * (n % 4) + p) := by
  rw [← Fin.sum_univ_eq_sum_range (fun p => Hn2 V c ch (n / 4) (512 * (n % 4) + p)) 512]
  refine Finset.sum_congr rfl fun p _ => ?_
  rw [tileAt_apply, Hn2_tile]

/-- The totals after a position: the sums over the positions so far of the tiles' column sums (of squares). -/
theorem totAt_apply0 : ∀ (n : ℕ) (hn : n < cfg1.N) (ch : Fin 512),
    totAt V c n hn (ix2 0 ch) = ∑ t ∈ Finset.range (n + 1), ∑ p ∈ Finset.range 512, Hn1 V c ch (t / 4) (512 * (t % 4) + p)
  | 0, hn, ch => by
    rw [totAt, statPay_apply0, k1_pay2_apply, zero_add, Finset.sum_range_one, tile_sum1]
  | n + 1, hn, ch => by
    rw [totAt, statPay_apply0, totAt_apply0 n (Nat.lt_of_succ_lt hn) ch, Finset.sum_range_succ _ (n + 1), tile_sum1]

theorem totAt_apply1 : ∀ (n : ℕ) (hn : n < cfg1.N) (ch : Fin 512),
    totAt V c n hn (ix2 1 ch) = ∑ t ∈ Finset.range (n + 1), ∑ p ∈ Finset.range 512, Hn2 V c ch (t / 4) (512 * (t % 4) + p)
  | 0, hn, ch => by
    rw [totAt, statPay_apply1, k1_pay2_apply, zero_add, Finset.sum_range_one, tile_sum2]
  | n + 1, hn, ch => by
    rw [totAt, statPay_apply1, totAt_apply1 n (Nat.lt_of_succ_lt hn) ch, Finset.sum_range_succ _ (n + 1), tile_sum2]

/-- A sum over `m · k` consecutive naturals, in `m` runs of `k`. -/
theorem sum_range_runs (k : ℕ) (g : ℕ → EReal) : ∀ m : ℕ,
    ∑ x ∈ Finset.range (m * k), g x = ∑ a ∈ Finset.range m, ∑ r ∈ Finset.range k, g (k * a + r)
  | 0 => by rw [Nat.zero_mul, Finset.sum_range_zero, Finset.sum_range_zero]
  | m + 1 => by
    rw [Nat.succ_mul, Finset.sum_range_add, sum_range_runs k g m, Finset.sum_range_succ _ m, Nat.mul_comm m k]

/-- The 32 positions of 512 rows are the 8 batches of 2048 nodes. -/
theorem regroup (F : ℕ → ℕ → EReal) :
    ∑ t ∈ Finset.range 32, ∑ p ∈ Finset.range 512, F (t / 4) (512 * (t % 4) + p)
      = ∑ b ∈ Finset.range 8, ∑ n ∈ Finset.range 2048, F b n := by
  rw [show (32 : ℕ) = 8 * 4 from rfl, sum_range_runs 4 _ 8]
  refine Finset.sum_congr rfl fun b _ => ?_
  rw [show (2048 : ℕ) = 4 * 512 from rfl, sum_range_runs 512 _ 4]
  refine Finset.sum_congr rfl fun a ha => ?_
  have ha4 : a < 4 := Finset.mem_range.mp ha
  have e1 : (4 * b + a) / 4 = b := by omega
  have e2 : (4 * b + a) % 4 = a := by omega
  rw [e1, e2]

/-- Sums over natural ranges back to sums over batches and nodes. -/
theorem sum_Hn1 (ch : Fin 512) : ∑ b ∈ Finset.range 8, ∑ n ∈ Finset.range 2048, Hn1 V c ch b n = Cert.Spec.sum1 (H V c) ch := by
  unfold Cert.Spec.sum1
  rw [← Fin.sum_univ_eq_sum_range (fun b => ∑ n ∈ Finset.range 2048, Hn1 V c ch b n) 8]
  refine Finset.sum_congr rfl fun b _ => ?_
  rw [← Fin.sum_univ_eq_sum_range (fun n => Hn1 V c ch b.val n) 2048]
  refine Finset.sum_congr rfl fun n _ => ?_
  unfold Hn1
  rw [dif_pos ⟨b.isLt, n.isLt⟩]

theorem sum_Hn2 (ch : Fin 512) : ∑ b ∈ Finset.range 8, ∑ n ∈ Finset.range 2048, Hn2 V c ch b n = Cert.Spec.sum2 (H V c) ch := by
  unfold Cert.Spec.sum2
  rw [← Fin.sum_univ_eq_sum_range (fun b => ∑ n ∈ Finset.range 2048, Hn2 V c ch b n) 8]
  refine Finset.sum_congr rfl fun b _ => ?_
  rw [← Fin.sum_univ_eq_sum_range (fun n => Hn2 V c ch b.val n) 2048]
  refine Finset.sum_congr rfl fun n _ => ?_
  unfold Hn2
  rw [dif_pos ⟨b.isLt, n.isLt⟩]

theorem h31 : 31 < cfg1.N := by have : cfg1.N = 32 := N_1; omega

/-- The totals after the last position are every channel's two sums. -/
theorem totLast_apply0 (ch : Fin 512) : totAt V c 31 h31 (ix2 0 ch) = Cert.Spec.sum1 (H V c) ch := by
  rw [totAt_apply0, regroup (Hn1 V c ch), sum_Hn1]

theorem totLast_apply1 (ch : Fin 512) : totAt V c 31 h31 (ix2 1 ch) = Cert.Spec.sum2 (H V c) ch := by
  rw [totAt_apply1, regroup (Hn2 V c ch), sum_Hn2]

/-! ## The totals array: written back once, after the last position -/

/-- Block (0, 0) of the 2×512 array is the array: what a write-back of contents `G` writes is `G` read through the block. -/
theorem cut7_eq_read (G : Vec Ideal S2x512 .f32) (t : Fin cfg1.N) :
    (cfg1.win 7).cut (grid1.coords t) G = ((cfg1.win 7).blk t).view.read (Elt Ideal) G := by
  obtain ⟨-, -, -, -, -, -, e0, e1⟩ := idx_facts_w t
  funext j
  rw [View.read_apply]
  show G ((cfg1.win 7).xinj (grid1.coords t) j) = G (((cfg1.win 7).blk t).view.emb j)
  congr 1
  funext a
  apply Fin.ext
  match a with
  | ⟨0, _⟩ => show (j 0).val = win1_7.index t (0 : Fin 2) * 2 + 1 * (j 0).val; omega
  | ⟨1, _⟩ => show (j 1).val = win1_7.index t (1 : Fin 2) * 512 + 1 * (j 1).val; omega

theorem totAt_congr (n : ℕ) (hn : n < cfg1.N) (e : n = 31) : totAt V c n hn = totAt V c 31 h31 := by
  subst e; rfl

/-- The one write-back, at the last position, writes the totals so far. -/
theorem flushed7_eq (h7 : ∀ t : Fin cfg1.N, dat.after 7 t = (outsAt1 V c t.val t.isLt).2.1) (t : Fin cfg1.N)
    (hf : (cfg1.win 7).flush t = true) :
    dat.flushed 7 t = ((cfg1.win 7).blk t).view.read (Elt Ideal) (totAt V c 31 h31) := by
  have h1 : t.val = 31 := by have := (flush1_7 t).mp hf; have := lt32 t; omega
  show (cfg1.win 7).cut (grid1.coords t) (dat.after 7 t) = _
  rw [h7, outs_eq]
  show (cfg1.win 7).cut (grid1.coords t) (totAt V c t.val t.isLt) = _
  rw [totAt_congr V c t.val t.isLt h1]
  exact cut7_eq_read _ t

theorem mem_blk7 (t : Fin cfg1.N) (i : S2x512.Idx) :
    i ∈ ((cfg1.win 7).blk t).view.set ↔ ∀ a : Fin 2, win1_7.index t a * S2x512.size a ≤ (i a).val ∧ (i a).val < win1_7.index t a * S2x512.size a + S2x512.size a := by
  show i ∈ ((View.whole main_v1_1).slice (win1_7.rect t)).set ↔ _
  rw [View.set_slice_whole, Rect.mem_set_unit]
  exact Iff.rfl

theorem cover7 (i : S2x512.Idx) : ∃ t : Fin cfg1.N, (cfg1.win 7).flush t = true ∧ i ∈ ((cfg1.win 7).blk t).view.set := by
  have hi0 : (i 0).val < 2 := (i 0).isLt
  have hi1 : (i 1).val < 512 := (i 1).isLt
  obtain ⟨-, -, -, -, -, -, e0, e1⟩ := idx_facts_w ⟨31, h31⟩
  refine ⟨⟨31, h31⟩, (flush1_7 _).mpr rfl, ?_⟩
  rw [mem_blk7]
  intro a
  match a with
  | ⟨0, _⟩ => show win1_7.index ⟨31, h31⟩ (0 : Fin 2) * 2 ≤ (i 0).val ∧ (i 0).val < win1_7.index ⟨31, h31⟩ (0 : Fin 2) * 2 + 2; omega
  | ⟨1, _⟩ => show win1_7.index ⟨31, h31⟩ (1 : Fin 2) * 512 ≤ (i 1).val ∧ (i 1).val < win1_7.index ⟨31, h31⟩ (1 : Fin 2) * 512 + 512; omega

/-- The totals array after the run. -/
theorem arr7_eq (h7 : ∀ t : Fin cfg1.N, dat.after 7 t = (outsAt1 V c t.val t.isLt).2.1) : dat.arrAt 7 cfg1.N = totAt V c 31 h31 :=
  dat.arrAt_eq_of_cover 7 (totAt V c 31 h31) (flushed7_eq V c dat h7) cover7

theorem arr7_apply0 (h7 : ∀ t : Fin cfg1.N, dat.after 7 t = (outsAt1 V c t.val t.isLt).2.1) (ch : Fin 512) :
    dat.arrAt 7 cfg1.N (ix2 0 ch) = Cert.Spec.sum1 (H V c) ch := by
  rw [arr7_eq V c dat h7]
  exact totLast_apply0 V c ch

theorem arr7_apply1 (h7 : ∀ t : Fin cfg1.N, dat.after 7 t = (outsAt1 V c t.val t.isLt).2.1) (ch : Fin 512) :
    dat.arrAt 7 cfg1.N (ix2 1 ch) = Cert.Spec.sum2 (H V c) ch := by
  rw [arr7_eq V c dat h7]
  exact totLast_apply1 V c ch

end Cert.KernelIdeal.Val

end
-- ==== Proof.KI.Val2.lean ====
/-
  Region 2's array after the run, index by index: every entry of the result is the activation at that entry times the
  channel's scale plus the channel's shift. The block a point writes back is that function read through the point's
  512×512 tile; the 32 tiles cover the 8×2048×512 array (entry (b, n, ·) lies in the tile of point 4·b + n/512).
-/
import proofs.«421764_j40862318854441_1_alg».proof.Proof.KI.R2
import proofs.«421764_j40862318854441_1_alg».proof.Proof.KI.Pay1
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

/-- The three arrays the region reads, as it finds them, at their literal types. -/
abbrev actArr2 (c : Dev nD) : S8x2048x512.Idx → EReal := V c main_v1_0
abbrev sclArr2 (c : Dev nD) : S512.Idx → EReal := V c main_v15
abbrev shfArr2 (c : Dev nD) : S512.Idx → EReal := V c main_v17

/-- The whole result as one function of the three arrays. -/
abbrev res2 (c : Dev nD) : S8x2048x512.Idx → EReal :=
  fun i => actArr2 V c i * sclArr2 V c (ix1 (i 2)) + shfArr2 V c (ix1 (i 2))

/-- The printed block-index maps over the grid: the activations' tile moves with the result's, the scale and the shift stay
    at block 0, and point `t`'s tile is batch `t / 4`, row tile `t % 4`, the whole channel axis. -/
theorem idx_facts2 : ∀ t : Fin cfg2.N, win2_0.index t (0 : Fin 3) = win2_3.index t (0 : Fin 3)
    ∧ win2_0.index t (1 : Fin 3) = win2_3.index t (1 : Fin 3)
    ∧ win2_0.index t (2 : Fin 3) = win2_3.index t (2 : Fin 3)
    ∧ win2_1.index t (0 : Fin 1) = 0
    ∧ win2_2.index t (0 : Fin 1) = 0
    ∧ win2_3.index t (0 : Fin 3) = t.val / 4
    ∧ win2_3.index t (1 : Fin 3) = t.val % 4
    ∧ win2_3.index t (2 : Fin 3) = 0 :=
  (by decide +kernel : ∀ t : Fin grid2.N, _)

/-- The activations' block at an entry of the tile is the array at the tile's entry. -/
theorem iblk2_0_apply (c : Dev nD) (t : Fin cfg2.N) (j : S1x512x512.Idx) (k : S8x2048x512.Idx)
    (hk0 : (k 0).val = win2_3.index t (0 : Fin 3) * 1 + 1 * (j 0).val)
    (hk1 : (k 1).val = win2_3.index t (1 : Fin 3) * 512 + 1 * (j 1).val)
    (hk2 : (k 2).val = win2_3.index t (2 : Fin 3) * 512 + 1 * (j 2).val) :
    (iblk2 V c 0 t : Vec Ideal S1x512x512 .f32) j = actArr2 V c k := by
  obtain ⟨e0, e1, e2, -⟩ := idx_facts2 t
  unfold iblk2
  rw [View.read_apply]
  show V c main_v1_0 _ = V c main_v1_0 _
  congr 1
  funext a
  apply Fin.ext
  match a with
  | ⟨0, _⟩ => show win2_0.index t (0 : Fin 3) * 1 + 1 * (j 0).val = (k 0).val; rw [e0, hk0]
  | ⟨1, _⟩ => show win2_0.index t (1 : Fin 3) * 512 + 1 * (j 1).val = (k 1).val; rw [e1, hk1]
  | ⟨2, _⟩ => show win2_0.index t (2 : Fin 3) * 512 + 1 * (j 2).val = (k 2).val; rw [e2, hk2]

/-- The scale's block is the scale. -/
theorem iblk2_1_apply (c : Dev nD) (t : Fin cfg2.N) (q : Fin 512) (k : S512.Idx) (hk : (k 0).val = q.val) :
    (iblk2 V c 1 t : Vec Ideal S512 .f32) (ix1 q) = sclArr2 V c k := by
  obtain ⟨-, -, -, e3, -⟩ := idx_facts2 t
  unfold iblk2
  rw [View.read_apply]
  show V c main_v15 _ = V c main_v15 _
  congr 1
  funext a
  apply Fin.ext
  match a with
  | ⟨0, _⟩ => show win2_1.index t (0 : Fin 1) * 512 + 1 * q.val = (k 0).val; rw [e3, hk]; omega

/-- The shift's block is the shift. -/
theorem iblk2_2_apply (c : Dev nD) (t : Fin cfg2.N) (q : Fin 512) (k : S512.Idx) (hk : (k 0).val = q.val) :
    (iblk2 V c 2 t : Vec Ideal S512 .f32) (ix1 q) = shfArr2 V c k := by
  obtain ⟨-, -, -, -, e4, -⟩ := idx_facts2 t
  unfold iblk2
  rw [View.read_apply]
  show V c main_v17 _ = V c main_v17 _
  congr 1
  funext a
  apply Fin.ext
  match a with
  | ⟨0, _⟩ => show win2_2.index t (0 : Fin 1) * 512 + 1 * q.val = (k 0).val; rw [e4, hk]; omega

/-- What point `t` writes back is its tile of `res2`. -/
theorem flushed2_eq (c : Dev nD) (t : Fin cfg2.N) :
    (dat2 V c).flushed 3 t = ((cfg2.win 3).blk t).view.read (Elt Ideal) (res2 V c) := by
  show (cfg2.win 3).cut (grid2.coords t) ((dat2 V c).after 3 t) = _
  rw [after2_3]
  unfold out2_3
  rw [View.canon_unit_zero hz2_3]
  funext j
  obtain ⟨u, p, q, rfl⟩ : ∃ (u : Fin 1) (p : Fin 512) (q : Fin 512), j = ix3 u p q := ⟨j 0, j 1, j 2, eq_ix3 j⟩
  obtain ⟨-, -, -, -, -, -, -, e7⟩ := idx_facts2 t
  show k2_pay1 (F := Ideal) (iblk2 V c 0 t) (iblk2 V c 1 t) (iblk2 V c 2 t) (ix3 u p q)
    = res2 V c (((cfg2.win 3).blk t).view.emb (ix3 u p q))
  obtain rfl : u = 0 := Subsingleton.elim _ _
  refine (k2_pay1_apply (iblk2 V c 0 t) (iblk2 V c 1 t) (iblk2 V c 2 t) p q).trans ?_
  have hq : win2_3.index t (2 : Fin 3) * 512 + 1 * q.val = q.val := by rw [e7]; omega
  show _ = actArr2 V c _ * sclArr2 V c (ix1 _) + shfArr2 V c (ix1 _)
  refine congrArg₂ (· + ·) (congrArg₂ (· * ·) ?_ ?_) ?_
  · exact iblk2_0_apply V c t (ix3 0 p q) (((cfg2.win 3).blk t).view.emb (ix3 0 p q)) rfl rfl rfl
  · exact iblk2_1_apply V c t q _ hq
  · exact iblk2_2_apply V c t q _ hq

/-- An entry of the array is in point `t`'s tile iff each coordinate is in the tile's range on its axis. -/
theorem mem_blk2 (t : Fin cfg2.N) (i : S8x2048x512.Idx) :
    i ∈ ((cfg2.win 3).blk t).view.set ↔ ∀ a : Fin 3, win2_3.index t a * S1x512x512.size a ≤ (i a).val ∧ (i a).val < win2_3.index t a * S1x512x512.size a + S1x512x512.size a := by
  show i ∈ ((View.whole main_v18).slice (win2_3.rect t)).set ↔ _
  rw [View.set_slice_whole, Rect.mem_set_unit]
  exact Iff.rfl

/-- Every entry lies in the tile of point `4·b + n / 512`. -/
theorem cover2 (i : S8x2048x512.Idx) : ∃ t : Fin cfg2.N, (cfg2.win 3).flush t = true ∧ i ∈ ((cfg2.win 3).blk t).view.set := by
  have h0 : (i 0).val < 8 := (i 0).isLt
  have h1 : (i 1).val < 2048 := (i 1).isLt
  have h2 : (i 2).val < 512 := (i 2).isLt
  have hN : cfg2.N = 32 := N_2
  let t : Fin cfg2.N := ⟨4 * (i 0).val + (i 1).val / 512, by rw [hN]; omega⟩
  have ht : t.val = 4 * (i 0).val + (i 1).val / 512 := rfl
  obtain ⟨-, -, -, -, -, e5, e6, e7⟩ := idx_facts2 t
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; rw [e5, ht]; omega
  | ⟨1, _⟩ => show win2_3.index t (1 : Fin 3) * 512 ≤ (i 1).val ∧ (i 1).val < win2_3.index t (1 : Fin 3) * 512 + 512; rw [e6, ht]; omega
  | ⟨2, _⟩ => show win2_3.index t (2 : Fin 3) * 512 ≤ (i 2).val ∧ (i 2).val < win2_3.index t (2 : Fin 3) * 512 + 512; rw [e7]; omega

/-- The result array after the region is `res2`. -/
theorem arr3_eq (c : Dev nD) : (dat2 V c).arrAt 3 cfg2.N = res2 V c :=
  (dat2 V c).arrAt_eq_of_cover 3 (res2 V c) (fun t _ => flushed2_eq V c t) cover2

/-- Index by index: the activation times the channel's scale plus the channel's shift. -/
theorem val2 (c : Dev nD) (b : Fin 8) (n : Fin 2048) (ch : Fin 512) :
    (dat2 V c).arrAt 3 cfg2.N (ix3 b n ch)
      = actArr2 V c (ix3 b n ch) * sclArr2 V c (ix1 ch) + shfArr2 V c (ix1 ch) :=
  congrFun (arr3_eq V c) (ix3 b n ch)

end Cert.KernelIdeal.Val

end
-- ==== Proof.KI.ValHost.lean ====
/-
  The host stretch between regions 1 and 2, read index by index over the extended reals: from the two rows of per-channel
  sums it makes, per channel, the scale  γ · rsqrt(S2/N − (S1/N)² + ε)  and the shift  β − (S1/N) · scale, and it writes
  nothing else that the last region or the result reads (the activations and the arguments stay as they were).
-/
import proofs.«421764_j40862318854441_1_alg».proof.Proof.Gen.KernelIdeal.Launch
import proofs.«421764_j40862318854441_1_alg».proof.Proof.Gen.KernelIdeal.Regions
import proofs.«421764_j40862318854441_1_alg».proof.Proof.Math.Spec
import Idealize.ShloMosaic.Lib.StableHlo.Run
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.Val

open Idealize.ShloMosaic Idealize.ShloMosaic.TcCoe Idealize.SL.Sem
open Idealize.ShloMosaic.ValueIdx
open Cert.KernelIdeal Cert.KernelIdeal.Gen

/-! ## What the stretch leaves alone (any float instance) -/

section Keeps
variable {F : FTy → Type} [FloatOps F] (W : Valuation τ sig (Elt F))

/-- A reference the stretch does not write keeps its contents. -/
theorem host2_keeps (r : Ref sig .tc) (h : r ∉ (hostOps2_W : List (Ref sig .tc))) :
    StableHlo.after (hostOps2 (F := F)) W (Proc.devRef .tc r) = W (Proc.devRef .tc r) :=
  StableHlo.after_of_writes_sub hostOps2 W hostOps2_writes h

theorem host2_main_v1_0 : StableHlo.after (hostOps2 (F := F)) W (Proc.devRef .tc main_v1_0) = W (Proc.devRef .tc main_v1_0) := host2_keeps W main_v1_0 (by decide)
theorem host2_main_v1_1 : StableHlo.after (hostOps2 (F := F)) W (Proc.devRef .tc main_v1_1) = W (Proc.devRef .tc main_v1_1) := host2_keeps W main_v1_1 (by decide)
theorem host2_main_v0 : StableHlo.after (hostOps2 (F := F)) W (Proc.devRef .tc main_v0) = W (Proc.devRef .tc main_v0) := host2_keeps W main_v0 (by decide)
theorem host2_main_v18 : StableHlo.after (hostOps2 (F := F)) W (Proc.devRef .tc main_v18) = W (Proc.devRef .tc main_v18) := host2_keeps W main_v18 (by decide)
theorem host2_main_arg0 : StableHlo.after (hostOps2 (F := F)) W (Proc.devRef .tc main_arg0) = W (Proc.devRef .tc main_arg0) := host2_keeps W main_arg0 (by decide)
theorem host2_main_arg1 : StableHlo.after (hostOps2 (F := F)) W (Proc.devRef .tc main_arg1) = W (Proc.devRef .tc main_arg1) := host2_keeps W main_arg1 (by decide)
theorem host2_main_arg2 : StableHlo.after (hostOps2 (F := F)) W (Proc.devRef .tc main_arg2) = W (Proc.devRef .tc main_arg2) := host2_keeps W main_arg2 (by decide)
theorem host2_main_arg3 : StableHlo.after (hostOps2 (F := F)) W (Proc.devRef .tc main_arg3) = W (Proc.devRef .tc main_arg3) := host2_keeps W main_arg3 (by decide)
theorem host2_main_arg4 : StableHlo.after (hostOps2 (F := F)) W (Proc.devRef .tc main_arg4) = W (Proc.devRef .tc main_arg4) := host2_keeps W main_arg4 (by decide)
theorem host2_main_arg5 : StableHlo.after (hostOps2 (F := F)) W (Proc.devRef .tc main_arg5) = W (Proc.devRef .tc main_arg5) := host2_keeps W main_arg5 (by decide)
theorem host2_main_arg6 : StableHlo.after (hostOps2 (F := F)) W (Proc.devRef .tc main_arg6) = W (Proc.devRef .tc main_arg6) := host2_keeps W main_arg6 (by decide)
theorem host2_main_arg7 : StableHlo.after (hostOps2 (F := F)) W (Proc.devRef .tc main_arg7) = W (Proc.devRef .tc main_arg7) := host2_keeps W main_arg7 (by decide)

end Keeps

/-! ## The pieces at an index (extended reals) -/

/-- Row `r` of a 2×512 array, cut out and flattened, read at channel `ch`. -/
theorem row_flat_apply (X : S2x512.Idx → EReal) (o : Nat) (h : S2x512.Slices ![o, 0] S1x512) (r : Fin 2) (hr : r.val = o)
    (ch : Fin 512) :
    shapeCast S512 (extractStridedSlice S1x512 ![o, 0] X h) shapeCasts_S1x512_S512 (ix1 ch) = X (ix2 r ch) :=
  (shapeCast_1a_a_apply _ _ ch).trans (slice2_axis0_apply o X h 0 ch r (by rw [hr]; rfl))

/-- A scalar literal spread over the channels reads the literal's value everywhere. -/
theorem splat_apply (w : BitVec 32) (i : S512.Idx) :
    broadcastInDim S512 ![] bcast_S_S512 (constant (F := Ideal) S_ .f32 w) i = Ideal.ofBits .f32 w := rfl

/-- The scale's operation tree at an index. -/
theorem scale_tree_apply (G R1 R2 C C' E : FVec Ideal S512 .f32) (i : S512.Idx) :
    mulf G (Host.rsqrt (addf (subf (Host.divf R2 C') (mulf (Host.divf R1 C) (Host.divf R1 C))) E)) i
      = G i * Ideal.rsqrt (Ideal.div (R2 i) (C' i) - Ideal.div (R1 i) (C i) * Ideal.div (R1 i) (C i) + E i) := rfl

/-- The shift's operation tree at an index. -/
theorem shift_tree_apply (B G R1 R2 C C' E : FVec Ideal S512 .f32) (i : S512.Idx) :
    subf B (mulf (Host.divf R1 C)
        (mulf G (Host.rsqrt (addf (subf (Host.divf R2 C') (mulf (Host.divf R1 C) (Host.divf R1 C))) E)))) i
      = B i - Ideal.div (R1 i) (C i)
          * (G i * Ideal.rsqrt (Ideal.div (R2 i) (C' i) - Ideal.div (R1 i) (C i) * Ideal.div (R1 i) (C i) + E i)) := rfl

/-! ## The scale and the shift -/

variable (W : Valuation τ sig (Elt Ideal))

/-- The arrays the stretch reads, and its two results, at their literal types. -/
abbrev sumsW : S2x512.Idx → EReal := W (Proc.devRef .tc main_v1_1)
abbrev gamW : S512.Idx → EReal := W (Proc.devRef .tc main_arg6)
abbrev betW : S512.Idx → EReal := W (Proc.devRef .tc main_arg7)
abbrev scaleW : S512.Idx → EReal := StableHlo.after (hostOps2 (F := Ideal)) W (Proc.devRef .tc main_v15)
abbrev shiftW : S512.Idx → EReal := StableHlo.after (hostOps2 (F := Ideal)) W (Proc.devRef .tc main_v17)

/-- The per-channel scale: γ · rsqrt(S2/N − (S1/N)² + ε) of the two rows of sums. -/
theorem scaleW_apply (ch : Fin 512) :
    scaleW W (ix1 ch)
      = Cert.Spec.scaleS (fun c => gamW W (ix1 c)) (fun c => sumsW W (ix2 0 c)) (fun c => sumsW W (ix2 1 c)) ch := by
  show (StableHlo.after (hostOps2 (F := Ideal)) W (Proc.devRef .tc main_v15) : S512.Idx → EReal) (ix1 ch) = _
  open StableHlo in after_results
  refine (scale_tree_apply _ _ _ _ _ _ (ix1 ch)).trans ?_
  show _ = gamW W (ix1 ch) * Ideal.rsqrt (Ideal.div (sumsW W (ix2 1 ch)) Cert.Spec.cnt
      - Ideal.div (sumsW W (ix2 0 ch)) Cert.Spec.cnt * Ideal.div (sumsW W (ix2 0 ch)) Cert.Spec.cnt + Cert.Spec.eps5)
  refine congrArg₂ (· * ·) rfl (congrArg Ideal.rsqrt (congrArg₂ (· + ·) (congrArg₂ (· - ·) (congrArg₂ Ideal.div ?_ ?_)
    (congrArg₂ (· * ·) (congrArg₂ Ideal.div ?_ ?_) (congrArg₂ Ideal.div ?_ ?_))) ?_))
  · exact row_flat_apply (sumsW W) 1 slices_S2x512_S1x512_1_0 1 rfl ch
  · exact splat_apply _ _
  · exact row_flat_apply (sumsW W) 0 slices_S2x512_S1x512_0_0 0 rfl ch
  · exact splat_apply _ _
  · exact row_flat_apply (sumsW W) 0 slices_S2x512_S1x512_0_0 0 rfl ch
  · exact splat_apply _ _
  · exact splat_apply _ _

/-- The per-channel shift: β − (S1/N) · scale. -/
theorem shiftW_apply (ch : Fin 512) :
    shiftW W (ix1 ch)
      = Cert.Spec.shiftS (fun c => gamW W (ix1 c)) (fun c => betW W (ix1 c)) (fun c => sumsW W (ix2 0 c))
          (fun c => sumsW W (ix2 1 c)) ch := by
  show (StableHlo.after (hostOps2 (F := Ideal)) W (Proc.devRef .tc main_v17) : S512.Idx → EReal) (ix1 ch) = _
  open StableHlo in after_results
  refine (shift_tree_apply _ _ _ _ _ _ _ (ix1 ch)).trans ?_
  show _ = betW W (ix1 ch) - Ideal.div (sumsW W (ix2 0 ch)) Cert.Spec.cnt
      * (gamW W (ix1 ch) * Ideal.rsqrt (Ideal.div (sumsW W (ix2 1 ch)) Cert.Spec.cnt
          - Ideal.div (sumsW W (ix2 0 ch)) Cert.Spec.cnt * Ideal.div (sumsW W (ix2 0 ch)) Cert.Spec.cnt + Cert.Spec.eps5))
  refine congrArg₂ (· - ·) rfl (congrArg₂ (· * ·) (congrArg₂ Ideal.div ?_ ?_)
    (congrArg₂ (· * ·) rfl (congrArg Ideal.rsqrt (congrArg₂ (· + ·) (congrArg₂ (· - ·) (congrArg₂ Ideal.div ?_ ?_)
      (congrArg₂ (· * ·) (congrArg₂ Ideal.div ?_ ?_) (congrArg₂ Ideal.div ?_ ?_))) ?_))))
  · exact row_flat_apply (sumsW W) 0 slices_S2x512_S1x512_0_0 0 rfl ch
  · exact splat_apply _ _
  · exact row_flat_apply (sumsW W) 1 slices_S2x512_S1x512_1_0 1 rfl ch
  · exact splat_apply _ _
  · exact row_flat_apply (sumsW W) 0 slices_S2x512_S1x512_0_0 0 rfl ch
  · exact splat_apply _ _
  · exact row_flat_apply (sumsW W) 0 slices_S2x512_S1x512_0_0 0 rfl ch
  · exact splat_apply _ _
  · exact splat_apply _ _

end Cert.KernelIdeal.Val

end
-- ==== Proof.KI.Value.lean ====
/-
  The kernel's result, index by index, as the specification's function of the launch memory: the last boundary's
  contents at the result array are region 2's multiply-add of region 1's activations with the scale and the shift the
  host stretch makes from region 1's two running sums; the activations are the specification's through the adjacency
  matrix region 0 leaves; every argument is read back through the boundaries to the launch memory.
-/
import proofs.«421764_j40862318854441_1_alg».proof.Proof.KI.Run
import proofs.«421764_j40862318854441_1_alg».proof.Proof.KI.Val0
import proofs.«421764_j40862318854441_1_alg».proof.Proof.KI.Val1
import proofs.«421764_j40862318854441_1_alg».proof.Proof.KI.Val2
import proofs.«421764_j40862318854441_1_alg».proof.Proof.KI.ValHost
import proofs.«421764_j40862318854441_1_alg».proof.Proof.Math.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (m : (ℓ : Loc nD τ sig) → Buf (Elt Ideal) ℓ) (ρ : Dev nD → PrngReg) (c : Dev nD)

/-! ## The specification's arguments, read off the launch memory -/

/-- Node features, neighbour indices, the two weight matrices and biases, the batch-norm scale and shift. -/
abbrev mX (b : Fin 8) (n : Fin 2048) (f : Fin 256) : EReal := (m ((c : Thread nD τ).loc main_arg0) : S8x2048x256.Idx → EReal) (ix3 b n f)
abbrev mIdx (n : Fin 2048) (k : Fin 32) : BitVec 32 := (m ((c : Thread nD τ).loc main_arg1) : S2048x32.Idx → BitVec 32) (ix2 n k)
abbrev mWX (o f : Fin 256) : EReal := (m ((c : Thread nD τ).loc main_arg2) : S256x256.Idx → EReal) (ix2 o f)
abbrev mBX (o : Fin 256) : EReal := (m ((c : Thread nD τ).loc main_arg3) : S256.Idx → EReal) (ix1 o)
abbrev mWN (o f : Fin 256) : EReal := (m ((c : Thread nD τ).loc main_arg4) : S256x256.Idx → EReal) (ix2 o f)
abbrev mBN (o : Fin 256) : EReal := (m ((c : Thread nD τ).loc main_arg5) : S256.Idx → EReal) (ix1 o)
abbrev mG (ch : Fin 512) : EReal := (m ((c : Thread nD τ).loc main_arg6) : S512.Idx → EReal) (ix1 ch)
abbrev mBE (ch : Fin 512) : EReal := (m ((c : Thread nD τ).loc main_arg7) : S512.Idx → EReal) (ix1 ch)

/-! ## Region 1's inputs at its entry are the launch arguments and region 0's matrix -/

theorem X_eq : X (Hand.V1 m ρ) c = mX m c := by
  funext b n f; unfold X xarr
  exact congrFun ((W1_of_ne m ρ c main_arg0 (by decide)).trans rfl) (ix3 b n f)
theorem WX_eq : WX (Hand.V1 m ρ) c = mWX m c := by
  funext o f; unfold WX wxarr
  exact congrFun ((W1_of_ne m ρ c main_arg2 (by decide)).trans rfl) (ix2 o f)
theorem BX_eq : BX (Hand.V1 m ρ) c = mBX m c := by
  funext o; unfold BX bxarr
  exact congrFun ((W1_of_ne m ρ c main_arg3 (by decide)).trans rfl) (ix1 o)
theorem WN_eq : WN (Hand.V1 m ρ) c = mWN m c := by
  funext o f; unfold WN wnarr
  exact congrFun ((W1_of_ne m ρ c main_arg4 (by decide)).trans rfl) (ix2 o f)
theorem BN_eq : BN (Hand.V1 m ρ) c = mBN m c := by
  funext o; unfold BN bnarr
  exact congrFun ((W1_of_ne m ρ c main_arg5 (by decide)).trans rfl) (ix1 o)
/-- The matrix region 1 reads is the mean-adjacency matrix of the launch's index table. -/
theorem A_eq : A (Hand.V1 m ρ) c = Cert.Spec.adj (mIdx m c) := by
  funext n j; unfold A aarr
  exact (congrFun (W1_arr m ρ c 1) (ix2 n j)).trans (val0 (Hand.V0 m ρ) c n j)

/-- Region 1's activations are the specification's, through the adjacency matrix. -/
theorem H_eq : H (Hand.V1 m ρ) c = Cert.Spec.HK (mX m c) (mIdx m c) (mWX m c) (mBX m c) (mWN m c) (mBN m c) := by
  unfold H Cert.Spec.HK Cert.Spec.hneiK
  rw [X_eq, WX_eq, BX_eq, WN_eq, BN_eq, A_eq]

/-! ## Region 2's three inputs at its entry -/

/-- The activations array: the host stretch does not write it; region 1 leaves it at the activations. -/
theorem v1_0_apply (b : Fin 8) (n : Fin 2048) (ch : Fin 512) :
    actArr2 (Hand.V3 m ρ) c (ix3 b n ch)
      = Cert.Spec.HK (mX m c) (mIdx m c) (mWX m c) (mBX m c) (mWN m c) (mBN m c) b n ch := by
  rw [← H_eq m ρ c]
  exact (congrFun ((W3_of m ρ c main_v1_0 (by decide)).trans (W2_arr m ρ c 6)) (ix3 b n ch)).trans
    (arr6_apply (Hand.V1 m ρ) c (dat1 (Hand.V1 m ρ) c) (after1_6 (Hand.V1 m ρ) c) b n ch)

/-- The two running sums region 1 leaves are the activations' channel sums and sums of squares. -/
theorem s1_eq : (fun c' : Fin 512 => sumsW (W2 m ρ c) (ix2 0 c'))
    = Cert.Spec.sum1 (Cert.Spec.HK (mX m c) (mIdx m c) (mWX m c) (mBX m c) (mWN m c) (mBN m c)) := by
  funext ch; rw [← H_eq m ρ c]
  exact (congrFun (W2_arr m ρ c 7) (ix2 0 ch)).trans (arr7_apply0 (Hand.V1 m ρ) c (dat1 (Hand.V1 m ρ) c) (after1_7 (Hand.V1 m ρ) c) ch)
theorem s2_eq : (fun c' : Fin 512 => sumsW (W2 m ρ c) (ix2 1 c'))
    = Cert.Spec.sum2 (Cert.Spec.HK (mX m c) (mIdx m c) (mWX m c) (mBX m c) (mWN m c) (mBN m c)) := by
  funext ch; rw [← H_eq m ρ c]
  exact (congrFun (W2_arr m ρ c 7) (ix2 1 ch)).trans (arr7_apply1 (Hand.V1 m ρ) c (dat1 (Hand.V1 m ρ) c) (after1_7 (Hand.V1 m ρ) c) ch)
/-- The batch-norm scale and shift arguments reach the host stretch as launched. -/
theorem g_eq : (fun c' : Fin 512 => gamW (W2 m ρ c) (ix1 c')) = mG m c := by
  funext ch
  exact congrFun ((W2_of_ne m ρ c main_arg6 (by decide)).trans ((W1_of_ne m ρ c main_arg6 (by decide)).trans rfl)) (ix1 ch)
theorem be_eq : (fun c' : Fin 512 => betW (W2 m ρ c) (ix1 c')) = mBE m c := by
  funext ch
  exact congrFun ((W2_of_ne m ρ c main_arg7 (by decide)).trans ((W1_of_ne m ρ c main_arg7 (by decide)).trans rfl)) (ix1 ch)

/-! ## The result -/

/-- The kernel's result at an index is the specification's `resK` of the launch arguments. -/
theorem result_apply (b : Fin 8) (n : Fin 2048) (ch : Fin 512) :
    (W4 (F := Ideal) m ρ c (Proc.devRef .tc main_v18) : S8x2048x512.Idx → EReal) (ix3 b n ch)
      = Cert.Spec.resK (fun b n f => (m ((c : Thread nD τ).loc main_arg0) : S8x2048x256.Idx → EReal) (ix3 b n f))
          (fun n k => (m ((c : Thread nD τ).loc main_arg1) : S2048x32.Idx → BitVec 32) (ix2 n k))
          (fun o f => (m ((c : Thread nD τ).loc main_arg2) : S256x256.Idx → EReal) (ix2 o f))
          (fun o => (m ((c : Thread nD τ).loc main_arg3) : S256.Idx → EReal) (ix1 o))
          (fun o f => (m ((c : Thread nD τ).loc main_arg4) : S256x256.Idx → EReal) (ix2 o f))
          (fun o => (m ((c : Thread nD τ).loc main_arg5) : S256.Idx → EReal) (ix1 o))
          (fun c' => (m ((c : Thread nD τ).loc main_arg6) : S512.Idx → EReal) (ix1 c'))
          (fun c' => (m ((c : Thread nD τ).loc main_arg7) : S512.Idx → EReal) (ix1 c')) b n ch := by
  show _ = Cert.Spec.resK (mX m c) (mIdx m c) (mWX m c) (mBX m c) (mWN m c) (mBN m c) (mG m c) (mBE m c) b n ch
  unfold Cert.Spec.resK Cert.Spec.outK
  rw [← v1_0_apply m ρ c b n ch, ← s1_eq m ρ c, ← s2_eq m ρ c, ← g_eq m ρ c, ← be_eq m ρ c,
    ← scaleW_apply (W2 m ρ c) ch, ← shiftW_apply (W2 m ρ c) ch]
  exact (congrFun (W4_arr m ρ c 3) (ix3 b n ch)).trans (val2 (Hand.V3 m ρ) c b n ch)

/-- The same as one equation of arrays: the result array is the specification's `resK` read at an index's coordinates. -/
theorem result_eq : (W4 (F := Ideal) m ρ c (Proc.devRef .tc main_v18) : S8x2048x512.Idx → EReal)
    = fun i => Cert.Spec.resK (mX m c) (mIdx m c) (mWX m c) (mBX m c) (mWN m c) (mBN m c) (mG m c) (mBE m c) (i 0) (i 1) (i 2) := by
  funext i
  exact (congrArg (W4 (F := Ideal) m ρ c (Proc.devRef .tc main_v18) : S8x2048x512.Idx → EReal) (eq_ix3 i)).trans
    (result_apply m ρ c (i 0) (i 1) (i 2))

end Cert.KernelIdeal.Val

end
-- ==== Proof.Pre.Decode.lean ====
/-
  The precondition, read back. The predicate is one function of the eight argument arrays: for each of
  the seven float arrays the test "every |x| is below +∞", and for the integer table the test "every word w has
  0 ≤ w and w < 2048, read signed", all eight reduced by `and`. That the function is all ones says: every float
  entry is a real number (neither infinity, and not the junk value ⊥ either, since |⊥| = ⊥ ⊔ ⊤ = ⊤), and every
  index word lies in [0, 2048), hence reads the same signed and unsigned.

  Proved once over the eight contents as variables (`decode_fn`), then read at a memory's argument arrays for
  each of the two programs (`decode`, `decode_ref`).
-/
import proofs.«421764_j40862318854441_1_alg».proof.Defs
import proofs.«421764_j40862318854441_1_alg».proof.Proof.Gen.Pre_finite_inputs
import Idealize.ShloMosaic.Lib.ReduceAll
import Idealize.ShloMosaic.Lib.ValueIdx

noncomputable section

namespace Cert.Pre

open Idealize.ShloMosaic Idealize.ShloMosaic.ValueIdx Idealize.SL.Sem
open Cert.Pre_finite_inputs

/-- The scalar shape has one index. -/
instance : Subsingleton S_.Idx := ⟨fun a b => funext fun d => d.elim0⟩

/-! ## One element -/

/-- An extended real whose absolute value `x ⊔ −x` is below the word of +∞ is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    have : Ideal.cmp .olt (max (x : EReal) (-(x : EReal))) ⊤ = 0#1 := by simp [Ideal.cmp, hn]
    rw [this] at h
    exact absurd h (by decide)
  obtain ⟨h1, h2⟩ := max_lt_iff.1 hlt
  induction x using EReal.rec with
  | bot => simp at h2
  | coe r => exact ⟨r, rfl⟩
  | top => simp at h1

/-- A 32-bit word in [0, 2048) read signed is below 2048 read unsigned. -/
theorem toNat_lt_of_toInt (w : BitVec 32) (h0 : 0 ≤ w.toInt) (h1 : w.toInt < 2048) : w.toNat < 2048 := by
  have hw := w.isLt
  rw [BitVec.toInt_eq_toNat_cond] at h0 h1
  split at h0 <;> omega

/-! ## One array -/

/-- A conjunction of two `i1` arrays that is 1 at an index: both are. -/
theorem and_split {s : Shape} (x y : IVec s 1) (i : s.Idx) (h : andi x y i = 1#1) : x i = 1#1 ∧ y i = 1#1 :=
  IntOp.andi_eq_one.1 h

/-- The finiteness test of one float array came out 1: every entry is a real number. -/
theorem real_of_test {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) (i : s.Idx) : ∃ r : ℝ, a i = (r : EReal) :=
  real_of_abs_lt_inf (a i) (Host.reduce_andi_all _ _ hr hu ix0 e i)

/-- The range test of the index table came out 1: every word is in [0, 2048), read signed. -/
theorem range_of_test {s : Shape} {axes : List (Fin s.rank)} (a : IVec s 32)
    (hb : S_.BroadcastsInDim s (![] : Fin 0 → Fin s.rank)) (hr : s.ReducesTo axes S_) (hu : 0 < S_.numel)
    (e : Host.reduce IntOp.andi
      (andi (cmpi .sge a (broadcastInDim s ![] hb (constantI S_ 32 0#32)))
        (cmpi .slt a (broadcastInDim s ![] hb (constantI S_ 32 2048#32))))
      (constantI S_ 1 1#1) hr hu ix0 = 1#1) (i : s.Idx) : 0 ≤ (a i).toInt ∧ (a i).toInt < 2048 := by
  obtain ⟨hge, hlt⟩ := and_split _ _ i (Host.reduce_andi_all _ _ hr hu ix0 e i)
  have h0 : (0#32 : BitVec 32).toInt ≤ (a i).toInt := IntOp.cmpi_sge.1 hge
  have h1 : (a i).toInt < (2048#32 : BitVec 32).toInt := IntOp.cmpi_slt.1 hlt
  rw [show (0#32 : BitVec 32).toInt = 0 from by decide] at h0
  rw [show (2048#32 : BitVec 32).toInt = 2048 from by decide] at h1
  exact ⟨h0, h1⟩

/-! ## The predicate -/

/-- What the predicate says of the eight contents. -/
structure Decoded (a0 : FVec Ideal S8x2048x256 .f32) (a1 : IVec S2048x32 32) (a2 : FVec Ideal S256x256 .f32)
    (a3 : FVec Ideal S256 .f32) (a4 : FVec Ideal S256x256 .f32) (a5 : FVec Ideal S256 .f32)
    (a6 : FVec Ideal S512 .f32) (a7 : FVec Ideal S512 .f32) : Prop where
  real0 : ∀ i, ∃ r : ℝ, a0 i = (r : EReal)
  real2 : ∀ i, ∃ r : ℝ, a2 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  idx_int : ∀ (n : Fin 2048) (k : Fin 32), 0 ≤ (a1 (ix2 n k)).toInt ∧ (a1 (ix2 n k)).toInt < 2048
  idx_nat : ∀ (n : Fin 2048) (k : Fin 32), (a1 (ix2 n k)).toNat < 2048

variable [hF : Cert.Pre_finite_inputs.Facts]

/-- The predicate all ones: the seven float arrays hold real numbers, the index table words in [0, 2048). -/
theorem decode_fn (a0 : FVec Ideal S8x2048x256 .f32) (a1 : IVec S2048x32 32) (a2 : FVec Ideal S256x256 .f32)
    (a3 : FVec Ideal S256 .f32) (a4 : FVec Ideal S256x256 .f32) (a5 : FVec Ideal S256 .f32)
    (a6 : FVec Ideal S512 .f32) (a7 : FVec Ideal S512 .f32)
    (h : Cert.Pre_finite_inputs.fn (F := Ideal) a0 a1 a2 a3 a4 a5 a6 a7 = (fun _ => 1#1)) :
    Decoded a0 a1 a2 a3 a4 a5 a6 a7 := by
  have e := congrFun h ix0
  dsimp only [Cert.Pre_finite_inputs.fn, Cert.Pre_finite_inputs.fn_part1, Cert.Pre_finite_inputs.fn_part2] at e
  obtain ⟨e, e1⟩ := and_split _ _ _ e
  obtain ⟨e, e7⟩ := and_split _ _ _ e
  obtain ⟨e, e6⟩ := and_split _ _ _ e
  obtain ⟨e, e5⟩ := and_split _ _ _ e
  obtain ⟨e, e4⟩ := and_split _ _ _ e
  obtain ⟨e, e3⟩ := and_split _ _ _ e
  obtain ⟨e0, e2⟩ := and_split _ _ _ e
  have hidx := range_of_test a1 _ _ _ e1
  exact
    { real0 := real_of_test a0 _ _ _ e0
      real2 := real_of_test a2 _ _ _ e2
      real3 := real_of_test a3 _ _ _ e3
      real4 := real_of_test a4 _ _ _ e4
      real5 := real_of_test a5 _ _ _ e5
      real6 := real_of_test a6 _ _ _ e6
      real7 := real_of_test a7 _ _ _ e7
      idx_int := fun n k => hidx (ix2 n k)
      idx_nat := fun n k => toNat_lt_of_toInt _ (hidx (ix2 n k)).1 (hidx (ix2 n k)).2 }

/-! ## At a memory's argument arrays -/

/-- The kernel's precondition, on every device: its float arguments hold reals, its index table words in [0, 2048). -/
theorem decode (m : (ℓ : Loc Cert.KernelIdeal.nD Cert.KernelIdeal.τ Cert.KernelIdeal.sig) → Buf (Elt Ideal) ℓ)
    (h : Cert.Pre_KernelIdeal m) (c : Dev Cert.KernelIdeal.nD) :
    Decoded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) :=
  decode_fn _ _ _ _ _ _ _ _ (h c)

/-- The reference's precondition, on every device: the same reading. -/
theorem decode_ref (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Decoded
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7)) :=
  decode_fn _ _ _ _ _ _ _ _ (h c)

end Cert.Pre

end
-- ==== Proof.Math.Bridge.lean ====
/-
  The two results of Math/Spec.lean agree for finite inputs and in-range neighbour indices.

  Road: every input is the coercion of a real, so every intermediate value is one too (sums, products,
  quotients by a nonzero real, square roots of nonnegative reals, maxima). Over the reals,
  (a) the adjacency matrix times the projected features is the projection of the gathered mean:
      ∑ⱼ (#{k | sel k = j} · c) · (∑_f X j f · W f) = ∑_f ((∑ₖ X (sel k) f) · c) · W f ;
  (b) E[h²] − (E h)² = E[(h − E h)²], so both variances, hence both reciprocal roots, coincide, and
      h · (γ r) + (β − μ (γ r)) = (h − μ) r γ + β.
-/
import proofs.«421764_j40862318854441_1_alg».proof.Proof.Math.Spec
import Idealize.ShloMosaic.PureOps.Ideal
import Idealize.ShloMosaic.PureOps.Ideal.Laws
import Mathlib.Data.EReal.Operations
import Mathlib.Algebra.BigOperators.Ring.Finset
import Mathlib.Algebra.Order.BigOperators.Ring.Finset
import Mathlib.Tactic.Ring
import Mathlib.Tactic.FieldSimp
import Mathlib.Tactic.NormNum
import Mathlib.Tactic.Positivity

noncomputable section

namespace Cert.Spec

open Idealize.ShloMosaic

/-! ## Coercions of reals into the extended reals -/

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coerced maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A quotient by a nonzero real is real. -/
theorem div_real (a m : ℝ) (hm : m ≠ 0) :
    Ideal.div (a : EReal) (m : EReal) = ((a * (1 / m) : ℝ) : EReal) := by
  rw [Ideal.div_coe hm, ← EReal.coe_mul]

/-- The square root of a nonnegative real is real. -/
theorem sqrt_real (a : ℝ) (ha : 0 ≤ a) : Ideal.sqrt (a : EReal) = ((Real.sqrt a : ℝ) : EReal) := by
  rw [Ideal.sqrt_coe, if_neg (not_lt.mpr ha)]

/-- The reciprocal root of a positive real is real. -/
theorem rsqrt_real (a : ℝ) (ha : 0 < a) :
    Ideal.rsqrt (a : EReal) = (((Real.sqrt a)⁻¹ : ℝ) : EReal) := by
  rw [Ideal.rsqrt_coe, if_neg (not_lt.mpr ha.le), if_neg ha.ne']

/-! ## The literal words as reals -/

theorem inv32_eq : inv32 = ((1 / 32 : ℝ) : EReal) := by
  simp [inv32, Ideal.ofBits, Ideal.ieee, -EReal.coe_mul]; norm_num

theorem c32_eq : c32 = ((32 : ℝ) : EReal) := by
  simp [c32, Ideal.ofBits, Ideal.ieee, -EReal.coe_mul]; norm_num

theorem cnt_eq : cnt = ((16384 : ℝ) : EReal) := by
  simp [cnt, Ideal.ofBits, Ideal.ieee, -EReal.coe_mul]; norm_num

theorem eps12_pos : ∃ e : ℝ, 0 < e ∧ eps12 = (e : EReal) := by
  refine ⟨_, ?_, by simp [eps12, Ideal.ofBits, Ideal.ieee, -EReal.coe_mul]; rfl⟩
  positivity

theorem eps5_pos : ∃ e : ℝ, 0 < e ∧ eps5 = (e : EReal) := by
  refine ⟨_, ?_, by simp [eps5, Ideal.ofBits, Ideal.ieee, -EReal.coe_mul]; rfl⟩
  positivity

/-! ## Over the reals: the adjacency product is the projection of the gathered mean -/

/-- ∑ⱼ (#{k | sel k = j} · c) · (∑_f X j f · W f) = ∑_f ((∑ₖ X (sel k) f) · c) · W f. -/
theorem adj_mul_real {ι κ φ : Type*} [Fintype ι] [Fintype κ] [Fintype φ] [DecidableEq ι]
    (sel : κ → ι) (c : ℝ) (X : ι → φ → ℝ) (W : φ → ℝ) :
    ∑ j, ((∑ k, if sel k = j then (1 : ℝ) else 0) * c) * (∑ f, X j f * W f)
      = ∑ f, ((∑ k, X (sel k) f) * c) * W f := by
  have h1 : ∀ j, ((∑ k, if sel k = j then (1 : ℝ) else 0) * c) * (∑ f, X j f * W f)
      = ∑ k, if sel k = j then c * (∑ f, X j f * W f) else 0 := by
    intro j
    rw [Finset.sum_mul, Finset.sum_mul]
    refine Finset.sum_congr rfl fun k _ => ?_
    split_ifs <;> ring
  simp only [h1]
  rw [Finset.sum_comm]
  simp only [Finset.sum_ite_eq, Finset.mem_univ, if_true]
  simp only [Finset.mul_sum, Finset.sum_mul]
  rw [Finset.sum_comm]
  exact Finset.sum_congr rfl fun f _ => Finset.sum_congr rfl fun k _ => by ring

/-! ## Over the reals: the two variances -/

/-- With N the number of terms and μ = S₁/N: (∑ (h − μ)²)/N = S₂/N − μ². -/
theorem var_real {α β : Type*} [Fintype α] [Fintype β] (h : α → β → ℝ) (N : ℝ)
    (hN : (Fintype.card α : ℝ) * (Fintype.card β : ℝ) = N) (hN0 : N ≠ 0) :
    (∑ a, ∑ b, (h a b - (∑ a, ∑ b, h a b) * (1 / N)) * (h a b - (∑ a, ∑ b, h a b) * (1 / N))) * (1 / N)
      = (∑ a, ∑ b, h a b * h a b) * (1 / N)
        - ((∑ a, ∑ b, h a b) * (1 / N)) * ((∑ a, ∑ b, h a b) * (1 / N)) := by
  subst hN
  have ha : (Fintype.card α : ℝ) ≠ 0 := left_ne_zero_of_mul hN0
  have hb : (Fintype.card β : ℝ) ≠ 0 := right_ne_zero_of_mul hN0
  have e : ∀ m : ℝ, ∀ a b, (h a b - m) * (h a b - m) = h a b * h a b - (2 * m) * h a b + m * m := by
    intro m a b; ring
  simp only [e, Finset.sum_add_distrib, Finset.sum_sub_distrib, ← Finset.mul_sum, Finset.sum_const,
    Finset.card_univ, nsmul_eq_mul]
  field_simp
  ring

/-- The variance is nonnegative. -/
theorem var_nonneg {α β : Type*} [Fintype α] [Fintype β] (h : α → β → ℝ) (m N : ℝ) (hN : 0 < N) :
    0 ≤ (∑ a, ∑ b, (h a b - m) * (h a b - m)) * (1 / N) := by
  refine mul_nonneg (Finset.sum_nonneg fun a _ => Finset.sum_nonneg fun b _ => mul_self_nonneg _) ?_
  positivity

/-! ## The neighbour half, both ways, for real inputs -/

/-- A word below 2048 is the word of j : Fin 2048 exactly when its value is j. -/
theorem word_eq_iff (w : BitVec 32) (hw : w.toNat < 2048) (j : Fin 2048) :
    w = BitVec.ofNat 32 j.val ↔ (⟨w.toNat, hw⟩ : Fin 2048) = j := by
  constructor
  · intro h
    apply Fin.ext
    have h2 : w.toNat = (BitVec.ofNat 32 j.val).toNat := congrArg BitVec.toNat h
    rw [BitVec.toNat_ofNat] at h2
    have := j.isLt
    show w.toNat = j.val
    omega
  · intro h
    apply BitVec.eq_of_toNat_eq
    rw [BitVec.toNat_ofNat, ← h]
    show w.toNat = w.toNat % 2 ^ 32
    omega

theorem ite_coe (p : Prop) [Decidable p] :
    (if p then (1 : EReal) else 0) = (((if p then (1 : ℝ) else 0) : ℝ) : EReal) := by
  split_ifs <;> simp

section Transfer

variable (X : Fin 8 → Fin 2048 → Fin 256 → ℝ) (idx : Fin 2048 → Fin 32 → BitVec 32)
  (WX : Fin 256 → Fin 256 → ℝ) (BX : Fin 256 → ℝ)
  (WN : Fin 256 → Fin 256 → ℝ) (BN : Fin 256 → ℝ)

theorem hneiK_coe (b : Fin 8) (n : Fin 2048) (o : Fin 256) :
    hneiK (fun b n f => ((X b n f : ℝ) : EReal)) idx (fun o f => ((WN o f : ℝ) : EReal))
        (fun o => ((BN o : ℝ) : EReal)) b n o
      = (((∑ j : Fin 2048, ((∑ k : Fin 32, if idx n k = BitVec.ofNat 32 j.val then (1 : ℝ) else 0) * (1 / 32))
            * (∑ f : Fin 256, X b j f * WN o f)) + BN o : ℝ) : EReal) := by
  simp only [hneiK, hneiA, adj, yproj, inv32_eq, ite_coe, ← EReal.coe_mul, coe_sum, ← EReal.coe_add]

theorem hneiR_coe (hidx : ∀ n k, (idx n k).toNat < 2048) (b : Fin 8) (n : Fin 2048) (o : Fin 256) :
    hneiR (fun b n f => ((X b n f : ℝ) : EReal)) idx (fun o f => ((WN o f : ℝ) : EReal))
        (fun o => ((BN o : ℝ) : EReal)) b n o
      = (((∑ f : Fin 256, ((∑ k : Fin 32, X b ⟨(idx n k).toNat, hidx n k⟩ f) * (1 / 32)) * WN o f)
            + BN o : ℝ) : EReal) := by
  have d32 : ∀ a : ℝ, Ideal.div (a : EReal) ((32 : ℝ) : EReal) = ((a * (1 / 32) : ℝ) : EReal) :=
    fun a => div_real a 32 (by norm_num)
  simp only [hneiR, xneib, c32_eq, hidx, dite_true, coe_sum, d32, ← EReal.coe_mul, ← EReal.coe_add]

/-- The neighbour half through the adjacency matrix is the one through the gathered mean. -/
theorem hneiK_eq_hneiR_coe (hidx : ∀ n k, (idx n k).toNat < 2048) :
    hneiK (fun b n f => ((X b n f : ℝ) : EReal)) idx (fun o f => ((WN o f : ℝ) : EReal))
        (fun o => ((BN o : ℝ) : EReal))
      = hneiR (fun b n f => ((X b n f : ℝ) : EReal)) idx (fun o f => ((WN o f : ℝ) : EReal))
        (fun o => ((BN o : ℝ) : EReal)) := by
  funext b n o
  rw [hneiK_coe, hneiR_coe X idx WN BN hidx, EReal.coe_eq_coe_iff]
  congr 1
  have := adj_mul_real (fun k : Fin 32 => (⟨(idx n k).toNat, hidx n k⟩ : Fin 2048)) (1 / 32)
    (fun j f => X b j f) (fun f => WN o f)
  simp only [← word_eq_iff] at this
  exact this

/-! ## The clamped, normalised activations are real -/

/-- The 512 channels over the reals. -/
def hcatR (HN : Fin 8 → Fin 2048 → Fin 256 → ℝ) (b : Fin 8) (n : Fin 2048) (c : Fin 512) : ℝ :=
  if h : c.val < 256 then (∑ f : Fin 256, X b n f * WX ⟨c.val, h⟩ f) + BX ⟨c.val, h⟩
  else HN b n ⟨c.val - 256, by omega⟩

theorem hcat_coe (HN : Fin 8 → Fin 2048 → Fin 256 → ℝ) (b : Fin 8) (n : Fin 2048) (c : Fin 512) :
    hcat (fun b n f => ((X b n f : ℝ) : EReal)) (fun o f => ((WX o f : ℝ) : EReal))
        (fun o => ((BX o : ℝ) : EReal)) (fun b n o => ((HN b n o : ℝ) : EReal)) b n c
      = ((hcatR X WX BX HN b n c : ℝ) : EReal) := by
  unfold hcat hcatR hself
  split_ifs with h
  · simp only [← EReal.coe_mul, coe_sum, ← EReal.coe_add]
  · rfl

theorem max_zero_real (a : ℝ) : max (a : EReal) 0 = ((max a 0 : ℝ) : EReal) := by
  have := coe_max a 0
  rwa [EReal.coe_zero] at this

theorem hrelu_real (HN : Fin 8 → Fin 2048 → Fin 256 → ℝ) (b : Fin 8) (n : Fin 2048) (c : Fin 512) :
    ∃ r : ℝ, hrelu (fun b n f => ((X b n f : ℝ) : EReal)) (fun o f => ((WX o f : ℝ) : EReal))
        (fun o => ((BX o : ℝ) : EReal)) (fun b n o => ((HN b n o : ℝ) : EReal)) b n c = (r : EReal) := by
  obtain ⟨e, he, hE⟩ := eps12_pos
  refine ⟨max (hcatR X WX BX HN b n c
      * (1 / max (Real.sqrt (∑ c' : Fin 512, hcatR X WX BX HN b n c' * hcatR X WX BX HN b n c')) e)) 0, ?_⟩
  simp only [hrelu, nrm, hcat_coe, hE, ← EReal.coe_mul, coe_sum]
  rw [sqrt_real _ (Finset.sum_nonneg fun c _ => mul_self_nonneg _), coe_max,
    div_real _ _ (lt_of_lt_of_le he (le_max_right _ _)).ne', max_zero_real]

end Transfer

/-! ## Batch normalisation, the two ways, of a real array -/

theorem div_cnt (a : ℝ) : Ideal.div (a : EReal) cnt = ((a * (1 / 16384) : ℝ) : EReal) := by
  rw [cnt_eq]; exact div_real a 16384 (by norm_num)

/-- With both variances the same positive-shifted real, the folded scale and shift give the textbook form. -/
theorem bn_real (h μ v v' γ β e : ℝ) (hvv : v' = v) (hpos : 0 < v + e) :
    (h : EReal) * ((γ : EReal) * Ideal.rsqrt ((v : EReal) + (e : EReal)))
        + ((β : EReal) - (μ : EReal) * ((γ : EReal) * Ideal.rsqrt ((v : EReal) + (e : EReal))))
      = ((h : EReal) - (μ : EReal)) * Ideal.rsqrt ((v' : EReal) + (e : EReal)) * (γ : EReal) + (β : EReal) := by
  subst hvv
  rw [← EReal.coe_add, rsqrt_real _ hpos]
  simp only [← EReal.coe_mul, ← EReal.coe_sub, ← EReal.coe_add]
  rw [EReal.coe_eq_coe_iff]
  ring

section BN

variable (Hr : Fin 8 → Fin 2048 → Fin 512 → ℝ) (G BE : Fin 512 → ℝ)

/-- The channel's sum, sum of squares, mean and the two variances over the reals. -/
def s1R (c : Fin 512) : ℝ := ∑ b : Fin 8, ∑ n : Fin 2048, Hr b n c
def s2R (c : Fin 512) : ℝ := ∑ b : Fin 8, ∑ n : Fin 2048, Hr b n c * Hr b n c
def muRr (c : Fin 512) : ℝ := s1R Hr c * (1 / 16384)
def vK (c : Fin 512) : ℝ := s2R Hr c * (1 / 16384) - muRr Hr c * muRr Hr c
def vR (c : Fin 512) : ℝ :=
  (∑ b : Fin 8, ∑ n : Fin 2048, (Hr b n c - muRr Hr c) * (Hr b n c - muRr Hr c)) * (1 / 16384)

theorem vR_eq_vK (c : Fin 512) : vR Hr c = vK Hr c := by
  have hcard : (Fintype.card (Fin 8) : ℝ) * (Fintype.card (Fin 2048) : ℝ) = 16384 := by
    simp only [Fintype.card_fin]; norm_num
  exact var_real (fun b n => Hr b n c) 16384 hcard (by norm_num)

theorem vR_nonneg (c : Fin 512) : 0 ≤ vR Hr c :=
  var_nonneg (fun b n => Hr b n c) _ 16384 (by norm_num)

theorem sum1_coe (c : Fin 512) :
    sum1 (fun b n c => ((Hr b n c : ℝ) : EReal)) c = ((s1R Hr c : ℝ) : EReal) := by
  simp only [sum1, s1R, coe_sum]

theorem sum2_coe (c : Fin 512) :
    sum2 (fun b n c => ((Hr b n c : ℝ) : EReal)) c = ((s2R Hr c : ℝ) : EReal) := by
  simp only [sum2, s2R, ← EReal.coe_mul, coe_sum]

theorem meanS_coe (c : Fin 512) :
    meanS (sum1 (fun b n c => ((Hr b n c : ℝ) : EReal))) c = ((muRr Hr c : ℝ) : EReal) := by
  unfold meanS muRr
  rw [sum1_coe, div_cnt]

theorem muR_coe (c : Fin 512) :
    muR (fun b n c => ((Hr b n c : ℝ) : EReal)) c = ((muRr Hr c : ℝ) : EReal) := by
  unfold muR muRr
  rw [sum1_coe, div_cnt]

theorem varS_coe (c : Fin 512) :
    varS (sum1 (fun b n c => ((Hr b n c : ℝ) : EReal))) (sum2 (fun b n c => ((Hr b n c : ℝ) : EReal))) c
      = ((vK Hr c : ℝ) : EReal) := by
  unfold varS vK
  rw [meanS_coe, sum2_coe, div_cnt, ← EReal.coe_mul, ← EReal.coe_sub]

theorem varR_coe (c : Fin 512) :
    varR (fun b n c => ((Hr b n c : ℝ) : EReal)) c = ((vR Hr c : ℝ) : EReal) := by
  unfold varR vR
  simp only [muR_coe, ← EReal.coe_sub, ← EReal.coe_mul, coe_sum, div_cnt]

/-- One scale and one shift from the two sums give the textbook batch normalisation of a real array. -/
theorem outK_eq_outR_coe :
    outK (fun b n c => ((Hr b n c : ℝ) : EReal)) (fun c => ((G c : ℝ) : EReal)) (fun c => ((BE c : ℝ) : EReal))
      = outR (fun b n c => ((Hr b n c : ℝ) : EReal)) (fun c => ((G c : ℝ) : EReal))
          (fun c => ((BE c : ℝ) : EReal)) := by
  funext b n c
  obtain ⟨e, he, hE⟩ := eps5_pos
  unfold outK outR shiftS scaleS
  rw [meanS_coe, varS_coe, varR_coe, muR_coe, hE]
  exact bn_real (Hr b n c) (muRr Hr c) (vK Hr c) (vR Hr c) (G c) (BE c) e (vR_eq_vK Hr c)
    (by rw [← vR_eq_vK]; exact add_pos_of_nonneg_of_pos (vR_nonneg Hr c) he)

end BN

/-! ## The two programs' results agree -/

theorem resK_eq_resR (x : Fin 8 → Fin 2048 → Fin 256 → EReal) (idx : Fin 2048 → Fin 32 → BitVec 32)
    (wx : Fin 256 → Fin 256 → EReal) (bx : Fin 256 → EReal)
    (wn : Fin 256 → Fin 256 → EReal) (bn : Fin 256 → EReal) (g be : Fin 512 → EReal)
    (hx : ∀ b n f, ∃ r : ℝ, x b n f = (r : EReal))
    (hwx : ∀ o f, ∃ r : ℝ, wx o f = (r : EReal)) (hbx : ∀ o, ∃ r : ℝ, bx o = (r : EReal))
    (hwn : ∀ o f, ∃ r : ℝ, wn o f = (r : EReal)) (hbn : ∀ o, ∃ r : ℝ, bn o = (r : EReal))
    (hg : ∀ c, ∃ r : ℝ, g c = (r : EReal)) (hbe : ∀ c, ∃ r : ℝ, be c = (r : EReal))
    (hidx : ∀ n k, (idx n k).toNat < 2048) :
    Cert.Spec.resK x idx wx bx wn bn g be = Cert.Spec.resR x idx wx bx wn bn g be := by
  choose X hX using hx
  choose WX hWX using hwx
  choose BX hBX using hbx
  choose WN hWN using hwn
  choose BN hBN using hbn
  choose G hG using hg
  choose BE hBE using hbe
  obtain rfl : x = fun b n f => ((X b n f : ℝ) : EReal) := by funext b n f; exact hX b n f
  obtain rfl : wx = fun o f => ((WX o f : ℝ) : EReal) := by funext o f; exact hWX o f
  obtain rfl : bx = fun o => ((BX o : ℝ) : EReal) := by funext o; exact hBX o
  obtain rfl : wn = fun o f => ((WN o f : ℝ) : EReal) := by funext o f; exact hWN o f
  obtain rfl : bn = fun o => ((BN o : ℝ) : EReal) := by funext o; exact hBN o
  obtain rfl : g = fun c => ((G c : ℝ) : EReal) := by funext c; exact hG c
  obtain rfl : be = fun c => ((BE c : ℝ) : EReal) := by funext c; exact hBE c
  unfold resK resR HK HR
  rw [hneiK_eq_hneiR_coe X idx WN BN hidx]
  have hn : hneiR (fun b n f => ((X b n f : ℝ) : EReal)) idx (fun o f => ((WN o f : ℝ) : EReal))
      (fun o => ((BN o : ℝ) : EReal))
      = fun b n o => (((∑ f : Fin 256, ((∑ k : Fin 32, X b ⟨(idx n k).toNat, hidx n k⟩ f) * (1 / 32)) * WN o f)
            + BN o : ℝ) : EReal) := by
    funext b n o; exact hneiR_coe X idx WN BN hidx b n o
  rw [hn]
  choose Hr hHr using hrelu_real X WX BX
    (fun b n o => (∑ f : Fin 256, ((∑ k : Fin 32, X b ⟨(idx n k).toNat, hidx n k⟩ f) * (1 / 32)) * WN o f) + BN o)
  have hH : hrelu (fun b n f => ((X b n f : ℝ) : EReal)) (fun o f => ((WX o f : ℝ) : EReal))
      (fun o => ((BX o : ℝ) : EReal))
      (fun b n o => (((∑ f : Fin 256, ((∑ k : Fin 32, X b ⟨(idx n k).toNat, hidx n k⟩ f) * (1 / 32)) * WN o f)
            + BN o : ℝ) : EReal))
      = fun b n c => ((Hr b n c : ℝ) : EReal) := by
    funext b n c; exact hHr b n c
  rw [hH]
  exact outK_eq_outR_coe Hr G BE

end Cert.Spec

end
-- ==== Proof.Assemble.lean ====
/-
  The claims assembled from the parts: the two ideal programs' frames, and their agreement over the extended reals —
  the kernel's result array and the reference's are the same function of the arguments, entry by entry, because each
  is one of the two closed forms of the mathematics and those agree on real inputs with in-range indices.
-/
import proofs.«421764_j40862318854441_1_alg».proof.Defs
import proofs.«421764_j40862318854441_1_alg».proof.Proof.Gen.Kernel
import proofs.«421764_j40862318854441_1_alg».proof.Proof.Gen.KernelIdeal
import proofs.«421764_j40862318854441_1_alg».proof.Proof.Gen.ReferenceIdeal
import proofs.«421764_j40862318854441_1_alg».proof.Proof.Gen.Pre_finite_inputs
import proofs.«421764_j40862318854441_1_alg».proof.Proof.KI.Run
import proofs.«421764_j40862318854441_1_alg».proof.Proof.Ref.Term
import proofs.«421764_j40862318854441_1_alg».proof.Proof.Ref.Run
import proofs.«421764_j40862318854441_1_alg».proof.Proof.Ref.ReadAll
import proofs.«421764_j40862318854441_1_alg».proof.Proof.KI.Value
import proofs.«421764_j40862318854441_1_alg».proof.Proof.Pre.Decode
import proofs.«421764_j40862318854441_1_alg».proof.Proof.Math.Spec
import proofs.«421764_j40862318854441_1_alg».proof.Proof.Math.Bridge
import Idealize.ShloMosaic.Lib.ValueIdx

set_option maxRecDepth 16384

noncomputable section

/-! ## The assembly -/

namespace Cert.Proof.Parts

open Idealize.ShloMosaic Idealize.ShloMosaic.TcCoe Idealize.SL.Sem Idealize.ShloMosaic.ValueIdx

/-- The ideal kernel runs and leaves its arguments as launched. -/
theorem frame_ki : Cert.frame_KernelIdeal := fun m ρ _ => Cert.KernelIdeal.Hand.frame m ρ

/-- The ideal reference runs and leaves its arguments as launched. -/
theorem frame_ri : Cert.frame_ReferenceIdeal := fun m ρ _ =>
  (θ_run _ _ _).mono (fun r h c => (h c).2) (Cert.ReferenceIdeal.Hand.run m ρ)

/-- From memories agreeing on the arguments, with real float arguments and in-range indices, the two ideal programs end
    with the same result: entry `(b, n, ch)` of either is the mathematics' closed form of the arguments, and the two
    closed forms agree. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v18), ?_, ?_⟩
  · exact (θ_run _ _ _).mono (fun r h c =>
      ⟨h c _ (Cert.KernelIdeal.Hand.mem_uc Cert.KernelIdeal.main_v18 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c),
       (h c _ (Cert.KernelIdeal.Hand.mem_uc Cert.KernelIdeal.main_arg7 (by decide))).trans (Cert.KernelIdeal.Hand.W4_main_arg7 m ρ c)⟩)
      (Cert.KernelIdeal.Hand.run_main m ρ)
  · refine (θ_run _ _ _).mono (fun r h c => ⟨?_, (h c).2⟩) (Cert.ReferenceIdeal.Hand.run m' ρ')
    obtain ⟨h0, h1, h2, h3, h4, h5, h6, h7⟩ := hagree c
    refine (h c).1.trans ?_
    rw [h0, h1, h2, h3, h4, h5, h6, h7]
    have D := Cert.Pre.decode m hpre c
    funext i
    obtain ⟨b, n, ch, rfl⟩ : ∃ (b : Fin 8) (n : Fin 2048) (ch : Fin 512), i = ix3 b n ch := ⟨i 0, i 1, i 2, eq_ix3 i⟩
    refine (Cert.ReferenceIdeal.Hand.refTerm_apply _ _ _ _ _ _ _ _ D.idx_int b n ch).trans ?_
    refine Eq.trans ?_ (Cert.KernelIdeal.Val.result_apply m ρ c b n ch).symm
    exact (congrFun (congrFun (congrFun (Cert.Spec.resK_eq_resR _ _ _ _ _ _ _ _
      (fun b n f => D.real0 (ix3 b n f)) (fun o f => D.real2 (ix2 o f)) (fun o => D.real3 (ix1 o))
      (fun o f => D.real4 (ix2 o f)) (fun o => D.real5 (ix1 o)) (fun c' => D.real6 (ix1 c')) (fun c' => D.real7 (ix1 c'))
      D.idx_nat) b) n) ch).symm

/-- The claim from the word-level kernel's frame and the parts above. -/
theorem claim_of (hk : Cert.frame_Kernel) : Cert.Claim :=
  ⟨Cert.Kernel.Gen.facts, Cert.KernelIdeal.Gen.facts, Cert.ReferenceIdeal.Gen.facts, Cert.Pre_finite_inputs.Gen.facts,
    hk, frame_ki, frame_ri, trivial, algebraic⟩

end Cert.Proof.Parts

end
-- ==== Proof.lean ====
/-
  The certificate: a three-stage graph layer against its plain reference, over the extended reals.

  The layer takes node features x[8, 2048, 256], a table of 32 neighbour indices per node, two 256×256 projections
  with biases, and a per-channel scale and shift. It (i) builds the 2048×2048 mean-adjacency matrix
  A[n, j] = #{k | idx[n, k] = j} / 32, one 256-row tile at a time; (ii) per batch and 512-row tile forms the 512 channels
  (x·Wxᵀ + bx , A·(x·Wnᵀ) + bn), divides each row by max(‖row‖₂, ε₁), clamps at zero, and keeps two running totals per
  channel (the sum and the sum of squares over all 8·2048 rows); (iii) applies one multiply-add per entry with
  scale = γ·rsqrt(S₂/N − (S₁/N)² + ε₂) and shift = β − (S₁/N)·scale.

  The reference gathers the 32 neighbour rows, averages them, projects, and normalises each channel with the textbook
  biased variance E[(h − E h)²].

  The two agree, entry by entry, when every float input is finite and every neighbour index lies in [0, 2048):
  * ∑ⱼ A[n, j]·y[j] = (∑ₖ y[idx[n, k]]) / 32 for a real vector y (each slot's indicator picks one j), and the projection is
    linear, so the adjacency product of the projected features is the projection of the gathered mean;
  * E[h²] − (E h)² = E[(h − E h)²] over the reals, and h·s + (β − μ·s) = (h − μ)·r·γ + β with s = γ·r.
  Outside that index range the reference wraps a negative index and fills an out-of-range one, while the one-hot
  comparison matches no column: the stated domain is the range of the axis the indices address.

  The parts: each program runs to the end, faults nowhere and leaves its inputs unchanged (the three regions and the
  host operations between them, with the cached projection and the running totals carried from grid point to grid
  point); the idealised program's result array is the first formula of the inputs, the reference's the second; the
  bridge between the two formulas; the precondition read as "every entry a real, every index in range".
-/
import proofs.«421764_j40862318854441_1_alg».proof.Defs
import proofs.«421764_j40862318854441_1_alg».proof.Proof.Assemble
import proofs.«421764_j40862318854441_1_alg».proof.Proof.K.Run

noncomputable section

namespace Cert.Proof

/-- The word-level program's frame is the same run read at the word-level instance; with it, the parts make the claim. -/
theorem claim : Cert.Claim :=
  Cert.Proof.Parts.claim_of (fun m ρ _ => Cert.Kernel.Hand.frame m ρ)

end Cert.Proof

end
